-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x8 : Shape := ⟨2, ![256, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_
  bcast_S_S100000 : S_.BroadcastsInDim S100000 (![] : Fin 0 → Fin S100000.rank)
  reducesTo_S100000_S_d0 : S100000.ReducesTo [0] S_

variable [Facts]

def fn_part3 {F : FTy → Type} [FloatOps F] (main_arg3 : IVec S100000 32) (main_arg14 : FVec F S256x8 .f32) (main_arg15 : FVec F S8 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x8 .f32 := Host.absf main_arg14
  let main_cst_20 : FVec F S_ .f32 := constant S_ .f32 0x7F800000#32
  let main_v55 : FVec F S256x8 .f32 := broadcastInDim S256x8 ![] bcast_S_S256x8 main_cst_20
  let main_v56 : IVec S256x8 1 := cmpf .olt main_v54 main_v55
  let main_c_21 : IVec S_ 1 := constantI S_ 1 1#1
  let main_v57 : IVec S_ 1 := (fun x v => Host.reduce IntOp.andi x v reducesTo_S256x8_S_d0_1 h_S_) main_v56 main_c_21
  let main_v58 : IVec S_ 1 := andi main_v53 main_v57
  let main_v59 : FVec F S8 .f32 := Host.absf main_arg15
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_c_24 : IVec S_ 32 := constantI S_ 32 0#32
  let main_v64 : IVec S100000 32 := broadcastInDim S100000 ![] bcast_S_S100000 main_c_24
  let main_v65 : IVec S100000 1 := cmpi .sge main_arg3 main_v64
  let main_c_25 : IVec S_ 1 := constantI S_ 1 1#1
  let main_v66 : IVec S_ 1 := (fun x v => Host.reduce IntOp.andi x v reducesTo_S100000_S_d0 h_S_) main_v65 main_c_25
  let main_v67 : IVec S_ 1 := andi main_v63 main_v66
  main_v67

def fn_part2 {F : FTy → Type} [FloatOps F] (main_arg3 : IVec S100000 32) (main_arg10 : FVec F S128x256 .f32) (main_arg11 : FVec F S256 .f32) (main_arg12 : FVec F S256x256 .f32) (main_arg13 : FVec F S256 .f32) (main_arg14 : FVec F S256x8 .f32) (main_arg15 : FVec F S8 .f32) (main_v33 : IVec S_ 1) : IVec S_ 1 :=
  let main_v34 : FVec F S128x256 .f32 := Host.absf main_arg10
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg11
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg12
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg13
  let main_cst_18 : FVec F S_ .f32 := constant S_ .f32 0x7F800000#32
  let main_v50 : FVec F S256 .f32 := broadcastInDim S256 ![] bcast_S_S256 main_cst_18
  fn_part3 (F := F) main_arg3 main_arg14 main_arg15 main_v48 main_v49 main_v50

def fn_part1 {F : FTy → Type} [FloatOps F] (main_arg3 : IVec S100000 32) (main_arg7 : FVec F S128 .f32) (main_arg8 : FVec F S128x128 .f32) (main_arg9 : FVec F S128 .f32) (main_arg10 : FVec F S128x256 .f32) (main_arg11 : FVec F S256 .f32) (main_arg12 : FVec F S256x256 .f32) (main_arg13 : FVec F S256 .f32) (main_arg14 : FVec F S256x8 .f32) (main_arg15 : FVec F S8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg10 main_arg11 main_arg12 main_arg13 main_arg14 main_arg15 main_v33

def fn {F : FTy → Type} [FloatOps F] (main_arg0 : FVec F S100000x128 .f32) (main_arg1 : IVec S1600000 32) (main_arg2 : IVec S1600000 32) (main_arg3 : IVec S100000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x256 .f32) (main_arg11 : FVec F S256 .f32) (main_arg12 : FVec F S256x256 .f32) (main_arg13 : FVec F S256 .f32) (main_arg14 : FVec F S256x8 .f32) (main_arg15 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg7 main_arg8 main_arg9 main_arg10 main_arg11 main_arg12 main_arg13 main_arg14 main_arg15 main_v13 main_v16
-- ==== Kernel.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x8 : Shape := ⟨2, ![256, 8]⟩
abbrev S8 : Shape := ⟨1, ![8]⟩
abbrev S_ : Shape := ⟨0, ![]⟩
abbrev S1600000x1 : Shape := ⟨2, ![1600000, 1]⟩
abbrev S100000x1 : Shape := ⟨2, ![100000, 1]⟩
abbrev S4000x128 : Shape := ⟨2, ![4000, 128]⟩
abbrev S4000x1 : Shape := ⟨2, ![4000, 1]⟩
abbrev S1600000x128 : Shape := ⟨2, ![1600000, 128]⟩
abbrev S1x128 : Shape := ⟨2, ![1, 128]⟩
abbrev S256x128 : Shape := ⟨2, ![256, 128]⟩
abbrev S1x256 : Shape := ⟨2, ![1, 256]⟩
abbrev S4000x256 : Shape := ⟨2, ![4000, 256]⟩
abbrev S256x1 : Shape := ⟨2, ![256, 1]⟩
abbrev S1x8 : Shape := ⟨2, ![1, 8]⟩

abbrev nBuf : Space → Nat
  | .hbm => 112
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x8, .f32⟩
  | .hbm, ⟨15, _⟩ => ⟨S8, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .bf16⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .bf16⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S100000x1, .f32⟩
  | .hbm, ⟨51, _⟩ => ⟨S100000x1, .f32⟩
  | .hbm, ⟨52, _⟩ => ⟨S100000x128, .bf16⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .bf16⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x1, .f32⟩
  | .hbm, ⟨68, _⟩ => ⟨S100000x1, .f32⟩
  | .hbm, ⟨69, _⟩ => ⟨S100000x128, .bf16⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x128, .bf16⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S100000x1, .i32⟩
  | .hbm, ⟨85, _⟩ => ⟨S100000x1, .f32⟩
  | .hbm, ⟨86, _⟩ => ⟨S256x128, .f32⟩
  | .hbm, ⟨87, _⟩ => ⟨S_, .i32⟩
  | .hbm, ⟨88, _⟩ => ⟨S256, .i32⟩
  | .hbm, ⟨89, _⟩ => ⟨S_, .i32⟩
  | .hbm, ⟨90, _⟩ => ⟨S_, .i32⟩
  | .hbm, ⟨91, _⟩ => ⟨S100000, .i32⟩
  | .hbm, ⟨92, _⟩ => ⟨S100000, .i32⟩
  | .hbm, ⟨93, _⟩ => ⟨S_, .i32⟩
  | .hbm, ⟨94, _⟩ => ⟨S100000, .i32⟩
  | .hbm, ⟨95, _⟩ => ⟨S100000, .i1⟩
  | .hbm, ⟨96, _⟩ => ⟨S_, .i32⟩
  | .hbm, ⟨97, _⟩ => ⟨S100000, .i32⟩
  | .hbm, ⟨98, _⟩ => ⟨S100000, .i32⟩
  | .hbm, ⟨99, _⟩ => ⟨S100000, .i32⟩
  | .hbm, ⟨100, _⟩ => ⟨S100000x1, .i32⟩
  | .hbm, ⟨101, _⟩ => ⟨S_, .i32⟩
  | .hbm, ⟨102, _⟩ => ⟨S100000, .i32⟩
  | .hbm, ⟨103, _⟩ => ⟨S256, .i32⟩
  | .hbm, ⟨104, _⟩ => ⟨S256, .f32⟩
  | .hbm, ⟨105, _⟩ => ⟨S_, .f32⟩
  | .hbm, ⟨106, _⟩ => ⟨S256, .f32⟩
  | .hbm, ⟨107, _⟩ => ⟨S256, .f32⟩
  | .hbm, ⟨108, _⟩ => ⟨S256x1, .f32⟩
  | .hbm, ⟨109, _⟩ => ⟨S256x128, .f32⟩
  | .hbm, ⟨110, _⟩ => ⟨S256x128, .f32⟩
  | .hbm, ⟨111, _⟩ => ⟨S256x8, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S128, .f32⟩
  | .local _ .vmem, ⟨12, _⟩ => ⟨S128x128, .f32⟩
  | .local _ .vmem, ⟨13, _⟩ => ⟨S4000x1, .f32⟩
  | .local _ .vmem, ⟨14, _⟩ => ⟨S4000x1, .f32⟩
  | .local _ .vmem, ⟨15, _⟩ => ⟨S4000x128, .bf16⟩
  | .local _ .vmem, ⟨16, _⟩ => ⟨S4000x128, .bf16⟩
  | .local _ .vmem, ⟨17, _⟩ => ⟨S4000x128, .f32⟩
  | .local _ .vmem, ⟨18, _⟩ => ⟨S4000x128, .f32⟩
  | .local _ .vmem, ⟨19, _⟩ => ⟨S4000x1, .f32⟩
  | .local _ .vmem, ⟨20, _⟩ => ⟨S4000x1, .f32⟩
  | .local _ .vmem, ⟨21, _⟩ => ⟨S128, .f32⟩
  | .local _ .vmem, ⟨22, _⟩ => ⟨S128x128, .f32⟩
  | .local _ .vmem, ⟨23, _⟩ => ⟨S4000x1, .f32⟩
  | .local _ .vmem, ⟨24, _⟩ => ⟨S4000x1, .f32⟩
  | .local _ .vmem, ⟨25, _⟩ => ⟨S4000x128, .bf16⟩
  | .local _ .vmem, ⟨26, _⟩ => ⟨S4000x128, .bf16⟩
  | .local _ .vmem, ⟨27, _⟩ => ⟨S4000x128, .f32⟩
  | .local _ .vmem, ⟨28, _⟩ => ⟨S4000x128, .f32⟩
  | .local _ .vmem, ⟨29, _⟩ => ⟨S4000x1, .f32⟩
  | .local _ .vmem, ⟨30, _⟩ => ⟨S4000x1, .f32⟩
  | .local _ .vmem, ⟨31, _⟩ => ⟨S128, .f32⟩
  | .local _ .vmem, ⟨32, _⟩ => ⟨S4000x1, .i32⟩
  | .local _ .vmem, ⟨33, _⟩ => ⟨S4000x1, .i32⟩
  | .local _ .vmem, ⟨34, _⟩ => ⟨S256x128, .f32⟩
  | .local _ .vmem, ⟨35, _⟩ => ⟨S256x128, .f32⟩
  | .local _ .vmem, ⟨36, _⟩ => ⟨S256x128, .f32⟩
  | .local _ .vmem, ⟨37, _⟩ => ⟨S128x256, .f32⟩
  | .local _ .vmem, ⟨38, _⟩ => ⟨S256, .f32⟩
  | .local _ .vmem, ⟨39, _⟩ => ⟨S256x256, .f32⟩
  | .local _ .vmem, ⟨40, _⟩ => ⟨S256, .f32⟩
  | .local _ .vmem, ⟨41, _⟩ => ⟨S256x8, .f32⟩
  | .local _ .vmem, ⟨42, _⟩ => ⟨S8, .f32⟩
  | .local _ .vmem, ⟨43, _⟩ => ⟨S256x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_6 : Ref sig .tc := ⟨.hbm, 53, rfl⟩
abbrev main_v29 : Ref sig .tc := ⟨.hbm, 54, rfl⟩
abbrev main_v30 : Ref sig .tc := ⟨.hbm, 55, rfl⟩
abbrev main_c_7 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_9 : Ref sig .tc := ⟨.hbm, 70, rfl⟩
abbrev main_v43 : Ref sig .tc := ⟨.hbm, 71, rfl⟩
abbrev main_v44 : Ref sig .tc := ⟨.hbm, 72, rfl⟩
abbrev main_c_10 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_12 : Ref sig .tc := ⟨.hbm, 87, rfl⟩
abbrev main_v57 : Ref sig .tc := ⟨.hbm, 88, rfl⟩
abbrev main_c_13 : Ref sig .tc := ⟨.hbm, 89, rfl⟩
abbrev main_call0_v0 : Ref sig .tc := ⟨.hbm, 90, rfl⟩
abbrev main_call0_v1 : Ref sig .tc := ⟨.hbm, 91, rfl⟩
abbrev main_v58 : Ref sig .tc := ⟨.hbm, 92, rfl⟩
abbrev main_c_14 : Ref sig .tc := ⟨.hbm, 93, rfl⟩
abbrev main_v59 : Ref sig .tc := ⟨.hbm, 94, rfl⟩
abbrev main_v60 : Ref sig .tc := ⟨.hbm, 95, rfl⟩
abbrev main_c_15 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_16 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_17 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem3_1 : DmaSem sig := 33
abbrev cc3_sem4_0 : DmaSem sig := 34
abbrev cc4_sem0_0 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem6_0 : DmaSem sig := 41
abbrev cc4_sem7_0 : DmaSem sig := 42

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v31 : BitVec 1 := Scalar.cmpi .eq arg0 c24_i32
  let v32 : BitVec 32 := Scalar.extui v31
  let c0_i32_12 : BitVec 32 := 0#32
  let v33 : BitVec 1 := Scalar.cmpi .ne v32 c0_i32_12
  v33

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S256x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x8 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S8 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x8 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S4000x128_S4000x128 : S4000x128.ShapeCasts S4000x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  iota_S1x256_d1_w32 : S1x256.Iotas .tc 32 [1]
  broadcasts_S4000x1_S4000x256 : S4000x1.Broadcasts S4000x256
  broadcasts_S1x256_S4000x256 : S1x256.Broadcasts S4000x256
  natLt_1_32 : 1 < 32
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  inb_S256x8_S256x8_0_0 : ∀ a, (![0, 0] : Fin 2 → Nat) a + S256x8.size a ≤ S256x8.size a
  h_S256x8 : 0 < S256x8.numel
  inb_S8_S8_0 : ∀ a, (![0] : Fin 1 → Nat) a + S8.size a ≤ S8.size a
  h_S8 : 0 < S8.numel
  shapeCasts_S8_S1x8 : S8.ShapeCasts S1x8
  broadcasts_S1x8_S256x8 : S1x8.Broadcasts S256x8
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x256_S4000x128_S256x128_0_0_1_1_n_n_wf : DotDims.WF S4000x256 S4000x128 S256x128 [0] [0] [1] [1] [] []
  scatter_S256_S100000x1_S100000_n_0_0_1_wf : ScatterDims.WF S256 S100000x1 S100000 [] [0] [0] 1
  dot_S256x128_S128x256_S256x256_1_0_0_1_n_n_wf : DotDims.WF S256x128 S128x256 S256x256 [1] [0] [0] [1] [] []
  dot_S256x256_S256x256_S256x256_1_0_0_1_n_n_wf : DotDims.WF S256x256 S256x256 S256x256 [1] [0] [0] [1] [] []
  dot_S256x256_S256x8_S256x8_1_0_0_1_n_n_wf : DotDims.WF S256x256 S256x8 S256x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S100000x1.size a
  hwx1_4 : ∀ i : grid1.Coords, EltTy.bits .f32 = 32 ∨ (Rect.block (s := S100000x1) S4000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .bf16 = 32 ∨ (Rect.block (s := S100000x128) S4000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x1.size a ≤ S100000x1.size a
  hwx2_4 : ∀ i : grid2.Coords, EltTy.bits .f32 = 32 ∨ (Rect.block (s := S100000x1) S4000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .bf16 = 32 ∨ (Rect.block (s := S100000x128) S4000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x1.size a ≤ S100000x1.size a
  hwx3_3 : ∀ i : grid3.Coords, EltTy.bits .i32 = 32 ∨ (Rect.block (s := S100000x1) S4000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x128.size a ≤ S256x128.size a
  hwx3_4 : ∀ i : grid3.Coords, EltTy.bits .f32 = 32 ∨ (Rect.block (s := S256x128) S256x128.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x128.size a ≤ S256x128.size a
  hwx4_0 : ∀ i : grid4.Coords, EltTy.bits .f32 = 32 ∨ (Rect.block (s := S256x128) S256x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256.size a ≤ S256.size a
  hwx4_2 : ∀ i : grid4.Coords, EltTy.bits .f32 = 32 ∨ (Rect.block (s := S256) S256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256.size a ≤ S256.size a
  hwx4_4 : ∀ i : grid4.Coords, EltTy.bits .f32 = 32 ∨ (Rect.block (s := S256) S256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x8.size a ≤ S256x8.size a
  hwx4_5 : ∀ i : grid4.Coords, EltTy.bits .f32 = 32 ∨ (Rect.block (s := S256x8) S256x8.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S8.size a ≤ S8.size a
  hwx4_6 : ∀ i : grid4.Coords, EltTy.bits .f32 = 32 ∨ (Rect.block (s := S8) S8.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x8.size a ≤ S256x8.size a
  hwx4_7 : ∀ i : grid4.Coords, EltTy.bits .f32 = 32 ∨ (Rect.block (s := S256x8) S256x8.size (cc4_transform_7 i) (hinb4_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x256_S4000x128_S256x128_0_0_1_1_n_n : DotDims S4000x256 S4000x128 S256x128 where
  lhsContracting := [0]
  rhsContracting := [0]
  lhsNonContracting := [1]
  rhsNonContracting := [1]
  lhsBatch := []
  rhsBatch := []
  wf := dot_S4000x256_S4000x128_S256x128_0_0_1_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x8_S256x8_1_0_0_1_n_n : DotDims S256x256 S256x8 S256x8 where
  lhsContracting := [1]
  rhsContracting := [0]
  lhsNonContracting := [0]
  rhsNonContracting := [1]
  lhsBatch := []
  rhsBatch := []
  wf := dot_S256x256_S256x8_S256x8_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S4000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v28) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S4000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v42) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v53) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S4000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v56) S256x128.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v72) S256x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg13) S256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg14) S256x8.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg15) S8.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v73) S256x8.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x8 : Shape := ⟨2, ![256, 8]⟩
abbrev S8 : Shape := ⟨1, ![8]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S256x128 : Shape := ⟨2, ![256, 128]⟩
abbrev S256x1 : Shape := ⟨2, ![256, 1]⟩
abbrev S1x256 : Shape := ⟨2, ![1, 256]⟩
abbrev S1x8 : Shape := ⟨2, ![1, 8]⟩

abbrev nBuf : Space → Nat
  | .hbm => 146
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S100000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x256, .f32⟩
  | 11 => ⟨S256, .f32⟩
  | 12 => ⟨S256x256, .f32⟩
  | 13 => ⟨S256, .f32⟩
  | 14 => ⟨S256x8, .f32⟩
  | 15 => ⟨S8, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S_, .f32⟩
  | 31 => ⟨S100000, .f32⟩
  | 32 => ⟨S100000, .f32⟩
  | 33 => ⟨S100000, .f32⟩
  | 34 => ⟨S100000x128, .f32⟩
  | 35 => ⟨S100000x1, .f32⟩
  | 36 => ⟨S100000x128, .f32⟩
  | 37 => ⟨S100000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S_, .f32⟩
  | 48 => ⟨S100000x128, .f32⟩
  | 49 => ⟨S1600000x1, .i32⟩
  | 50 => ⟨S100000x128, .f32⟩
  | 51 => ⟨S100000x1, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S100000x128, .f32⟩
  | 61 => ⟨S100000x1, .f32⟩
  | 62 => ⟨S100000x128, .f32⟩
  | 63 => ⟨S100000x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S100000x1, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x128, .f32⟩
  | 87 => ⟨S100000x1, .f32⟩
  | 88 => ⟨S100000x128, .f32⟩
  | 89 => ⟨S100000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S_, .f32⟩
  | 100 => ⟨S100000x128, .f32⟩
  | 101 => ⟨S1600000x1, .i32⟩
  | 102 => ⟨S100000x128, .f32⟩
  | 103 => ⟨S100000x1, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S_, .f32⟩
  | 113 => ⟨S256x128, .f32⟩
  | 114 => ⟨S100000x1, .i32⟩
  | 115 => ⟨S256x128, .f32⟩
  | 116 => ⟨S_, .f32⟩
  | 117 => ⟨S100000, .f32⟩
  | 118 => ⟨S_, .f32⟩
  | 119 => ⟨S256, .f32⟩
  | 120 => ⟨S100000x1, .i32⟩
  | 121 => ⟨S256, .f32⟩
  | 122 => ⟨S_, .f32⟩
  | 123 => ⟨S256, .f32⟩
  | 124 => ⟨S256, .f32⟩
  | 125 => ⟨S256x1, .f32⟩
  | 126 => ⟨S256x128, .f32⟩
  | 127 => ⟨S256x128, .f32⟩
  | _ => ⟨S100000x128, .f32⟩

abbrev hbmTy0_1 (i : Nat) : BufTy := match i % 128 with
  | 0 => ⟨S256x256, .f32⟩
  | 1 => ⟨S1x256, .f32⟩
  | 2 => ⟨S256x256, .f32⟩
  | 3 => ⟨S256x256, .f32⟩
  | 4 => ⟨S_, .f32⟩
  | 5 => ⟨S256x256, .f32⟩
  | 6 => ⟨S256x256, .f32⟩
  | 7 => ⟨S256x256, .f32⟩
  | 8 => ⟨S1x256, .f32⟩
  | 9 => ⟨S256x256, .f32⟩
  | 10 => ⟨S256x256, .f32⟩
  | 11 => ⟨S_, .f32⟩
  | 12 => ⟨S256x256, .f32⟩
  | 13 => ⟨S256x256, .f32⟩
  | 14 => ⟨S256x8, .f32⟩
  | 15 => ⟨S1x8, .f32⟩
  | 16 => ⟨S256x8, .f32⟩
  | 17 => ⟨S256x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call0_cst : Ref sig .tc := ⟨.hbm, 57, rfl⟩
abbrev main_call0_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_6 : Ref sig .tc := ⟨.hbm, 64, rfl⟩
abbrev main_v38 : Ref sig .tc := ⟨.hbm, 65, rfl⟩
abbrev main_v39 : Ref sig .tc := ⟨.hbm, 66, rfl⟩
abbrev main_c_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call1_cst : Ref sig .tc := ⟨.hbm, 83, rfl⟩
abbrev main_call1_v0 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_9 : Ref sig .tc := ⟨.hbm, 90, rfl⟩
abbrev main_v59 : Ref sig .tc := ⟨.hbm, 91, rfl⟩
abbrev main_v60 : Ref sig .tc := ⟨.hbm, 92, rfl⟩
abbrev main_c_10 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_call2_cst : Ref sig .tc := ⟨.hbm, 109, rfl⟩
abbrev main_call2_v0 : Ref sig .tc := ⟨.hbm, 110, rfl⟩
abbrev main_v75 : Ref sig .tc := ⟨.hbm, 111, rfl⟩
abbrev main_cst_12 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_13 : Ref sig .tc := ⟨.hbm, 116, rfl⟩
abbrev main_v79 : Ref sig .tc := ⟨.hbm, 117, rfl⟩
abbrev main_cst_14 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_15 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_call3_cst : Ref sig .tc := ⟨.hbm, 132, rfl⟩
abbrev main_call3_v0 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_call4_cst : Ref sig .tc := ⟨.hbm, 139, rfl⟩
abbrev main_call4_v0 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  bcast_S8_S1x8_1 : S8.BroadcastsInDim S1x8 (![1] : Fin 1 → Fin S1x8.rank)
  bcast_S1x8_S256x8_0_1 : S1x8.BroadcastsInDim S256x8 (![0, 1] : Fin 2 → Fin S256x8.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x256_S256x256_1_0_0_1_n_n_wf : DotDims.WF S256x128 S128x256 S256x256 [1] [0] [0] [1] [] []
  dot_S256x256_S256x256_S256x256_1_0_0_1_n_n_wf : DotDims.WF S256x256 S256x256 S256x256 [1] [0] [0] [1] [] []
  dot_S256x256_S256x8_S256x8_1_0_0_1_n_n_wf : DotDims.WF S256x256 S256x8 S256x8 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x8_S256x8_1_0_0_1_n_n : DotDims S256x256 S256x8 S256x8 where
  lhsContracting := [1]
  rhsContracting := [0]
  lhsNonContracting := [0]
  rhsNonContracting := [1]
  lhsBatch := []
  rhsBatch := []
  wf := dot_S256x256_S256x8_S256x8_1_0_0_1_n_n_wf

class Facts : Prop extends Facts₀ where

variable [Facts]
-- ==== Proof.K.R0.lean ====
/- Region 0 of @main (the first layer's linear map and source-side scaling), at the buffer contents `V` found
   when the region is entered, for any float instance: each window's block at a grid point, what the body leaves in
   the output window's staging buffer as a function of the three input blocks, the body's triple, the pipeline's
   proof data and its body obligation. -/
import proofs.«417676_j6554120093878_3_alg».proof.Proof.Gen.Kernel.Launch
import proofs.«417676_j6554120093878_3_alg».proof.Proof.Gen.Kernel.Skeleton
import proofs.«417676_j6554120093878_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4000 rows: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the node features: its staging buffer holds the block of the point, fetched there or not,
    for any proof data over the entry contents whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight matrix, one block for the whole grid: fetched at the first point only, and its block index never
    moves, so the buffer holds the block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The row block of the scaling column. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_0 : Rect S4000x128 := Rect.unit (s := S4000x128) ![0, 0] S4000x128.size inb_S4000x128_S4000x128_0_0
abbrev r0_1 : Rect S128x128 := Rect.unit (s := S128x128) ![0, 0] S128x128.size inb_S128x128_S128x128_0_0
abbrev r0_2 : Rect S4000x1 := Rect.unit (s := S4000x1) ![0, 0] S4000x1.size inb_S4000x1_S4000x1_0_0

/-! ## What the body leaves in the output window's buffer -/

/-- The output buffer after the body, from the three input blocks: its one store, of the payload (the product of the
    row block with the weights, each row scaled by its entry of the column) over the whole buffer. -/
def out0_3 (x0 : Vec F S4000x128 .f32) (x1 : Vec F S128x128 .f32) (x2 : Vec F S4000x1 .f32) : Vec F S4000x128 .bf16 :=
  View.canon [⟨r0_0, k0_pay1 (View.ld x0 r0_0) (View.ld x1 r0_1) (View.ld x2 r0_2)⟩]

/-- The one store tiles the buffer, so it covers it. -/
theorem cover0_3 (p0 : Vec F S4000x128 .bf16) (y : S4000x128.Idx) :
    ∃ pc ∈ ([⟨r0_0, p0⟩] : List (View.Piece (Elt F) S4000x128 .bf16)), y ∈ pc.1.set :=
  View.cover_of_tiled [⟨r0_0, p0⟩] S4000x128.size (by rfl) y

/-! ## The body's triple -/

set_option maxHeartbeats 1000000 in
/-- The body on whole staging memrefs, the inputs' at contents `x0`, `x1`, `x2` and the output's at anything, runs to the
    continuation holding the inputs' as they were and the output's at `out0_3` of them. -/
theorem sound_kernel0 (c : Dev nD) (E : Set ℕ) (i : grid0.Coords) (arg1 : Memref sig .tc .vmem S4000x128 .f32) (harg1 : arg1.IsWhole) (arg2 : Memref sig .tc .vmem S128x128 .f32) (harg2 : arg2.IsWhole) (arg3 : Memref sig .tc .vmem S4000x1 .f32) (harg3 : arg3.IsWhole) (arg4 : Memref sig .tc .vmem S4000x128 .bf16) (harg4 : arg4.IsWhole)
    (x0 : Vec F S4000x128 .f32) (x1 : Vec F S128x128 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_scale0_kernel i arg1 harg1 arg2 harg2 arg3 harg3 arg4 harg4) K := by
  simp only [cc0__linear_scale0_kernel_eq_skeleton]; unfold cc0__linear_scale0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region's pipeline on core `c`: the arrays as the region finds them; after the body at point
    `t` each input's buffer at its block and the output's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.R1.lean ====
import proofs.«417676_j6554120093878_3_alg».proof.Proof.Gen.Kernel.Launch
import proofs.«417676_j6554120093878_3_alg».proof.Proof.Gen.Kernel.Skeleton
import proofs.«417676_j6554120093878_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main: the second graph-convolution layer's dense half, at the entry contents `V`

The call runs over 25 grid points; point `t` works on rows `4000 t … 4000 t + 3999` of the node axis. Its six
windows are: 0 the aggregated features (a 4000 × 128 block of rows), 1 the destination-degree scale (a 4000 × 1
column block), 2 the bias (all 128 entries, the same block at every point), 3 the weight matrix (all of its
128 × 128 entries, the same block at every point), 4 the source-degree scale (a 4000 × 1 column block), and 5 the
output (a 4000 × 128 block of rows, written whole by the body's one store).

The body reads its five input blocks whole and stores `((max (agg · nd + b) 0) W) · ns` (the payload `k1_pay1`)
over the whole output block. So after the body every input buffer still holds its block and the output buffer holds
that payload of the input blocks: this is the proof data `dat1`, and `body_obligation1` is the body's triple at
every grid point. Everything is generic in the float instance. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each is the whole of its buffer -/

abbrev r1_blk : Rect S4000x128 := Rect.unit (s := S4000x128) ![0, 0] S4000x128.size inb_S4000x128_S4000x128_0_0
abbrev r1_col : Rect S4000x1 := Rect.unit (s := S4000x1) ![0, 0] S4000x1.size inb_S4000x1_S4000x1_0_0
abbrev r1_vec : Rect S128 := Rect.unit (s := S128) ![0] S128.size inb_S128_S128_0
abbrev r1_mat : Rect S128x128 := Rect.unit (s := S128x128) ![0, 0] S128x128.size inb_S128x128_S128x128_0_0

/-! ## What the body leaves in the output window's buffer -/

/-- Window 5's staging buffer after the body, from the input windows' blocks: its one store, of the payload of the
    five loaded blocks, over the whole buffer. -/
def out1_5 (x0 : Vec F S4000x128 .f32) (x1 : Vec F S4000x1 .f32) (x2 : Vec F S128 .f32) (x3 : Vec F S128x128 .f32)
    (x4 : Vec F S4000x1 .f32) : Vec F S4000x128 .bf16 :=
  View.canon [⟨r1_blk, k1_pay1 (View.ld x0 r1_blk) (View.ld x1 r1_col) (View.ld x2 r1_vec) (View.ld x3 r1_mat) (View.ld x4 r1_col)⟩]

/-- The store's rectangle is the whole buffer, so it covers it. -/
theorem cover1_5 (p0 : Vec F S4000x128 .bf16) (y : S4000x128.Idx) :
    ∃ pc ∈ ([⟨r1_blk, p0⟩] : List (View.Piece (Elt F) S4000x128 .bf16)), y ∈ pc.1.set :=
  View.cover_of_tiled [⟨r1_blk, p0⟩] S4000x128.size (by rfl) y

/-! ## The body's triple -/

set_option maxHeartbeats 1000000 in
/-- The kernel body on whole staging memrefs, the inputs' at read contents `x0 … x4` and the output's at anything,
    runs to the continuation holding the inputs' as they were and the output's at `out1_5` of the inputs'. -/
theorem sound_kernel1 (c : Dev nD) (E : Set ℕ) (i : grid1.Coords)
    (arg1 : Memref sig .tc .vmem S4000x128 .f32) (harg1 : arg1.IsWhole) (arg2 : Memref sig .tc .vmem S4000x1 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S4000x1 .f32) (harg5 : arg5.IsWhole) (arg6 : Memref sig .tc .vmem S4000x128 .bf16) (harg6 : arg6.IsWhole)
    (x0 : Vec F S4000x128 .f32) (x1 : Vec F S4000x1 .f32) (x2 : Vec F S128 .f32) (x3 : Vec F S128x128 .f32) (x4 : Vec F S4000x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__bias_relu_linear_scale_kernel i arg1 harg1 arg2 harg2 arg3 harg3 arg4 harg4 arg5 harg5 arg6 harg6) K := by
  simp only [cc1__bias_relu_linear_scale_kernel_eq_skeleton]; unfold cc1__bias_relu_linear_scale_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the call on core `c`: the arrays as the region finds them; after the body at point `t` each
    input's buffer at its block and the output's at `out1_5` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

/-- Each input's current staging buffer holds its block at every point, whether the pipeline fetched it there or
    not: a window whose block index did not move (the bias and the weights, after the first point) still holds the
    previous point's block, which is this point's; the body leaves every input block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.K.R2.lean ====
import proofs.«417676_j6554120093878_3_alg».proof.Proof.Gen.Kernel.Launch
import proofs.«417676_j6554120093878_3_alg».proof.Proof.Gen.Kernel.Skeleton
import proofs.«417676_j6554120093878_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main: the third graph-convolution layer's dense half, at the entry contents `V`

The call runs over 25 grid points; point `t` works on rows `4000 t … 4000 t + 3999` of the node axis. Its six
windows are: 0 the aggregated features (a 4000 × 128 block of rows), 1 the destination-degree scale (a 4000 × 1
column block), 2 the bias (all 128 entries, the same block at every point), 3 the weight matrix (all of its
128 × 128 entries, the same block at every point), 4 the source-degree scale (a 4000 × 1 column block), and 5 the
output (a 4000 × 128 block of rows, written whole by the body's one store).

The body reads its five input blocks whole and stores `((max (agg · nd + b) 0) W) · ns` (the payload `k2_pay1`)
over the whole output block. So after the body every input buffer still holds its block and the output buffer holds
that payload of the input blocks: this is the proof data `dat2`, and `body_obligation2` is the body's triple at
every grid point. Everything is generic in the float instance. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each is the whole of its buffer -/

abbrev r2_blk : Rect S4000x128 := Rect.unit (s := S4000x128) ![0, 0] S4000x128.size inb_S4000x128_S4000x128_0_0
abbrev r2_col : Rect S4000x1 := Rect.unit (s := S4000x1) ![0, 0] S4000x1.size inb_S4000x1_S4000x1_0_0
abbrev r2_vec : Rect S128 := Rect.unit (s := S128) ![0] S128.size inb_S128_S128_0
abbrev r2_mat : Rect S128x128 := Rect.unit (s := S128x128) ![0, 0] S128x128.size inb_S128x128_S128x128_0_0

/-! ## What the body leaves in the output window's buffer -/

/-- Window 5's staging buffer after the body, from the input windows' blocks: its one store, of the payload of the
    five loaded blocks, over the whole buffer. -/
def out2_5 (x0 : Vec F S4000x128 .f32) (x1 : Vec F S4000x1 .f32) (x2 : Vec F S128 .f32) (x3 : Vec F S128x128 .f32)
    (x4 : Vec F S4000x1 .f32) : Vec F S4000x128 .bf16 :=
  View.canon [⟨r2_blk, k2_pay1 (View.ld x0 r2_blk) (View.ld x1 r2_col) (View.ld x2 r2_vec) (View.ld x3 r2_mat) (View.ld x4 r2_col)⟩]

/-- The store's rectangle is the whole buffer, so it covers it. -/
theorem cover2_5 (p0 : Vec F S4000x128 .bf16) (y : S4000x128.Idx) :
    ∃ pc ∈ ([⟨r2_blk, p0⟩] : List (View.Piece (Elt F) S4000x128 .bf16)), y ∈ pc.1.set :=
  View.cover_of_tiled [⟨r2_blk, p0⟩] S4000x128.size (by rfl) y

/-! ## The body's triple -/

set_option maxHeartbeats 1000000 in
/-- The kernel body on whole staging memrefs, the inputs' at read contents `x0 … x4` and the output's at anything,
    runs to the continuation holding the inputs' as they were and the output's at `out2_5` of the inputs'. -/
theorem sound_kernel2 (c : Dev nD) (E : Set ℕ) (i : grid2.Coords)
    (arg1 : Memref sig .tc .vmem S4000x128 .f32) (harg1 : arg1.IsWhole) (arg2 : Memref sig .tc .vmem S4000x1 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S4000x1 .f32) (harg5 : arg5.IsWhole) (arg6 : Memref sig .tc .vmem S4000x128 .bf16) (harg6 : arg6.IsWhole)
    (x0 : Vec F S4000x128 .f32) (x1 : Vec F S4000x1 .f32) (x2 : Vec F S128 .f32) (x3 : Vec F S128x128 .f32) (x4 : Vec F S4000x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__bias_relu_linear_scale_kernel i arg1 harg1 arg2 harg2 arg3 harg3 arg4 harg4 arg5 harg5 arg6 harg6) K := by
  simp only [cc2__bias_relu_linear_scale_kernel_eq_skeleton]; unfold cc2__bias_relu_linear_scale_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the call on core `c`: the arrays as the region finds them; after the body at point `t` each
    input's buffer at its block and the output's at `out2_5` of the input blocks; the invariant is the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2_5 (iblk2 V c 0 t) (iblk2 V c 1 t) (iblk2 V c 2 t) (iblk2 V c 3 t) (iblk2 V c 4 t) := by dsimp only [dat2]

/-- Each input's current staging buffer holds its block at every point, whether the pipeline fetched it there or
    not: a window whose block index did not move (the bias and the weights, after the first point) still holds the
    previous point's block, which is this point's; the body leaves every input block in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.K.R3.lean ====
/- Region 3 of @main (bias, relu and the pooled sum per graph), at the buffer contents `V` found when the region is
   entered, for any float instance. The body keeps a [256,128] accumulator in a scratch buffer across the 25 grid
   points: the first point fills it with zeros, every point adds its block's contribution (the transposed one-hot
   matrix of the block's graph ids times the block's relu rows), and the last point copies it to the output block.
   Here: each window's block at a point, the accumulator after each point as a recursion over the points, the body's
   triple in each of its three control cases, the pipeline's proof data with the accumulator's contents carried in
   the region invariant, the body obligation, and the invariant's entry and exit. -/
import proofs.«417676_j6554120093878_3_alg».proof.Proof.Gen.Kernel.Launch
import proofs.«417676_j6554120093878_3_alg».proof.Proof.Gen.Kernel.Skeleton
import proofs.«417676_j6554120093878_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4000 rows: the elaborator's structural look recurses once per coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses -/

abbrev r3_0 : Rect S4000x128 := Rect.unit (s := S4000x128) ![0, 0] S4000x128.size inb_S4000x128_S4000x128_0_0
abbrev r3_1 : Rect S4000x1 := Rect.unit (s := S4000x1) ![0, 0] S4000x1.size inb_S4000x1_S4000x1_0_0
abbrev r3_2 : Rect S128 := Rect.unit (s := S128) ![0] S128.size inb_S128_S128_0
abbrev r3_S : Rect S256x128 := Rect.unit (s := S256x128) ![0, 0] S256x128.size inb_S256x128_S256x128_0_0

/-! ## The accumulator, point by point -/

/-- The accumulator after the first point's zero fill. -/
def zero3 : Vec F S256x128 .f32 := View.canon [⟨r3_S, k3_pay1 (F := F)⟩]

/-- The accumulator after a point's store, from the point's four input blocks and the accumulator `s` it found. -/
def step3 (x0 : Vec F S4000x128 .f32) (x1 : Vec F S4000x1 .f32) (x2 : Vec F S128 .f32) (x3 : Vec F S4000x1 .i32)
    (s : Vec F S256x128 .f32) : Vec F S256x128 .f32 :=
  View.canon [⟨r3_S, k3_pay2 (View.ld x0 r3_0) (View.ld x1 r3_1) (View.ld x2 r3_2) (View.ld x3 r3_1) (View.ld s r3_S)⟩]

/-- The output block's staging buffer after the last point's copy of the accumulator `s`. -/
def out3_4 (s : Vec F S256x128 .f32) : Vec F S256x128 .f32 := View.canon [⟨r3_S, View.ld s r3_S⟩]

/-- THE ACCUMULATION. The scratch accumulator after the body at position `n`: the first point adds its block's
    contribution to the zero fill, every later point to what the point before left. -/
def acc3 (c : Dev nD) : (n : ℕ) → n < cfg3.N → Vec F S256x128 .f32
  | 0, hn => step3 (iblk3 V c 0 ⟨0, hn⟩) (iblk3 V c 1 ⟨0, hn⟩) (iblk3 V c 2 ⟨0, hn⟩) (iblk3 V c 3 ⟨0, hn⟩) zero3
  | n + 1, hn => step3 (iblk3 V c 0 ⟨n + 1, hn⟩) (iblk3 V c 1 ⟨n + 1, hn⟩) (iblk3 V c 2 ⟨n + 1, hn⟩) (iblk3 V c 3 ⟨n + 1, hn⟩)
      (acc3 c n (Nat.lt_of_succ_lt hn))

/-- The scratch accumulator as a whole memref. -/
abbrev scM3 : Memref sig .tc .vmem S256x128 .f32 := Memref.whole cc3_scratch0

/-- The region invariant before position `n`: before the first point every scoped buffer no window stages at some
    contents; afterwards the accumulator at what the point before left, the other such buffers at some contents; the
    generator register at some state throughout. -/
def Phi3 (c : Dev nD) : (n : ℕ) → n ≤ cfg3.N → sProp 𝕄
  | 0, _ => iprop((∃ r, prngReg c r) ∗ Pipeline.scopedRest (Ix := Unit) (Name := ℕ) (U := UR sig nD τ) (Lvl := ℕ) spec3 c)
  | n + 1, hn => iprop(owns (c : Thread nD τ) scM3 fullShare (acc3 V c n hn)
      ∗ Pipeline.scopedRestBut (Ix := Unit) (Name := ℕ) (U := UR sig nD τ) (Lvl := ℕ) spec3 c [cc3_scratch0] ∗ (∃ r, prngReg c r))

/-! ## What the body finds in the input windows' buffers -/

/-- The row block of the aggregated features: its staging buffer holds the block of the point, fetched there or not, for any proof data over the entry contents whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The row block of the destination-side scaling column. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The bias row, one block for the whole grid: fetched at the first point only, and its block index never moves. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- The row block of the graph-id column. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The body's first branch (the zero fill) is taken when the grid coordinate is 0: the printed scalar chain. -/
abbrev cond3_0 (i : grid3.Coords) : Prop :=
  (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)
/-- The body's last branch (the copy to the output block) is taken when the grid coordinate is 24. -/
abbrev cond3_1 (i : grid3.Coords) : Prop := k3_cond2 i = 1#1
/-- It holds at the last point only. -/
theorem hcond3_1 : ∀ t : Fin cfg3.N, cond3_1 (grid3.coords t) ↔ t.val = 24 :=
  (by decide +kernel : ∀ t : Fin grid3.N, cond3_1 (grid3.coords t) ↔ t.val = 24)

/-- One store through the whole rectangle covers the [256,128] buffer. -/
theorem cover3_S (p : Vec F S256x128 .f32) (y : S256x128.Idx) :
    ∃ pc ∈ ([⟨r3_S, p⟩] : List (View.Piece (Elt F) S256x128 .f32)), y ∈ pc.1.set :=
  View.cover_of_tiled [⟨r3_S, p⟩] S256x128.size (by rfl) y

/-- The same with earlier stores beneath it. -/
theorem cover3_S_cons (p : Vec F S256x128 .f32) (L : List (View.Piece (Elt F) S256x128 .f32)) (y : S256x128.Idx) :
    ∃ pc ∈ ((⟨r3_S, p⟩ : View.Piece (Elt F) S256x128 .f32) :: L), y ∈ pc.1.set := by
  obtain ⟨pc, hm, hy⟩ := cover3_S p y
  rw [List.mem_singleton] at hm; subst hm
  exact ⟨_, List.mem_cons_self .., hy⟩

/-- A whole-buffer store hides what was stored before it. -/
theorem canon_S_cons (p : Vec F S256x128 .f32) (L : List (View.Piece (Elt F) S256x128 .f32)) :
    View.canon ((⟨r3_S, p⟩ : View.Piece (Elt F) S256x128 .f32) :: L) = View.canon [⟨r3_S, p⟩] := by
  funext y
  obtain ⟨pc, hm, hy⟩ := cover3_S p y
  rw [List.mem_singleton] at hm; subst hm
  obtain ⟨x, rfl⟩ := (r3_S).exists_idx_of_mem hy
  exact (View.canon_cons_emb r3_S p L x).trans (View.canon_cons_emb r3_S p [] x).symm

/-- A whole-buffer load after a whole-buffer store reads the stored value. -/
theorem ld_canon_S (p : Vec F S256x128 .f32) (L : List (View.Piece (Elt F) S256x128 .f32)) :
    View.ld (View.canon ((⟨r3_S, p⟩ : View.Piece (Elt F) S256x128 .f32) :: L)) r3_S = p :=
  funext fun x => View.canon_cons_emb r3_S p L x

/-! ## The body's triple, case by case

The body on whole staging memrefs, the inputs' at read contents `x·`, runs to the continuation holding the inputs' as
they were and the accumulator at the next contents; the output block's buffer is touched at the last point only. The
printed function is its skeleton; its operations are run one by one, each branch decided by the case's hypotheses. -/

set_option maxHeartbeats 2000000 in
/-- A middle point: neither branch is taken; the accumulator found at `s` is left at `step3 … s`. -/
theorem run3_mid (c : Dev nD) (E : Set ℕ) (i : grid3.Coords)
    (arg1 : Memref sig .tc .vmem S4000x128 .f32) (harg1 : arg1.IsWhole) (arg2 : Memref sig .tc .vmem S4000x1 .f32) (harg2 : arg2.IsWhole)
    (arg3 : Memref sig .tc .vmem S128 .f32) (harg3 : arg3.IsWhole) (arg4 : Memref sig .tc .vmem S4000x1 .i32) (harg4 : arg4.IsWhole)
    (arg5 : Memref sig .tc .vmem S256x128 .f32) (harg5 : arg5.IsWhole) (arg6 : Memref sig .tc .vmem S256x128 .f32) (harg6 : arg6.IsWhole)
    (hc0 : ¬cond3_0 i) (hc1 : ¬cond3_1 i) (x0 : Vec F S4000x128 .f32) (x1 : Vec F S4000x1 .f32) (x2 : Vec F S128 .f32) (x3 : Vec F S4000x1 .i32) (s : Vec F S256x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare (step3 x0 x1 x2 x3 s)) -∗ K ⟨⟩))
      ⊢ wp frame (wpE (defs₀ (F := F)) Variants.none c none) E
          (cc3__bias_relu_meanpool_kernel i arg1 harg1 arg2 harg2 arg3 harg3 arg4 harg4 arg5 harg5 arg6 harg6) K := by
  simp only [cc3__bias_relu_meanpool_kernel_eq_skeleton]; unfold cc3__bias_relu_meanpool_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  exact View.read_writes_eq_canon _ _ _ (cover3_S _)

set_option maxHeartbeats 2000000 in
/-- The first point: the zero fill, then the store over it; whatever the accumulator held, it is left at
    `step3 … zero3`. -/
theorem run3_first (c : Dev nD) (E : Set ℕ) (i : grid3.Coords)
    (arg1 : Memref sig .tc .vmem S4000x128 .f32) (harg1 : arg1.IsWhole) (arg2 : Memref sig .tc .vmem S4000x1 .f32) (harg2 : arg2.IsWhole)
    (arg3 : Memref sig .tc .vmem S128 .f32) (harg3 : arg3.IsWhole) (arg4 : Memref sig .tc .vmem S4000x1 .i32) (harg4 : arg4.IsWhole)
    (arg5 : Memref sig .tc .vmem S256x128 .f32) (harg5 : arg5.IsWhole) (arg6 : Memref sig .tc .vmem S256x128 .f32) (harg6 : arg6.IsWhole)
    (hc0 : cond3_0 i) (hc1 : ¬cond3_1 i) (x0 : Vec F S4000x128 .f32) (x1 : Vec F S4000x1 .f32) (x2 : Vec F S128 .f32) (x3 : Vec F S4000x1 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ s, owns (c : Thread nD τ) arg6 fullShare s)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare (step3 x0 x1 x2 x3 zero3)) -∗ K ⟨⟩))
      ⊢ wp frame (wpE (defs₀ (F := F)) Variants.none c none) E
          (cc3__bias_relu_meanpool_kernel i arg1 harg1 arg2 harg2 arg3 harg3 arg4 harg4 arg5 harg5 arg6 harg6) K := by
  simp only [cc3__bias_relu_meanpool_kernel_eq_skeleton]; unfold cc3__bias_relu_meanpool_kernel_skel
  unfold owns
  iintro ⟨⟨%f0, %hf0, H0⟩, ⟨%f1, %hf1, H1⟩, ⟨%f2, %hf2, H2⟩, ⟨%f3, %hf3, H3⟩, ⟨%s0, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  exact (View.read_writes_eq_canon _ _ _ (cover3_S_cons _ _)).trans
    (by rw [canon_S_cons, View.readCov_cons_toLoadRect]; unfold step3 zero3; rw [ld_canon_S]; rfl)

set_option maxHeartbeats 2000000 in
/-- The last point: the store, then the copy of the accumulator into the output block's buffer. -/
theorem run3_last (c : Dev nD) (E : Set ℕ) (i : grid3.Coords)
    (arg1 : Memref sig .tc .vmem S4000x128 .f32) (harg1 : arg1.IsWhole) (arg2 : Memref sig .tc .vmem S4000x1 .f32) (harg2 : arg2.IsWhole)
    (arg3 : Memref sig .tc .vmem S128 .f32) (harg3 : arg3.IsWhole) (arg4 : Memref sig .tc .vmem S4000x1 .i32) (harg4 : arg4.IsWhole)
    (arg5 : Memref sig .tc .vmem S256x128 .f32) (harg5 : arg5.IsWhole) (arg6 : Memref sig .tc .vmem S256x128 .f32) (harg6 : arg6.IsWhole)
    (hc0 : ¬cond3_0 i) (hc1 : cond3_1 i) (x0 : Vec F S4000x128 .f32) (x1 : Vec F S4000x1 .f32) (x2 : Vec F S128 .f32) (x3 : Vec F S4000x1 .i32) (s : Vec F S256x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare s ∗ (∃ d, owns (c : Thread nD τ) arg5 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare (step3 x0 x1 x2 x3 s)
            ∗ owns (c : Thread nD τ) arg5 fullShare (out3_4 (step3 x0 x1 x2 x3 s))) -∗ K ⟨⟩))
      ⊢ wp frame (wpE (defs₀ (F := F)) Variants.none c none) E
          (cc3__bias_relu_meanpool_kernel i arg1 harg1 arg2 harg2 arg3 harg3 arg4 harg4 arg5 harg5 arg6 harg6) K := by
  simp only [cc3__bias_relu_meanpool_kernel_eq_skeleton]; unfold cc3__bias_relu_meanpool_kernel_skel
  unfold owns
  iintro ⟨⟨%f0, %hf0, H0⟩, ⟨%f1, %hf1, H1⟩, ⟨%f2, %hf2, H2⟩, ⟨%f3, %hf3, H3⟩, ⟨%fs, %hfs, HS⟩, ⟨%d5, %f5, -, H5⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  sl_unfold_run_names
  isplitl [HS]
  · iexists _; isplitr
    swap; · iexact HS
    ipureintro
    exact View.read_writes_eq_canon _ _ _ (cover3_S _)
  iexists _; isplitr
  swap; · iexact H5
  ipureintro
  exact (View.read_writes_eq_canon _ _ _ (cover3_S _)).trans
    (by rw [View.readCov_cons_toLoadRect]; unfold out3_4 step3; rw [ld_canon_S]; rfl)

/-! ## The accumulator and the invariant at a point -/

theorem acc3_zero (c : Dev nD) (t : Fin cfg3.N) (h : t.val = 0) :
    acc3 V c t.val t.isLt = step3 (iblk3 V c 0 t) (iblk3 V c 1 t) (iblk3 V c 2 t) (iblk3 V c 3 t) zero3 := by
  obtain ⟨n, hn⟩ := t
  cases n with
  | zero => rfl
  | succ n => exact absurd h (Nat.succ_ne_zero n)

theorem acc3_pos (c : Dev nD) (t : Fin cfg3.N) (h : t.val ≠ 0) :
    acc3 V c t.val t.isLt = step3 (iblk3 V c 0 t) (iblk3 V c 1 t) (iblk3 V c 2 t) (iblk3 V c 3 t)
      (acc3 V c (t.val - 1) (Nat.lt_of_le_of_lt (Nat.sub_le _ _) t.isLt)) := by
  obtain ⟨n, hn⟩ := t
  cases n with
  | zero => exact absurd rfl h
  | succ n => rfl

theorem Phi3_zero (c : Dev nD) (n : ℕ) (h : n ≤ cfg3.N) (hz : n = 0) :
    Phi3 V c n h = iprop((∃ r, prngReg c r) ∗ Pipeline.scopedRest (Ix := Unit) (Name := ℕ) (U := UR sig nD τ) (Lvl := ℕ) spec3 c) := by
  subst hz; rfl

theorem Phi3_succ (c : Dev nD) (n : ℕ) (hn : n < cfg3.N) :
    Phi3 V c (n + 1) hn = iprop(owns (c : Thread nD τ) scM3 fullShare (acc3 V c n hn)
      ∗ Pipeline.scopedRestBut (Ix := Unit) (Name := ℕ) (U := UR sig nD τ) (Lvl := ℕ) spec3 c [cc3_scratch0] ∗ (∃ r, prngReg c r)) := rfl

theorem Phi3_pos (c : Dev nD) (n : ℕ) (h : n ≤ cfg3.N) (hz : n ≠ 0) :
    Phi3 V c n h = iprop(owns (c : Thread nD τ) scM3 fullShare (acc3 V c (n - 1) (by omega))
      ∗ Pipeline.scopedRestBut (Ix := Unit) (Name := ℕ) (U := UR sig nD τ) (Lvl := ℕ) spec3 c [cc3_scratch0] ∗ (∃ r, prngReg c r)) := by
  cases n with
  | zero => exact absurd rfl hz
  | succ n => rfl

/-- Before the first point: the accumulator at some contents, the other scoped buffers and the generator register. -/
theorem Phi3_zero_split (c : Dev nD) :
    (iprop((∃ r, prngReg c r) ∗ Pipeline.scopedRest (Ix := Unit) (Name := ℕ) (U := UR sig nD τ) (Lvl := ℕ) spec3 c) : sProp 𝕄)
      = iprop((∃ r, prngReg c r) ∗ iprop((∃ d, owns (c : Thread nD τ) scM3 fullShare d))
          ∗ Pipeline.scopedRestBut (Ix := Unit) (Name := ℕ) (U := UR sig nD τ) (Lvl := ℕ) spec3 c [cc3_scratch0]) := by
  rw [scopedRest3_split]; simp only [scM3, owns_whole]; rfl

/-! ## The pipeline's proof data -/
/-- The proof data of pipeline 3 on core `c`: the arrays as the region finds them; after the body at point `t` each
    input's buffer at its block and the output's at the copy of the accumulator after `t` (read at the last point
    only: elsewhere the window is idle); the invariant carries the accumulator; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (acc3 V c t.val t.isLt)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (acc3 V c t.val t.isLt) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Away from the last point the output window is idle and its block is not written back. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- At the last point it is live. -/
theorem liveAt3_4 : ∀ t : Fin cfg3.N, cond3_1 (grid3.coords t) → cfg3.idle 4 (grid3.coords t) = false := by decide +kernel

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

theorem leaves3_0 (c : Dev nD) (t : Fin cfg3.N) :
    (dat3 V c).leavesExact 0 t = owns (c : Thread nD τ) (st3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (st3_1 t) fullShare (iblk3 V c 1 t) := by
  unfold Dat.leavesExact; rw [liveAt3_1 t, after3_1]
theorem leaves3_2 (c : Dev nD) (t : Fin cfg3.N) :
    (dat3 V c).leavesExact 2 t = owns (c : Thread nD τ) (st3_2 t) fullShare (iblk3 V c 2 t) := by
  unfold Dat.leavesExact; rw [liveAt3_2 t, after3_2]
theorem leaves3_3 (c : Dev nD) (t : Fin cfg3.N) :
    (dat3 V c).leavesExact 3 t = owns (c : Thread nD τ) (st3_3 t) fullShare (iblk3 V c 3 t) := by
  unfold Dat.leavesExact; rw [liveAt3_3 t, after3_3]

set_option maxHeartbeats 2000000 in
/-- The body at any point: the inputs' memrefs hold their blocks; the closed forms say which case the point is in; the
    invariant hands the body the accumulator at what the point before left (at anything at the first point) and takes
    it back at this point's contents; the other scoped buffers, the generator register and the core's tallies pass
    through unread; away from the last point the output block's buffer is handed back as found. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = Phi3 V c (t.val + 1) t.isLt from rfl, Phi3_succ]
  rw [leaves3_0, leaves3_1, leaves3_2, leaves3_3, Phi3_castSucc]
  have hN : t.val < 25 := lt_of_lt_of_eq t.isLt (show cfg3.N = 25 from N_3)
  by_cases h0 : t.val = 0
  · have hc0 : cond3_0 (grid3.coords t) := (hcond3_0 t).mpr h0
    have hc1 : ¬cond3_1 (grid3.coords t) := fun h => by have := (hcond3_1 t).mp h; omega
    rw [Dat.leavesExact_idle (dat3 V c) 4 t (idleAt3_4 t hc1) (noFlush3_4 t hc1)]
    rw [Phi3_zero V c _ _ h0, Phi3_zero_split, acc3_zero V c t h0]
    iintro ⟨⟨Hg, ⟨%s0, HS⟩, HR⟩, Ho, ⟨%d0, H0⟩, ⟨%d1, H1⟩, ⟨%d2, H2⟩, ⟨%d3, H3⟩, ⟨%d4, H4⟩⟩
    iapply (run3_first c Set.univ (grid3.coords t) _ _ _ _ _ _ _ _ _ _ _ _ hc0 hc1 (iblk3 V c 0 t) (iblk3 V c 1 t) (iblk3 V c 2 t) (iblk3 V c 3 t) _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    iexists _; iexact H4
  · have hc0 : ¬cond3_0 (grid3.coords t) := fun h => h0 ((hcond3_0 t).mp h)
    rw [Phi3_pos V c _ _ h0, acc3_pos V c t h0]
    by_cases h1 : t.val = 24
    · have hc1 : cond3_1 (grid3.coords t) := (hcond3_1 t).mpr h1
      rw [show (dat3 V c).leavesExact 4 t = owns (c : Thread nD τ) (st3_4 t) fullShare ((dat3 V c).after 4 t) from by
        unfold Dat.leavesExact; rw [liveAt3_4 t hc1], after3_4, acc3_pos V c t h0]
      iintro ⟨⟨HS, HR, Hg⟩, Ho, ⟨%d0, H0⟩, ⟨%d1, H1⟩, ⟨%d2, H2⟩, ⟨%d3, H3⟩, ⟨%d4, H4⟩⟩
      iapply (run3_last c Set.univ (grid3.coords t) _ _ _ _ _ _ _ _ _ _ _ _ hc0 hc1 (iblk3 V c 0 t) (iblk3 V c 1 t) (iblk3 V c 2 t) (iblk3 V c 3 t) _ _)
      isplitl [H0]; · iexact H0
      isplitl [H1]; · iexact H1
      isplitl [H2]; · iexact H2
      isplitl [H3]; · iexact H3
      isplitl [HS]; · iexact HS
      isplitl [H4]; · iexists _; iexact H4
      iintro ⟨H0, H1, H2, H3, HS, H4⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc1 : ¬cond3_1 (grid3.coords t) := fun h => h1 ((hcond3_1 t).mp h)
      rw [Dat.leavesExact_idle (dat3 V c) 4 t (idleAt3_4 t hc1) (noFlush3_4 t hc1)]
      iintro ⟨⟨HS, HR, Hg⟩, Ho, ⟨%d0, H0⟩, ⟨%d1, H1⟩, ⟨%d2, H2⟩, ⟨%d3, H3⟩, ⟨%d4, H4⟩⟩
      iapply (run3_mid c Set.univ (grid3.coords t) _ _ _ _ _ _ _ _ _ _ _ _ hc0 hc1 (iblk3 V c 0 t) (iblk3 V c 1 t) (iblk3 V c 2 t) (iblk3 V c 3 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant's entry and exit -/

/-- What the launch hands the region is the invariant before the first point. -/
theorem hin3 (c : Dev nD) : iprop((∃ r, prngReg c r) ∗ Pipeline.scopedRest (Ix := Unit) (Name := ℕ) (U := UR sig nD τ) (Lvl := ℕ) spec3 c) ⊢ (dat3 V c).Φ 0 := by
  rw [show (dat3 V c).Φ 0 = Phi3 V c 0 (Nat.zero_le _) from rfl, Phi3_zero V c 0 _ rfl]
  try exact Idealize.SL.BI.Entails.refl _

/-- After the last point the invariant gives the scoped buffers back: the accumulator's contents are forgotten. -/
theorem hout3 (c : Dev nD) : (dat3 V c).Φ (Fin.last cfg3.N) ⊢ iprop((∃ r, prngReg c r) ∗ Pipeline.scopedRest (Ix := Unit) (Name := ℕ) (U := UR sig nD τ) (Lvl := ℕ) spec3 c) := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 25 := N_3; omega), Phi3_zero_split]
  iintro ⟨HS, HR, Hg⟩
  isplitl [Hg]; · iexact Hg
  isplitl [HS]; · iexists _; iexact HS
  iexact HR

end Cert.Kernel.Hand

end
-- ==== Proof.K.R4.lean ====
/- Region 4 of @main (the MLP head, one grid point, eight windows each the whole of its array), at the contents `V`
   the region finds in the TensorCore's buffers: every window's block at the point, what the body leaves in the output
   window's buffer (its one store, of the payload of the seven loaded operands), the body's triple, the proof data of
   the pipeline and the body obligation of the launch theorem. Generic in the float instance. -/
import proofs.«417676_j6554120093878_3_alg».proof.Proof.Gen.Kernel.Launch
import proofs.«417676_j6554120093878_3_alg».proof.Proof.Gen.Kernel.Skeleton
import proofs.«417676_j6554120093878_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses: every load and the one store take the whole staging buffer -/

abbrev r4_hg : Rect S256x128 := Rect.unit (s := S256x128) ![0, 0] S256x128.size inb_S256x128_S256x128_0_0
abbrev r4_w1 : Rect S128x256 := Rect.unit (s := S128x256) ![0, 0] S128x256.size inb_S128x256_S128x256_0_0
abbrev r4_b : Rect S256 := Rect.unit (s := S256) ![0] S256.size inb_S256_S256_0
abbrev r4_w2 : Rect S256x256 := Rect.unit (s := S256x256) ![0, 0] S256x256.size inb_S256x256_S256x256_0_0
abbrev r4_w3 : Rect S256x8 := Rect.unit (s := S256x8) ![0, 0] S256x8.size inb_S256x8_S256x8_0_0
abbrev r4_b3 : Rect S8 := Rect.unit (s := S8) ![0] S8.size inb_S8_S8_0

/-! ## What the body leaves in the output window's buffer -/

/-- Window 7's staging buffer after the body, from the seven input blocks: the single store of the payload. -/
def out4_7 (x0 : Vec F S256x128 .f32) (x1 : Vec F S128x256 .f32) (x2 : Vec F S256 .f32) (x3 : Vec F S256x256 .f32)
    (x4 : Vec F S256 .f32) (x5 : Vec F S256x8 .f32) (x6 : Vec F S8 .f32) : Vec F S256x8 .f32 :=
  View.canon [⟨r4_w3, k4_pay1 (View.ld x0 r4_hg) (View.ld x1 r4_w1) (View.ld x2 r4_b) (View.ld x3 r4_w2) (View.ld x4 r4_b)
    (View.ld x5 r4_w3) (View.ld x6 r4_b3)⟩]

/-- The store's rectangle is the whole buffer, so it covers it. -/
theorem cover4_7 (p0 : Vec F S256x8 .f32) (y : S256x8.Idx) :
    ∃ pc ∈ ([⟨r4_w3, p0⟩] : List (View.Piece (Elt F) S256x8 .f32)), y ∈ pc.1.set :=
  View.cover_of_tiled [⟨r4_w3, p0⟩] S256x8.size (by rfl) y

/-! ## The body's triple -/

set_option maxHeartbeats 4000000 in
/-- The kernel body on whole staging memrefs, the inputs' at contents `xW` and the output's at anything, runs to the
    continuation holding the inputs' as they were and the output's at `out4_7` of the inputs'. -/
theorem sound_kernel4 (c : Dev nD) (E : Set ℕ) (i : grid4.Coords)
    (arg0 : Memref sig .tc .vmem S256x128 .f32) (harg0 : arg0.IsWhole) (arg1 : Memref sig .tc .vmem S128x256 .f32) (harg1 : arg1.IsWhole)
    (arg2 : Memref sig .tc .vmem S256 .f32) (harg2 : arg2.IsWhole) (arg3 : Memref sig .tc .vmem S256x256 .f32) (harg3 : arg3.IsWhole)
    (arg4 : Memref sig .tc .vmem S256 .f32) (harg4 : arg4.IsWhole) (arg5 : Memref sig .tc .vmem S256x8 .f32) (harg5 : arg5.IsWhole)
    (arg6 : Memref sig .tc .vmem S8 .f32) (harg6 : arg6.IsWhole) (arg7 : Memref sig .tc .vmem S256x8 .f32) (harg7 : arg7.IsWhole)
    (x0 : Vec F S256x128 .f32) (x1 : Vec F S128x256 .f32) (x2 : Vec F S256 .f32) (x3 : Vec F S256x256 .f32)
    (x4 : Vec F S256 .f32) (x5 : Vec F S256x8 .f32) (x6 : Vec F S8 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (out4_7 x0 x1 x2 x3 x4 x5 x6)) -∗ K ⟨⟩))
      ⊢ wp frame (wpE (defs₀ (F := F)) Variants.none c none) E
          (cc4__mlp_kernel i arg0 harg0 arg1 harg1 arg2 harg2 arg3 harg3 arg4 harg4 arg5 harg5 arg6 harg6 arg7 harg7) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The pipeline's proof data -/

/-- The proof data of pipeline 4 on core `c`: the arrays as the region finds them; after the body each input's buffer at
    its block and the output's at `out4_7` of the input blocks; the invariant the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t =
    out4_7 (iblk4 V c 0 t) (iblk4 V c 1 t) (iblk4 V c 2 t) (iblk4 V c 3 t) (iblk4 V c 4 t) (iblk4 V c 5 t) (iblk4 V c 6 t) := by
  dsimp only [dat4]

/-- Each input's current staging buffer holds its block at the point, fetched there or not: the window is fetched at
    every point, uncut, never idle, and the body leaves the block in place. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)
theorem before4_6 (c : Dev nD) (t : Fin cfg4.N) (d) : (dat4 V c).before 6 t d = iblk4 V c 6 t :=
  ((dat4 V c).before_in_eq_fetched 6 rfl (fun _ => rfl) (fun _ _ _ => rfl) (fun t => by rw [after4_6]; unfold Dat.blockOf iblk4; rw [A_eq4]; try rfl) t d).trans
    (by unfold Dat.fetched Dat.blockOf iblk4; rw [A_eq4]; try rfl)

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at the point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t)
    (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
import proofs.«417676_j6554120093878_3_alg».proof.Proof.Gen.Kernel.Launch
import proofs.«417676_j6554120093878_3_alg».proof.Proof.Gen.Kernel.Skeleton
import proofs.«417676_j6554120093878_3_alg».proof.Proof.Gen.Kernel.Points
import proofs.«417676_j6554120093878_3_alg».proof.Proof.Gen.Kernel.Regions
import proofs.«417676_j6554120093878_3_alg».proof.Proof.K.R0
import proofs.«417676_j6554120093878_3_alg».proof.Proof.K.R1
import proofs.«417676_j6554120093878_3_alg».proof.Proof.K.R2
import proofs.«417676_j6554120093878_3_alg».proof.Proof.K.R3
import proofs.«417676_j6554120093878_3_alg».proof.Proof.K.R4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The run of @main, at any float instance

@main is seven stretches of host operations around five kernel regions. This module follows the contents of every
unscoped buffer through the twelve items (the fold W0 … W12), states what each item leaves unchanged, runs the items as
segments from the launch to the return, and reads the final memory against the last contents: the result array at
what region 4's write-backs leave, every argument array as launched. -/

variable (m : (ℓ : Loc nD τ sig) → Buf (Elt F) ℓ)

/-! # The buffer contents at each boundary of @main: a fold from the launch memory

@main is twelve items: seven stretches of host operations and five kernel regions. Between two items core c holds
every unscoped buffer at the contents W j m c. A host stretch takes the contents to StableHlo.after of its operations; a
region leaves each of its arrays at what its write-backs fold to (Dat.arrAt … N) and every other buffer as it found it. -/

/-- Core c's buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the third host stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit. -/
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b
/-- After the fourth host stretch (region 3's entry). -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- At region 3's exit. -/
def W8 (c : Dev nD) : Valuation τ sig (Elt F) :=
  Pipeline.withArrays spec3 c (W7 m c) fun w => (dat3 (V7 m) c).arrAt w cfg3.N
abbrev V8 : (c : Dev nD) → (b : Ref sig .tc) → Buf (Elt F) ((c : Thread nD τ).loc b) := fun c b => W8 m c b
/-- After the three host stretches between regions 3 and 4 (region 4's entry is W11). -/
abbrev W9 : Dev nD → Valuation τ sig (Elt F) := fun c => StableHlo.after hostOps4 (W8 m c)
abbrev W10 : Dev nD → Valuation τ sig (Elt F) := fun c => StableHlo.after hostOps4_1 (W9 m c)
abbrev W11 : Dev nD → Valuation τ sig (Elt F) := fun c => StableHlo.after hostOps4_2 (W10 m c)
abbrev V11 : (c : Dev nD) → (b : Ref sig .tc) → Buf (Elt F) ((c : Thread nD τ).loc b) := fun c b => W11 m c b
/-- At region 4's exit: the contents @main returns with. -/
def W12 (c : Dev nD) : Valuation τ sig (Elt F) :=
  Pipeline.withArrays spec4 c (W11 m c) fun w => (dat4 (V11 m) c).arrAt w cfg4.N
abbrev V12 : (c : Dev nD) → (b : Ref sig .tc) → Buf (Elt F) ((c : Thread nD τ).loc b) := fun c b => W12 m c b

/-! ## A region's exit contents, array by array and elsewhere -/

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

theorem W12_arr (c : Dev nD) (w : Fin cfg4.W) :
    W12 m c (Proc.devRef .tc (Pipeline.arrRef spec4 w)) = (dat4 (V11 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
theorem hF4 (c : Dev nD) (w : Fin cfg4.W) : (dat4 (V11 m) c).arrAt w cfg4.N = V12 m c (Pipeline.arrRef spec4 w) :=
  (W12_arr m c w).symm
theorem hrest4 (c : Dev nD) : ∀ b, b ∉ Finset.univ.image (Pipeline.arrRef spec4) → V12 m c b = V11 m c b :=
  fun b hb => W12_of_ne m c b fun w e => hb (Finset.mem_image.mpr ⟨w, Finset.mem_univ _, e⟩)

/-- An input window's array leaves a region as it entered it: nothing is written back to it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))
theorem W6_in (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hw _).trans (A_eq2 (V5 m) c w))
theorem W8_in (c : Dev nD) (w : Fin cfg3.W) (hw : (cfg3.win w).isOut = false) :
    W8 m c (Proc.devRef .tc (Pipeline.arrRef spec3 w)) = W7 m c (Proc.devRef .tc (Pipeline.arrRef spec3 w)) :=
  (W8_arr m c w).trans (((dat3 (V7 m) c).arrAt_in w hw _).trans (A_eq3 (V7 m) c w))
theorem W12_in (c : Dev nD) (w : Fin cfg4.W) (hw : (cfg4.win w).isOut = false) :
    W12 m c (Proc.devRef .tc (Pipeline.arrRef spec4 w)) = W11 m c (Proc.devRef .tc (Pipeline.arrRef spec4 w)) :=
  (W12_arr m c w).trans (((dat4 (V11 m) c).arrAt_in w hw _).trans (A_eq4 (V11 m) c w))

/-! ## What each item leaves unchanged

A host stretch changes only the references its operations write (the lists hostOpsJ_W); a region changes only its
output window's array: an input window's array is read, never written back, and a buffer that is no array of the
region is bypassed. -/

theorem W0_eq (c : Dev nD) (r : Ref sig .tc) : W0 m c (Proc.devRef .tc r) = m ((c.tc : Thread nD τ).loc r) := rfl

theorem W1_keep (c : Dev nD) (r : Ref sig .tc) (h : r ∉ hostOps0_W) :
    W1 m c (Proc.devRef .tc r) = W0 m c (Proc.devRef .tc r) :=
  StableHlo.after_of_writes_sub hostOps0 _ hostOps0_writes h

theorem W2_keep (c : Dev nD) (r : Ref sig .tc) (h : r ≠ main_v14) :
    W2 m c (Proc.devRef .tc r) = W1 m c (Proc.devRef .tc r) := by
  by_cases h0 : r = main_arg0
  · subst h0; exact W2_in m c 0 rfl
  by_cases h1 : r = main_arg4
  · subst h1; exact W2_in m c 1 rfl
  by_cases h2 : r = main_v13
  · subst h2; exact W2_in m c 2 rfl
  exact W2_of_ne m c r fun w => match w with
    | ⟨0, _⟩ => fun e => h0 e.symm
    | ⟨1, _⟩ => fun e => h1 e.symm
    | ⟨2, _⟩ => fun e => h2 e.symm
    | ⟨3, _⟩ => fun e => h e.symm

theorem W3_keep (c : Dev nD) (r : Ref sig .tc) (h : r ∉ hostOps1_W) :
    W3 m c (Proc.devRef .tc r) = W2 m c (Proc.devRef .tc r) :=
  StableHlo.after_of_writes_sub hostOps1 _ hostOps1_writes h

theorem W4_keep (c : Dev nD) (r : Ref sig .tc) (h : r ≠ main_v28) :
    W4 m c (Proc.devRef .tc r) = W3 m c (Proc.devRef .tc r) := by
  by_cases h0 : r = main_v25
  · subst h0; exact W4_in m c 0 rfl
  by_cases h1 : r = main_v26
  · subst h1; exact W4_in m c 1 rfl
  by_cases h2 : r = main_arg5
  · subst h2; exact W4_in m c 2 rfl
  by_cases h3 : r = main_arg6
  · subst h3; exact W4_in m c 3 rfl
  by_cases h4 : r = main_v27
  · subst h4; exact W4_in m c 4 rfl
  exact W4_of_ne m c r fun w => match w with
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => h e.symm

theorem W5_keep (c : Dev nD) (r : Ref sig .tc) (h : r ∉ hostOps2_W) :
    W5 m c (Proc.devRef .tc r) = W4 m c (Proc.devRef .tc r) :=
  StableHlo.after_of_writes_sub hostOps2 _ hostOps2_writes h

theorem W6_keep (c : Dev nD) (r : Ref sig .tc) (h : r ≠ main_v42) :
    W6 m c (Proc.devRef .tc r) = W5 m c (Proc.devRef .tc r) := by
  by_cases h0 : r = main_v39
  · subst h0; exact W6_in m c 0 rfl
  by_cases h1 : r = main_v40
  · subst h1; exact W6_in m c 1 rfl
  by_cases h2 : r = main_arg7
  · subst h2; exact W6_in m c 2 rfl
  by_cases h3 : r = main_arg8
  · subst h3; exact W6_in m c 3 rfl
  by_cases h4 : r = main_v41
  · subst h4; exact W6_in m c 4 rfl
  exact W6_of_ne m c r fun w => match w with
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => h e.symm

theorem W7_keep (c : Dev nD) (r : Ref sig .tc) (h : r ∉ hostOps3_W) :
    W7 m c (Proc.devRef .tc r) = W6 m c (Proc.devRef .tc r) :=
  StableHlo.after_of_writes_sub hostOps3 _ hostOps3_writes h

theorem W8_keep (c : Dev nD) (r : Ref sig .tc) (h : r ≠ main_v56) :
    W8 m c (Proc.devRef .tc r) = W7 m c (Proc.devRef .tc r) := by
  by_cases h0 : r = main_v53
  · subst h0; exact W8_in m c 0 rfl
  by_cases h1 : r = main_v55
  · subst h1; exact W8_in m c 1 rfl
  by_cases h2 : r = main_arg9
  · subst h2; exact W8_in m c 2 rfl
  by_cases h3 : r = main_v54
  · subst h3; exact W8_in m c 3 rfl
  exact W8_of_ne m c r fun w => match w with
    | ⟨0, _⟩ => fun e => h0 e.symm
    | ⟨1, _⟩ => fun e => h1 e.symm
    | ⟨2, _⟩ => fun e => h2 e.symm
    | ⟨3, _⟩ => fun e => h3 e.symm
    | ⟨4, _⟩ => fun e => h e.symm

theorem W9_keep (c : Dev nD) (r : Ref sig .tc) (h : r ∉ hostOps4_W) :
    W9 m c (Proc.devRef .tc r) = W8 m c (Proc.devRef .tc r) :=
  StableHlo.after_of_writes_sub hostOps4 _ hostOps4_writes h

theorem W10_keep (c : Dev nD) (r : Ref sig .tc) (h : r ∉ hostOps4_1_W) :
    W10 m c (Proc.devRef .tc r) = W9 m c (Proc.devRef .tc r) :=
  StableHlo.after_of_writes_sub hostOps4_1 _ hostOps4_1_writes h

theorem W11_keep (c : Dev nD) (r : Ref sig .tc) (h : r ∉ hostOps4_2_W) :
    W11 m c (Proc.devRef .tc r) = W10 m c (Proc.devRef .tc r) :=
  StableHlo.after_of_writes_sub hostOps4_2 _ hostOps4_2_writes h

theorem W12_keep (c : Dev nD) (r : Ref sig .tc) (h : r ≠ main_v73) :
    W12 m c (Proc.devRef .tc r) = W11 m c (Proc.devRef .tc r) := by
  by_cases h0 : r = main_v72
  · subst h0; exact W12_in m c 0 rfl
  by_cases h1 : r = main_arg10
  · subst h1; exact W12_in m c 1 rfl
  by_cases h2 : r = main_arg11
  · subst h2; exact W12_in m c 2 rfl
  by_cases h3 : r = main_arg12
  · subst h3; exact W12_in m c 3 rfl
  by_cases h4 : r = main_arg13
  · subst h4; exact W12_in m c 4 rfl
  by_cases h5 : r = main_arg14
  · subst h5; exact W12_in m c 5 rfl
  by_cases h6 : r = main_arg15
  · subst h6; exact W12_in m c 6 rfl
  exact W12_of_ne m c r fun w => match w with
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => h5 e.symm
    | ⟨6, _⟩ => fun e => h6 e.symm
    | ⟨7, _⟩ => fun e => h e.symm

/-! ## Each region's output array, read off the fold -/

theorem W2_out (c : Dev nD) : W2 m c (Proc.devRef .tc main_v14) = (dat0 (V1 m) c).arrAt 3 cfg0.N := W2_arr m c 3
theorem W4_out (c : Dev nD) : W4 m c (Proc.devRef .tc main_v28) = (dat1 (V3 m) c).arrAt 5 cfg1.N := W4_arr m c 5
theorem W6_out (c : Dev nD) : W6 m c (Proc.devRef .tc main_v42) = (dat2 (V5 m) c).arrAt 5 cfg2.N := W6_arr m c 5
theorem W8_out (c : Dev nD) : W8 m c (Proc.devRef .tc main_v56) = (dat3 (V7 m) c).arrAt 4 cfg3.N := W8_arr m c 4
theorem W12_out (c : Dev nD) : W12 m c (Proc.devRef .tc main_v73) = (dat4 (V11 m) c).arrAt 7 cfg4.N := W12_arr m c 7

/-! ## The arguments end as launched

No host operation writes an argument and no region's output window is one, so the fold at an argument's buffer walks
back to the launch memory. -/

/-- A reference that no stretch writes and that is no region's output array holds at the end what the launch memory held. -/
theorem W12_of (c : Dev nD) (r : Ref sig .tc)
    (h1 : r ∉ hostOps0_W) (h2 : r ≠ main_v14) (h3 : r ∉ hostOps1_W) (h4 : r ≠ main_v28) (h5 : r ∉ hostOps2_W)
    (h6 : r ≠ main_v42) (h7 : r ∉ hostOps3_W) (h8 : r ≠ main_v56) (h9 : r ∉ hostOps4_W) (h10 : r ∉ hostOps4_1_W)
    (h11 : r ∉ hostOps4_2_W) (h12 : r ≠ main_v73) :
    W12 m c (Proc.devRef .tc r) = m ((c.tc : Thread nD τ).loc r) :=
  (W12_keep m c r h12).trans <| (W11_keep m c r h11).trans <| (W10_keep m c r h10).trans <| (W9_keep m c r h9).trans <|
    (W8_keep m c r h8).trans <| (W7_keep m c r h7).trans <| (W6_keep m c r h6).trans <| (W5_keep m c r h5).trans <|
    (W4_keep m c r h4).trans <| (W3_keep m c r h3).trans <| (W2_keep m c r h2).trans <| (W1_keep m c r h1).trans (W0_eq m c r)

theorem W12_main_arg0 (c : Dev nD) : W12 m c (Proc.devRef .tc main_arg0) = m ((c.tc : Thread nD τ).loc main_arg0) :=
  W12_of m c main_arg0 (by decide) (by decide) (by decide) (by decide) (by decide) (by decide) (by decide) (by decide) (by decide) (by decide) (by decide) (by decide)
theorem W12_main_arg1 (c : Dev nD) : W12 m c (Proc.devRef .tc main_arg1) = m ((c.tc : Thread nD τ).loc main_arg1) :=
  W12_of m c main_arg1 (by decide) (by decide) (by decide) (by decide) (by decide) (by decide) (by decide) (by decide) (by decide) (by decide) (by decide) (by decide)
theorem W12_main_arg2 (c : Dev nD) : W12 m c (Proc.devRef .tc main_arg2) = m ((c.tc : Thread nD τ).loc main_arg2) :=
  W12_of m c main_arg2 (by decide) (by decide) (by decide) (by decide) (by decide) (by decide) (by decide) (by decide) (by decide) (by decide) (by decide) (by decide)
theorem W12_main_arg3 (c : Dev nD) : W12 m c (Proc.devRef .tc main_arg3) = m ((c.tc : Thread nD τ).loc main_arg3) :=
  W12_of m c main_arg3 (by decide) (by decide) (by decide) (by decide) (by decide) (by decide) (by decide) (by decide) (by decide) (by decide) (by decide) (by decide)
theorem W12_main_arg4 (c : Dev nD) : W12 m c (Proc.devRef .tc main_arg4) = m ((c.tc : Thread nD τ).loc main_arg4) :=
  W12_of m c main_arg4 (by decide) (by decide) (by decide) (by decide) (by decide) (by decide) (by decide) (by decide) (by decide) (by decide) (by decide) (by decide)
theorem W12_main_arg5 (c : Dev nD) : W12 m c (Proc.devRef .tc main_arg5) = m ((c.tc : Thread nD τ).loc main_arg5) :=
  W12_of m c main_arg5 (by decide) (by decide) (by decide) (by decide) (by decide) (by decide) (by decide) (by decide) (by decide) (by decide) (by decide) (by decide)
theorem W12_main_arg6 (c : Dev nD) : W12 m c (Proc.devRef .tc main_arg6) = m ((c.tc : Thread nD τ).loc main_arg6) :=
  W12_of m c main_arg6 (by decide) (by decide) (by decide) (by decide) (by decide) (by decide) (by decide) (by decide) (by decide) (by decide) (by decide) (by decide)
theorem W12_main_arg7 (c : Dev nD) : W12 m c (Proc.devRef .tc main_arg7) = m ((c.tc : Thread nD τ).loc main_arg7) :=
  W12_of m c main_arg7 (by decide) (by decide) (by decide) (by decide) (by decide) (by decide) (by decide) (by decide) (by decide) (by decide) (by decide) (by decide)
theorem W12_main_arg8 (c : Dev nD) : W12 m c (Proc.devRef .tc main_arg8) = m ((c.tc : Thread nD τ).loc main_arg8) :=
  W12_of m c main_arg8 (by decide) (by decide) (by decide) (by decide) (by decide) (by decide) (by decide) (by decide) (by decide) (by decide) (by decide) (by decide)
theorem W12_main_arg9 (c : Dev nD) : W12 m c (Proc.devRef .tc main_arg9) = m ((c.tc : Thread nD τ).loc main_arg9) :=
  W12_of m c main_arg9 (by decide) (by decide) (by decide) (by decide) (by decide) (by decide) (by decide) (by decide) (by decide) (by decide) (by decide) (by decide)
theorem W12_main_arg10 (c : Dev nD) : W12 m c (Proc.devRef .tc main_arg10) = m ((c.tc : Thread nD τ).loc main_arg10) :=
  W12_of m c main_arg10 (by decide) (by decide) (by decide) (by decide) (by decide) (by decide) (by decide) (by decide) (by decide) (by decide) (by decide) (by decide)
theorem W12_main_arg11 (c : Dev nD) : W12 m c (Proc.devRef .tc main_arg11) = m ((c.tc : Thread nD τ).loc main_arg11) :=
  W12_of m c main_arg11 (by decide) (by decide) (by decide) (by decide) (by decide) (by decide) (by decide) (by decide) (by decide) (by decide) (by decide) (by decide)
theorem W12_main_arg12 (c : Dev nD) : W12 m c (Proc.devRef .tc main_arg12) = m ((c.tc : Thread nD τ).loc main_arg12) :=
  W12_of m c main_arg12 (by decide) (by decide) (by decide) (by decide) (by decide) (by decide) (by decide) (by decide) (by decide) (by decide) (by decide) (by decide)
theorem W12_main_arg13 (c : Dev nD) : W12 m c (Proc.devRef .tc main_arg13) = m ((c.tc : Thread nD τ).loc main_arg13) :=
  W12_of m c main_arg13 (by decide) (by decide) (by decide) (by decide) (by decide) (by decide) (by decide) (by decide) (by decide) (by decide) (by decide) (by decide)
theorem W12_main_arg14 (c : Dev nD) : W12 m c (Proc.devRef .tc main_arg14) = m ((c.tc : Thread nD τ).loc main_arg14) :=
  W12_of m c main_arg14 (by decide) (by decide) (by decide) (by decide) (by decide) (by decide) (by decide) (by decide) (by decide) (by decide) (by decide) (by decide)
theorem W12_main_arg15 (c : Dev nD) : W12 m c (Proc.devRef .tc main_arg15) = m ((c.tc : Thread nD τ).loc main_arg15) :=
  W12_of m c main_arg15 (by decide) (by decide) (by decide) (by decide) (by decide) (by decide) (by decide) (by decide) (by decide) (by decide) (by decide) (by decide)

/-! # The proof data family and the thread state -/

/-- Every pipeline's proof data, each at its region's entry contents: a literal match, so that the pinned configuration
    at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents W, R riding along: it is left with those
    references at StableHlo.after of its operations, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W12 m c) ∗ ∃ r, prngReg c r)

/-! # The regions as segments

Each region is entered from every unscoped buffer at its entry contents beside R, and left with them at its exit
contents. Its arrays are split out of the unscoped buffers and put back at what the write-backs leave; the generator
register goes into the pipeline's invariant and comes back; nothing is owed; the kernel has no semaphore of its own. -/

set_option backward.isDefEq.respectTransparency.types false in
/-- Region 0: entered from W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from W3, left at W4. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from W5, left at W6. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from W7, left at W8. Its invariant carries the kernel's scratch buffer across the grid points: it
    is made at the first point from the generator register and the scoped buffers no window stages, and gives them back
    at the last. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m) c)
    iintro ⟨Hp, -, Hr⟩
    isplitl [Hp]; · iexact Hp
    iexact Hr
  hout c := by
    rw [Pipeline.ownSems0_none]
    refine (hout3 (V7 m) c).trans ?_
    iintro ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from W11, left at W12, the contents @main returns with: its exit state is the last thread state
    beside the core owing nothing. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m) c).loose
  hwaits := Pipeline.hwaits_of_owed_zero _ _ _ _ L lv 4 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V11 m c) (V12 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's twelve items in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .host (hseg hostOps4_1 hostOps4_1_sub hostOps4_1_fresh (W9 m)),
    .host (hseg hostOps4_2 hostOps4_2_sub hostOps4_2_fresh (W10 m)),
    .region (reg4 m) ]

/-- @main is the run of the segments: it is the chain of its items, and the segments' run is the chain of their
    fragments, item by item the same. -/
theorem main_run (c : Dev nD) : main (F := F) c = Pipeline.Seg.run (segs m) := by
  rw [main_chain c, Pipeline.Seg.run_eq_chain]
  rfl

set_option backward.isDefEq.respectTransparency.types false in
/-- The run of @main with its result: at the compiled mesh, from any memory with zero counters, every weakly fair
    execution of @main on the TensorCores terminates, nothing faulting, and every final state has every unscoped buffer
    at the last boundary's contents W12. The launch over the segments; the last thread state read against the final state. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h => h)

/-- The frame: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c),
     (h c _ (mem_uc main_arg7 (by decide))).trans (W12_main_arg7 m c),
     (h c _ (mem_uc main_arg8 (by decide))).trans (W12_main_arg8 m c),
     (h c _ (mem_uc main_arg9 (by decide))).trans (W12_main_arg9 m c),
     (h c _ (mem_uc main_arg10 (by decide))).trans (W12_main_arg10 m c),
     (h c _ (mem_uc main_arg11 (by decide))).trans (W12_main_arg11 m c),
     (h c _ (mem_uc main_arg12 (by decide))).trans (W12_main_arg12 m c),
     (h c _ (mem_uc main_arg13 (by decide))).trans (W12_main_arg13 m c),
     (h c _ (mem_uc main_arg14 (by decide))).trans (W12_main_arg14 m c),
     (h c _ (mem_uc main_arg15 (by decide))).trans (W12_main_arg15 m c)⟩) (run_all m ρ)

/-- The run with the result named: the result array ends at the last boundary's contents, each argument as launched. -/
theorem run_val (ρ : Dev nD → PrngReg) : θ_run defs (onTc (τ := τ) (main (F := F))) ⟨m, fun _ => 0, ρ⟩ (fun r => ∀ c : Dev nD,
      r.2.mem ((c.tc : Thread nD τ).loc main_v73) = W12 m c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c _ (mem_uc main_v73 (by decide)),
     (h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c),
     (h c _ (mem_uc main_arg7 (by decide))).trans (W12_main_arg7 m c),
     (h c _ (mem_uc main_arg8 (by decide))).trans (W12_main_arg8 m c),
     (h c _ (mem_uc main_arg9 (by decide))).trans (W12_main_arg9 m c),
     (h c _ (mem_uc main_arg10 (by decide))).trans (W12_main_arg10 m c),
     (h c _ (mem_uc main_arg11 (by decide))).trans (W12_main_arg11 m c),
     (h c _ (mem_uc main_arg12 (by decide))).trans (W12_main_arg12 m c),
     (h c _ (mem_uc main_arg13 (by decide))).trans (W12_main_arg13 m c),
     (h c _ (mem_uc main_arg14 (by decide))).trans (W12_main_arg14 m c),
     (h c _ (mem_uc main_arg15 (by decide))).trans (W12_main_arg15 m c)⟩) (run_all m ρ)

end Cert.Kernel.Hand

end
-- ==== Proof.KI.R0.lean ====
/- Region 0 of @main (the first layer's linear map and source-side scaling), at the buffer contents `V` found
   when the region is entered, for any float instance: each window's block at a grid point, what the body leaves in
   the output window's staging buffer as a function of the three input blocks, the body's triple, the pipeline's
   proof data and its body obligation. -/
import proofs.«417676_j6554120093878_3_alg».proof.Proof.Gen.KernelIdeal.Launch
import proofs.«417676_j6554120093878_3_alg».proof.Proof.Gen.KernelIdeal.Skeleton
import proofs.«417676_j6554120093878_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4000 rows: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the node features: its staging buffer holds the block of the point, fetched there or not,
    for any proof data over the entry contents whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight matrix, one block for the whole grid: fetched at the first point only, and its block index never
    moves, so the buffer holds the block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The row block of the scaling column. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_0 : Rect S4000x128 := Rect.unit (s := S4000x128) ![0, 0] S4000x128.size inb_S4000x128_S4000x128_0_0
abbrev r0_1 : Rect S128x128 := Rect.unit (s := S128x128) ![0, 0] S128x128.size inb_S128x128_S128x128_0_0
abbrev r0_2 : Rect S4000x1 := Rect.unit (s := S4000x1) ![0, 0] S4000x1.size inb_S4000x1_S4000x1_0_0

/-! ## What the body leaves in the output window's buffer -/

/-- The output buffer after the body, from the three input blocks: its one store, of the payload (the product of the
    row block with the weights, each row scaled by its entry of the column) over the whole buffer. -/
def out0_3 (x0 : Vec F S4000x128 .f32) (x1 : Vec F S128x128 .f32) (x2 : Vec F S4000x1 .f32) : Vec F S4000x128 .bf16 :=
  View.canon [⟨r0_0, k0_pay1 (View.ld x0 r0_0) (View.ld x1 r0_1) (View.ld x2 r0_2)⟩]

/-- The one store tiles the buffer, so it covers it. -/
theorem cover0_3 (p0 : Vec F S4000x128 .bf16) (y : S4000x128.Idx) :
    ∃ pc ∈ ([⟨r0_0, p0⟩] : List (View.Piece (Elt F) S4000x128 .bf16)), y ∈ pc.1.set :=
  View.cover_of_tiled [⟨r0_0, p0⟩] S4000x128.size (by rfl) y

/-! ## The body's triple -/

set_option maxHeartbeats 1000000 in
/-- The body on whole staging memrefs, the inputs' at contents `x0`, `x1`, `x2` and the output's at anything, runs to the
    continuation holding the inputs' as they were and the output's at `out0_3` of them. -/
theorem sound_kernel0 (c : Dev nD) (E : Set ℕ) (i : grid0.Coords) (arg1 : Memref sig .tc .vmem S4000x128 .f32) (harg1 : arg1.IsWhole) (arg2 : Memref sig .tc .vmem S128x128 .f32) (harg2 : arg2.IsWhole) (arg3 : Memref sig .tc .vmem S4000x1 .f32) (harg3 : arg3.IsWhole) (arg4 : Memref sig .tc .vmem S4000x128 .bf16) (harg4 : arg4.IsWhole)
    (x0 : Vec F S4000x128 .f32) (x1 : Vec F S128x128 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_scale0_kernel i arg1 harg1 arg2 harg2 arg3 harg3 arg4 harg4) K := by
  simp only [cc0__linear_scale0_kernel_eq_skeleton]; unfold cc0__linear_scale0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region's pipeline on core `c`: the arrays as the region finds them; after the body at point
    `t` each input's buffer at its block and the output's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.R1.lean ====
import proofs.«417676_j6554120093878_3_alg».proof.Proof.Gen.KernelIdeal.Launch
import proofs.«417676_j6554120093878_3_alg».proof.Proof.Gen.KernelIdeal.Skeleton
import proofs.«417676_j6554120093878_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main: the second graph-convolution layer's dense half, at the entry contents `V`

The call runs over 25 grid points; point `t` works on rows `4000 t … 4000 t + 3999` of the node axis. Its six
windows are: 0 the aggregated features (a 4000 × 128 block of rows), 1 the destination-degree scale (a 4000 × 1
column block), 2 the bias (all 128 entries, the same block at every point), 3 the weight matrix (all of its
128 × 128 entries, the same block at every point), 4 the source-degree scale (a 4000 × 1 column block), and 5 the
output (a 4000 × 128 block of rows, written whole by the body's one store).

The body reads its five input blocks whole and stores `((max (agg · nd + b) 0) W) · ns` (the payload `k1_pay1`)
over the whole output block. So after the body every input buffer still holds its block and the output buffer holds
that payload of the input blocks: this is the proof data `dat1`, and `body_obligation1` is the body's triple at
every grid point. Everything is generic in the float instance. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each is the whole of its buffer -/

abbrev r1_blk : Rect S4000x128 := Rect.unit (s := S4000x128) ![0, 0] S4000x128.size inb_S4000x128_S4000x128_0_0
abbrev r1_col : Rect S4000x1 := Rect.unit (s := S4000x1) ![0, 0] S4000x1.size inb_S4000x1_S4000x1_0_0
abbrev r1_vec : Rect S128 := Rect.unit (s := S128) ![0] S128.size inb_S128_S128_0
abbrev r1_mat : Rect S128x128 := Rect.unit (s := S128x128) ![0, 0] S128x128.size inb_S128x128_S128x128_0_0

/-! ## What the body leaves in the output window's buffer -/

/-- Window 5's staging buffer after the body, from the input windows' blocks: its one store, of the payload of the
    five loaded blocks, over the whole buffer. -/
def out1_5 (x0 : Vec F S4000x128 .f32) (x1 : Vec F S4000x1 .f32) (x2 : Vec F S128 .f32) (x3 : Vec F S128x128 .f32)
    (x4 : Vec F S4000x1 .f32) : Vec F S4000x128 .bf16 :=
  View.canon [⟨r1_blk, k1_pay1 (View.ld x0 r1_blk) (View.ld x1 r1_col) (View.ld x2 r1_vec) (View.ld x3 r1_mat) (View.ld x4 r1_col)⟩]

/-- The store's rectangle is the whole buffer, so it covers it. -/
theorem cover1_5 (p0 : Vec F S4000x128 .bf16) (y : S4000x128.Idx) :
    ∃ pc ∈ ([⟨r1_blk, p0⟩] : List (View.Piece (Elt F) S4000x128 .bf16)), y ∈ pc.1.set :=
  View.cover_of_tiled [⟨r1_blk, p0⟩] S4000x128.size (by rfl) y

/-! ## The body's triple -/

set_option maxHeartbeats 1000000 in
/-- The kernel body on whole staging memrefs, the inputs' at read contents `x0 … x4` and the output's at anything,
    runs to the continuation holding the inputs' as they were and the output's at `out1_5` of the inputs'. -/
theorem sound_kernel1 (c : Dev nD) (E : Set ℕ) (i : grid1.Coords)
    (arg1 : Memref sig .tc .vmem S4000x128 .f32) (harg1 : arg1.IsWhole) (arg2 : Memref sig .tc .vmem S4000x1 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S4000x1 .f32) (harg5 : arg5.IsWhole) (arg6 : Memref sig .tc .vmem S4000x128 .bf16) (harg6 : arg6.IsWhole)
    (x0 : Vec F S4000x128 .f32) (x1 : Vec F S4000x1 .f32) (x2 : Vec F S128 .f32) (x3 : Vec F S128x128 .f32) (x4 : Vec F S4000x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__bias_relu_linear_scale_kernel i arg1 harg1 arg2 harg2 arg3 harg3 arg4 harg4 arg5 harg5 arg6 harg6) K := by
  simp only [cc1__bias_relu_linear_scale_kernel_eq_skeleton]; unfold cc1__bias_relu_linear_scale_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the call on core `c`: the arrays as the region finds them; after the body at point `t` each
    input's buffer at its block and the output's at `out1_5` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

/-- Each input's current staging buffer holds its block at every point, whether the pipeline fetched it there or
    not: a window whose block index did not move (the bias and the weights, after the first point) still holds the
    previous point's block, which is this point's; the body leaves every input block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.R2.lean ====
import proofs.«417676_j6554120093878_3_alg».proof.Proof.Gen.KernelIdeal.Launch
import proofs.«417676_j6554120093878_3_alg».proof.Proof.Gen.KernelIdeal.Skeleton
import proofs.«417676_j6554120093878_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main: the third graph-convolution layer's dense half, at the entry contents `V`

The call runs over 25 grid points; point `t` works on rows `4000 t … 4000 t + 3999` of the node axis. Its six
windows are: 0 the aggregated features (a 4000 × 128 block of rows), 1 the destination-degree scale (a 4000 × 1
column block), 2 the bias (all 128 entries, the same block at every point), 3 the weight matrix (all of its
128 × 128 entries, the same block at every point), 4 the source-degree scale (a 4000 × 1 column block), and 5 the
output (a 4000 × 128 block of rows, written whole by the body's one store).

The body reads its five input blocks whole and stores `((max (agg · nd + b) 0) W) · ns` (the payload `k2_pay1`)
over the whole output block. So after the body every input buffer still holds its block and the output buffer holds
that payload of the input blocks: this is the proof data `dat2`, and `body_obligation2` is the body's triple at
every grid point. Everything is generic in the float instance. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each is the whole of its buffer -/

abbrev r2_blk : Rect S4000x128 := Rect.unit (s := S4000x128) ![0, 0] S4000x128.size inb_S4000x128_S4000x128_0_0
abbrev r2_col : Rect S4000x1 := Rect.unit (s := S4000x1) ![0, 0] S4000x1.size inb_S4000x1_S4000x1_0_0
abbrev r2_vec : Rect S128 := Rect.unit (s := S128) ![0] S128.size inb_S128_S128_0
abbrev r2_mat : Rect S128x128 := Rect.unit (s := S128x128) ![0, 0] S128x128.size inb_S128x128_S128x128_0_0

/-! ## What the body leaves in the output window's buffer -/

/-- Window 5's staging buffer after the body, from the input windows' blocks: its one store, of the payload of the
    five loaded blocks, over the whole buffer. -/
def out2_5 (x0 : Vec F S4000x128 .f32) (x1 : Vec F S4000x1 .f32) (x2 : Vec F S128 .f32) (x3 : Vec F S128x128 .f32)
    (x4 : Vec F S4000x1 .f32) : Vec F S4000x128 .bf16 :=
  View.canon [⟨r2_blk, k2_pay1 (View.ld x0 r2_blk) (View.ld x1 r2_col) (View.ld x2 r2_vec) (View.ld x3 r2_mat) (View.ld x4 r2_col)⟩]

/-- The store's rectangle is the whole buffer, so it covers it. -/
theorem cover2_5 (p0 : Vec F S4000x128 .bf16) (y : S4000x128.Idx) :
    ∃ pc ∈ ([⟨r2_blk, p0⟩] : List (View.Piece (Elt F) S4000x128 .bf16)), y ∈ pc.1.set :=
  View.cover_of_tiled [⟨r2_blk, p0⟩] S4000x128.size (by rfl) y

/-! ## The body's triple -/

set_option maxHeartbeats 1000000 in
/-- The kernel body on whole staging memrefs, the inputs' at read contents `x0 … x4` and the output's at anything,
    runs to the continuation holding the inputs' as they were and the output's at `out2_5` of the inputs'. -/
theorem sound_kernel2 (c : Dev nD) (E : Set ℕ) (i : grid2.Coords)
    (arg1 : Memref sig .tc .vmem S4000x128 .f32) (harg1 : arg1.IsWhole) (arg2 : Memref sig .tc .vmem S4000x1 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S4000x1 .f32) (harg5 : arg5.IsWhole) (arg6 : Memref sig .tc .vmem S4000x128 .bf16) (harg6 : arg6.IsWhole)
    (x0 : Vec F S4000x128 .f32) (x1 : Vec F S4000x1 .f32) (x2 : Vec F S128 .f32) (x3 : Vec F S128x128 .f32) (x4 : Vec F S4000x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__bias_relu_linear_scale_kernel i arg1 harg1 arg2 harg2 arg3 harg3 arg4 harg4 arg5 harg5 arg6 harg6) K := by
  simp only [cc2__bias_relu_linear_scale_kernel_eq_skeleton]; unfold cc2__bias_relu_linear_scale_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the call on core `c`: the arrays as the region finds them; after the body at point `t` each
    input's buffer at its block and the output's at `out2_5` of the input blocks; the invariant is the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2_5 (iblk2 V c 0 t) (iblk2 V c 1 t) (iblk2 V c 2 t) (iblk2 V c 3 t) (iblk2 V c 4 t) := by dsimp only [dat2]

/-- Each input's current staging buffer holds its block at every point, whether the pipeline fetched it there or
    not: a window whose block index did not move (the bias and the weights, after the first point) still holds the
    previous point's block, which is this point's; the body leaves every input block in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.R3.lean ====
/- Region 3 of @main (bias, relu and the pooled sum per graph), at the buffer contents `V` found when the region is
   entered, for any float instance. The body keeps a [256,128] accumulator in a scratch buffer across the 25 grid
   points: the first point fills it with zeros, every point adds its block's contribution (the transposed one-hot
   matrix of the block's graph ids times the block's relu rows), and the last point copies it to the output block.
   Here: each window's block at a point, the accumulator after each point as a recursion over the points, the body's
   triple in each of its three control cases, the pipeline's proof data with the accumulator's contents carried in
   the region invariant, the body obligation, and the invariant's entry and exit. -/
import proofs.«417676_j6554120093878_3_alg».proof.Proof.Gen.KernelIdeal.Launch
import proofs.«417676_j6554120093878_3_alg».proof.Proof.Gen.KernelIdeal.Skeleton
import proofs.«417676_j6554120093878_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 4000 rows: the elaborator's structural look recurses once per coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses -/

abbrev r3_0 : Rect S4000x128 := Rect.unit (s := S4000x128) ![0, 0] S4000x128.size inb_S4000x128_S4000x128_0_0
abbrev r3_1 : Rect S4000x1 := Rect.unit (s := S4000x1) ![0, 0] S4000x1.size inb_S4000x1_S4000x1_0_0
abbrev r3_2 : Rect S128 := Rect.unit (s := S128) ![0] S128.size inb_S128_S128_0
abbrev r3_S : Rect S256x128 := Rect.unit (s := S256x128) ![0, 0] S256x128.size inb_S256x128_S256x128_0_0

/-! ## The accumulator, point by point -/

/-- The accumulator after the first point's zero fill. -/
def zero3 : Vec F S256x128 .f32 := View.canon [⟨r3_S, k3_pay1 (F := F)⟩]

/-- The accumulator after a point's store, from the point's four input blocks and the accumulator `s` it found. -/
def step3 (x0 : Vec F S4000x128 .f32) (x1 : Vec F S4000x1 .f32) (x2 : Vec F S128 .f32) (x3 : Vec F S4000x1 .i32)
    (s : Vec F S256x128 .f32) : Vec F S256x128 .f32 :=
  View.canon [⟨r3_S, k3_pay2 (View.ld x0 r3_0) (View.ld x1 r3_1) (View.ld x2 r3_2) (View.ld x3 r3_1) (View.ld s r3_S)⟩]

/-- The output block's staging buffer after the last point's copy of the accumulator `s`. -/
def out3_4 (s : Vec F S256x128 .f32) : Vec F S256x128 .f32 := View.canon [⟨r3_S, View.ld s r3_S⟩]

/-- THE ACCUMULATION. The scratch accumulator after the body at position `n`: the first point adds its block's
    contribution to the zero fill, every later point to what the point before left. -/
def acc3 (c : Dev nD) : (n : ℕ) → n < cfg3.N → Vec F S256x128 .f32
  | 0, hn => step3 (iblk3 V c 0 ⟨0, hn⟩) (iblk3 V c 1 ⟨0, hn⟩) (iblk3 V c 2 ⟨0, hn⟩) (iblk3 V c 3 ⟨0, hn⟩) zero3
  | n + 1, hn => step3 (iblk3 V c 0 ⟨n + 1, hn⟩) (iblk3 V c 1 ⟨n + 1, hn⟩) (iblk3 V c 2 ⟨n + 1, hn⟩) (iblk3 V c 3 ⟨n + 1, hn⟩)
      (acc3 c n (Nat.lt_of_succ_lt hn))

/-- The scratch accumulator as a whole memref. -/
abbrev scM3 : Memref sig .tc .vmem S256x128 .f32 := Memref.whole cc3_scratch0

/-- The region invariant before position `n`: before the first point every scoped buffer no window stages at some
    contents; afterwards the accumulator at what the point before left, the other such buffers at some contents; the
    generator register at some state throughout. -/
def Phi3 (c : Dev nD) : (n : ℕ) → n ≤ cfg3.N → sProp 𝕄
  | 0, _ => iprop((∃ r, prngReg c r) ∗ Pipeline.scopedRest (Ix := Unit) (Name := ℕ) (U := UR sig nD τ) (Lvl := ℕ) spec3 c)
  | n + 1, hn => iprop(owns (c : Thread nD τ) scM3 fullShare (acc3 V c n hn)
      ∗ Pipeline.scopedRestBut (Ix := Unit) (Name := ℕ) (U := UR sig nD τ) (Lvl := ℕ) spec3 c [cc3_scratch0] ∗ (∃ r, prngReg c r))

/-! ## What the body finds in the input windows' buffers -/

/-- The row block of the aggregated features: its staging buffer holds the block of the point, fetched there or not, for any proof data over the entry contents whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The row block of the destination-side scaling column. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The bias row, one block for the whole grid: fetched at the first point only, and its block index never moves. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- The row block of the graph-id column. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The body's first branch (the zero fill) is taken when the grid coordinate is 0: the printed scalar chain. -/
abbrev cond3_0 (i : grid3.Coords) : Prop :=
  (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)
/-- The body's last branch (the copy to the output block) is taken when the grid coordinate is 24. -/
abbrev cond3_1 (i : grid3.Coords) : Prop := k3_cond2 i = 1#1
/-- It holds at the last point only. -/
theorem hcond3_1 : ∀ t : Fin cfg3.N, cond3_1 (grid3.coords t) ↔ t.val = 24 :=
  (by decide +kernel : ∀ t : Fin grid3.N, cond3_1 (grid3.coords t) ↔ t.val = 24)

/-- One store through the whole rectangle covers the [256,128] buffer. -/
theorem cover3_S (p : Vec F S256x128 .f32) (y : S256x128.Idx) :
    ∃ pc ∈ ([⟨r3_S, p⟩] : List (View.Piece (Elt F) S256x128 .f32)), y ∈ pc.1.set :=
  View.cover_of_tiled [⟨r3_S, p⟩] S256x128.size (by rfl) y

/-- The same with earlier stores beneath it. -/
theorem cover3_S_cons (p : Vec F S256x128 .f32) (L : List (View.Piece (Elt F) S256x128 .f32)) (y : S256x128.Idx) :
    ∃ pc ∈ ((⟨r3_S, p⟩ : View.Piece (Elt F) S256x128 .f32) :: L), y ∈ pc.1.set := by
  obtain ⟨pc, hm, hy⟩ := cover3_S p y
  rw [List.mem_singleton] at hm; subst hm
  exact ⟨_, List.mem_cons_self .., hy⟩

/-- A whole-buffer store hides what was stored before it. -/
theorem canon_S_cons (p : Vec F S256x128 .f32) (L : List (View.Piece (Elt F) S256x128 .f32)) :
    View.canon ((⟨r3_S, p⟩ : View.Piece (Elt F) S256x128 .f32) :: L) = View.canon [⟨r3_S, p⟩] := by
  funext y
  obtain ⟨pc, hm, hy⟩ := cover3_S p y
  rw [List.mem_singleton] at hm; subst hm
  obtain ⟨x, rfl⟩ := (r3_S).exists_idx_of_mem hy
  exact (View.canon_cons_emb r3_S p L x).trans (View.canon_cons_emb r3_S p [] x).symm

/-- A whole-buffer load after a whole-buffer store reads the stored value. -/
theorem ld_canon_S (p : Vec F S256x128 .f32) (L : List (View.Piece (Elt F) S256x128 .f32)) :
    View.ld (View.canon ((⟨r3_S, p⟩ : View.Piece (Elt F) S256x128 .f32) :: L)) r3_S = p :=
  funext fun x => View.canon_cons_emb r3_S p L x

/-! ## The body's triple, case by case

The body on whole staging memrefs, the inputs' at read contents `x·`, runs to the continuation holding the inputs' as
they were and the accumulator at the next contents; the output block's buffer is touched at the last point only. The
printed function is its skeleton; its operations are run one by one, each branch decided by the case's hypotheses. -/

set_option maxHeartbeats 2000000 in
/-- A middle point: neither branch is taken; the accumulator found at `s` is left at `step3 … s`. -/
theorem run3_mid (c : Dev nD) (E : Set ℕ) (i : grid3.Coords)
    (arg1 : Memref sig .tc .vmem S4000x128 .f32) (harg1 : arg1.IsWhole) (arg2 : Memref sig .tc .vmem S4000x1 .f32) (harg2 : arg2.IsWhole)
    (arg3 : Memref sig .tc .vmem S128 .f32) (harg3 : arg3.IsWhole) (arg4 : Memref sig .tc .vmem S4000x1 .i32) (harg4 : arg4.IsWhole)
    (arg5 : Memref sig .tc .vmem S256x128 .f32) (harg5 : arg5.IsWhole) (arg6 : Memref sig .tc .vmem S256x128 .f32) (harg6 : arg6.IsWhole)
    (hc0 : ¬cond3_0 i) (hc1 : ¬cond3_1 i) (x0 : Vec F S4000x128 .f32) (x1 : Vec F S4000x1 .f32) (x2 : Vec F S128 .f32) (x3 : Vec F S4000x1 .i32) (s : Vec F S256x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare (step3 x0 x1 x2 x3 s)) -∗ K ⟨⟩))
      ⊢ wp frame (wpE (defs₀ (F := F)) Variants.none c none) E
          (cc3__bias_relu_meanpool_kernel i arg1 harg1 arg2 harg2 arg3 harg3 arg4 harg4 arg5 harg5 arg6 harg6) K := by
  simp only [cc3__bias_relu_meanpool_kernel_eq_skeleton]; unfold cc3__bias_relu_meanpool_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  exact View.read_writes_eq_canon _ _ _ (cover3_S _)

set_option maxHeartbeats 2000000 in
/-- The first point: the zero fill, then the store over it; whatever the accumulator held, it is left at
    `step3 … zero3`. -/
theorem run3_first (c : Dev nD) (E : Set ℕ) (i : grid3.Coords)
    (arg1 : Memref sig .tc .vmem S4000x128 .f32) (harg1 : arg1.IsWhole) (arg2 : Memref sig .tc .vmem S4000x1 .f32) (harg2 : arg2.IsWhole)
    (arg3 : Memref sig .tc .vmem S128 .f32) (harg3 : arg3.IsWhole) (arg4 : Memref sig .tc .vmem S4000x1 .i32) (harg4 : arg4.IsWhole)
    (arg5 : Memref sig .tc .vmem S256x128 .f32) (harg5 : arg5.IsWhole) (arg6 : Memref sig .tc .vmem S256x128 .f32) (harg6 : arg6.IsWhole)
    (hc0 : cond3_0 i) (hc1 : ¬cond3_1 i) (x0 : Vec F S4000x128 .f32) (x1 : Vec F S4000x1 .f32) (x2 : Vec F S128 .f32) (x3 : Vec F S4000x1 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ s, owns (c : Thread nD τ) arg6 fullShare s)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare (step3 x0 x1 x2 x3 zero3)) -∗ K ⟨⟩))
      ⊢ wp frame (wpE (defs₀ (F := F)) Variants.none c none) E
          (cc3__bias_relu_meanpool_kernel i arg1 harg1 arg2 harg2 arg3 harg3 arg4 harg4 arg5 harg5 arg6 harg6) K := by
  simp only [cc3__bias_relu_meanpool_kernel_eq_skeleton]; unfold cc3__bias_relu_meanpool_kernel_skel
  unfold owns
  iintro ⟨⟨%f0, %hf0, H0⟩, ⟨%f1, %hf1, H1⟩, ⟨%f2, %hf2, H2⟩, ⟨%f3, %hf3, H3⟩, ⟨%s0, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  exact (View.read_writes_eq_canon _ _ _ (cover3_S_cons _ _)).trans
    (by rw [canon_S_cons, View.readCov_cons_toLoadRect]; unfold step3 zero3; rw [ld_canon_S]; rfl)

set_option maxHeartbeats 2000000 in
/-- The last point: the store, then the copy of the accumulator into the output block's buffer. -/
theorem run3_last (c : Dev nD) (E : Set ℕ) (i : grid3.Coords)
    (arg1 : Memref sig .tc .vmem S4000x128 .f32) (harg1 : arg1.IsWhole) (arg2 : Memref sig .tc .vmem S4000x1 .f32) (harg2 : arg2.IsWhole)
    (arg3 : Memref sig .tc .vmem S128 .f32) (harg3 : arg3.IsWhole) (arg4 : Memref sig .tc .vmem S4000x1 .i32) (harg4 : arg4.IsWhole)
    (arg5 : Memref sig .tc .vmem S256x128 .f32) (harg5 : arg5.IsWhole) (arg6 : Memref sig .tc .vmem S256x128 .f32) (harg6 : arg6.IsWhole)
    (hc0 : ¬cond3_0 i) (hc1 : cond3_1 i) (x0 : Vec F S4000x128 .f32) (x1 : Vec F S4000x1 .f32) (x2 : Vec F S128 .f32) (x3 : Vec F S4000x1 .i32) (s : Vec F S256x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare s ∗ (∃ d, owns (c : Thread nD τ) arg5 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg6 fullShare (step3 x0 x1 x2 x3 s)
            ∗ owns (c : Thread nD τ) arg5 fullShare (out3_4 (step3 x0 x1 x2 x3 s))) -∗ K ⟨⟩))
      ⊢ wp frame (wpE (defs₀ (F := F)) Variants.none c none) E
          (cc3__bias_relu_meanpool_kernel i arg1 harg1 arg2 harg2 arg3 harg3 arg4 harg4 arg5 harg5 arg6 harg6) K := by
  simp only [cc3__bias_relu_meanpool_kernel_eq_skeleton]; unfold cc3__bias_relu_meanpool_kernel_skel
  unfold owns
  iintro ⟨⟨%f0, %hf0, H0⟩, ⟨%f1, %hf1, H1⟩, ⟨%f2, %hf2, H2⟩, ⟨%f3, %hf3, H3⟩, ⟨%fs, %hfs, HS⟩, ⟨%d5, %f5, -, H5⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  sl_unfold_run_names
  isplitl [HS]
  · iexists _; isplitr
    swap; · iexact HS
    ipureintro
    exact View.read_writes_eq_canon _ _ _ (cover3_S _)
  iexists _; isplitr
  swap; · iexact H5
  ipureintro
  exact (View.read_writes_eq_canon _ _ _ (cover3_S _)).trans
    (by rw [View.readCov_cons_toLoadRect]; unfold out3_4 step3; rw [ld_canon_S]; rfl)

/-! ## The accumulator and the invariant at a point -/

theorem acc3_zero (c : Dev nD) (t : Fin cfg3.N) (h : t.val = 0) :
    acc3 V c t.val t.isLt = step3 (iblk3 V c 0 t) (iblk3 V c 1 t) (iblk3 V c 2 t) (iblk3 V c 3 t) zero3 := by
  obtain ⟨n, hn⟩ := t
  cases n with
  | zero => rfl
  | succ n => exact absurd h (Nat.succ_ne_zero n)

theorem acc3_pos (c : Dev nD) (t : Fin cfg3.N) (h : t.val ≠ 0) :
    acc3 V c t.val t.isLt = step3 (iblk3 V c 0 t) (iblk3 V c 1 t) (iblk3 V c 2 t) (iblk3 V c 3 t)
      (acc3 V c (t.val - 1) (Nat.lt_of_le_of_lt (Nat.sub_le _ _) t.isLt)) := by
  obtain ⟨n, hn⟩ := t
  cases n with
  | zero => exact absurd rfl h
  | succ n => rfl

theorem Phi3_zero (c : Dev nD) (n : ℕ) (h : n ≤ cfg3.N) (hz : n = 0) :
    Phi3 V c n h = iprop((∃ r, prngReg c r) ∗ Pipeline.scopedRest (Ix := Unit) (Name := ℕ) (U := UR sig nD τ) (Lvl := ℕ) spec3 c) := by
  subst hz; rfl

theorem Phi3_succ (c : Dev nD) (n : ℕ) (hn : n < cfg3.N) :
    Phi3 V c (n + 1) hn = iprop(owns (c : Thread nD τ) scM3 fullShare (acc3 V c n hn)
      ∗ Pipeline.scopedRestBut (Ix := Unit) (Name := ℕ) (U := UR sig nD τ) (Lvl := ℕ) spec3 c [cc3_scratch0] ∗ (∃ r, prngReg c r)) := rfl

theorem Phi3_pos (c : Dev nD) (n : ℕ) (h : n ≤ cfg3.N) (hz : n ≠ 0) :
    Phi3 V c n h = iprop(owns (c : Thread nD τ) scM3 fullShare (acc3 V c (n - 1) (by omega))
      ∗ Pipeline.scopedRestBut (Ix := Unit) (Name := ℕ) (U := UR sig nD τ) (Lvl := ℕ) spec3 c [cc3_scratch0] ∗ (∃ r, prngReg c r)) := by
  cases n with
  | zero => exact absurd rfl hz
  | succ n => rfl

/-- Before the first point: the accumulator at some contents, the other scoped buffers and the generator register. -/
theorem Phi3_zero_split (c : Dev nD) :
    (iprop((∃ r, prngReg c r) ∗ Pipeline.scopedRest (Ix := Unit) (Name := ℕ) (U := UR sig nD τ) (Lvl := ℕ) spec3 c) : sProp 𝕄)
      = iprop((∃ r, prngReg c r) ∗ iprop((∃ d, owns (c : Thread nD τ) scM3 fullShare d))
          ∗ Pipeline.scopedRestBut (Ix := Unit) (Name := ℕ) (U := UR sig nD τ) (Lvl := ℕ) spec3 c [cc3_scratch0]) := by
  rw [scopedRest3_split]; simp only [scM3, owns_whole]; rfl

/-! ## The pipeline's proof data -/
/-- The proof data of pipeline 3 on core `c`: the arrays as the region finds them; after the body at point `t` each
    input's buffer at its block and the output's at the copy of the accumulator after `t` (read at the last point
    only: elsewhere the window is idle); the invariant carries the accumulator; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (acc3 V c t.val t.isLt)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (acc3 V c t.val t.isLt) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Away from the last point the output window is idle and its block is not written back. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- At the last point it is live. -/
theorem liveAt3_4 : ∀ t : Fin cfg3.N, cond3_1 (grid3.coords t) → cfg3.idle 4 (grid3.coords t) = false := by decide +kernel

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

theorem leaves3_0 (c : Dev nD) (t : Fin cfg3.N) :
    (dat3 V c).leavesExact 0 t = owns (c : Thread nD τ) (st3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (st3_1 t) fullShare (iblk3 V c 1 t) := by
  unfold Dat.leavesExact; rw [liveAt3_1 t, after3_1]
theorem leaves3_2 (c : Dev nD) (t : Fin cfg3.N) :
    (dat3 V c).leavesExact 2 t = owns (c : Thread nD τ) (st3_2 t) fullShare (iblk3 V c 2 t) := by
  unfold Dat.leavesExact; rw [liveAt3_2 t, after3_2]
theorem leaves3_3 (c : Dev nD) (t : Fin cfg3.N) :
    (dat3 V c).leavesExact 3 t = owns (c : Thread nD τ) (st3_3 t) fullShare (iblk3 V c 3 t) := by
  unfold Dat.leavesExact; rw [liveAt3_3 t, after3_3]

set_option maxHeartbeats 2000000 in
/-- The body at any point: the inputs' memrefs hold their blocks; the closed forms say which case the point is in; the
    invariant hands the body the accumulator at what the point before left (at anything at the first point) and takes
    it back at this point's contents; the other scoped buffers, the generator register and the core's tallies pass
    through unread; away from the last point the output block's buffer is handed back as found. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = Phi3 V c (t.val + 1) t.isLt from rfl, Phi3_succ]
  rw [leaves3_0, leaves3_1, leaves3_2, leaves3_3, Phi3_castSucc]
  have hN : t.val < 25 := lt_of_lt_of_eq t.isLt (show cfg3.N = 25 from N_3)
  by_cases h0 : t.val = 0
  · have hc0 : cond3_0 (grid3.coords t) := (hcond3_0 t).mpr h0
    have hc1 : ¬cond3_1 (grid3.coords t) := fun h => by have := (hcond3_1 t).mp h; omega
    rw [Dat.leavesExact_idle (dat3 V c) 4 t (idleAt3_4 t hc1) (noFlush3_4 t hc1)]
    rw [Phi3_zero V c _ _ h0, Phi3_zero_split, acc3_zero V c t h0]
    iintro ⟨⟨Hg, ⟨%s0, HS⟩, HR⟩, Ho, ⟨%d0, H0⟩, ⟨%d1, H1⟩, ⟨%d2, H2⟩, ⟨%d3, H3⟩, ⟨%d4, H4⟩⟩
    iapply (run3_first c Set.univ (grid3.coords t) _ _ _ _ _ _ _ _ _ _ _ _ hc0 hc1 (iblk3 V c 0 t) (iblk3 V c 1 t) (iblk3 V c 2 t) (iblk3 V c 3 t) _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    iexists _; iexact H4
  · have hc0 : ¬cond3_0 (grid3.coords t) := fun h => h0 ((hcond3_0 t).mp h)
    rw [Phi3_pos V c _ _ h0, acc3_pos V c t h0]
    by_cases h1 : t.val = 24
    · have hc1 : cond3_1 (grid3.coords t) := (hcond3_1 t).mpr h1
      rw [show (dat3 V c).leavesExact 4 t = owns (c : Thread nD τ) (st3_4 t) fullShare ((dat3 V c).after 4 t) from by
        unfold Dat.leavesExact; rw [liveAt3_4 t hc1], after3_4, acc3_pos V c t h0]
      iintro ⟨⟨HS, HR, Hg⟩, Ho, ⟨%d0, H0⟩, ⟨%d1, H1⟩, ⟨%d2, H2⟩, ⟨%d3, H3⟩, ⟨%d4, H4⟩⟩
      iapply (run3_last c Set.univ (grid3.coords t) _ _ _ _ _ _ _ _ _ _ _ _ hc0 hc1 (iblk3 V c 0 t) (iblk3 V c 1 t) (iblk3 V c 2 t) (iblk3 V c 3 t) _ _)
      isplitl [H0]; · iexact H0
      isplitl [H1]; · iexact H1
      isplitl [H2]; · iexact H2
      isplitl [H3]; · iexact H3
      isplitl [HS]; · iexact HS
      isplitl [H4]; · iexists _; iexact H4
      iintro ⟨H0, H1, H2, H3, HS, H4⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc1 : ¬cond3_1 (grid3.coords t) := fun h => h1 ((hcond3_1 t).mp h)
      rw [Dat.leavesExact_idle (dat3 V c) 4 t (idleAt3_4 t hc1) (noFlush3_4 t hc1)]
      iintro ⟨⟨HS, HR, Hg⟩, Ho, ⟨%d0, H0⟩, ⟨%d1, H1⟩, ⟨%d2, H2⟩, ⟨%d3, H3⟩, ⟨%d4, H4⟩⟩
      iapply (run3_mid c Set.univ (grid3.coords t) _ _ _ _ _ _ _ _ _ _ _ _ hc0 hc1 (iblk3 V c 0 t) (iblk3 V c 1 t) (iblk3 V c 2 t) (iblk3 V c 3 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant's entry and exit -/

/-- What the launch hands the region is the invariant before the first point. -/
theorem hin3 (c : Dev nD) : iprop((∃ r, prngReg c r) ∗ Pipeline.scopedRest (Ix := Unit) (Name := ℕ) (U := UR sig nD τ) (Lvl := ℕ) spec3 c) ⊢ (dat3 V c).Φ 0 := by
  rw [show (dat3 V c).Φ 0 = Phi3 V c 0 (Nat.zero_le _) from rfl, Phi3_zero V c 0 _ rfl]
  try exact Idealize.SL.BI.Entails.refl _

/-- After the last point the invariant gives the scoped buffers back: the accumulator's contents are forgotten. -/
theorem hout3 (c : Dev nD) : (dat3 V c).Φ (Fin.last cfg3.N) ⊢ iprop((∃ r, prngReg c r) ∗ Pipeline.scopedRest (Ix := Unit) (Name := ℕ) (U := UR sig nD τ) (Lvl := ℕ) spec3 c) := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 25 := N_3; omega), Phi3_zero_split]
  iintro ⟨HS, HR, Hg⟩
  isplitl [Hg]; · iexact Hg
  isplitl [HS]; · iexists _; iexact HS
  iexact HR

end Cert.KernelIdeal.Hand

end
-- ==== Proof.KI.R4.lean ====
/- Region 4 of @main (the MLP head, one grid point, eight windows each the whole of its array), at the contents `V`
   the region finds in the TensorCore's buffers: every window's block at the point, what the body leaves in the output
   window's buffer (its one store, of the payload of the seven loaded operands), the body's triple, the proof data of
   the pipeline and the body obligation of the launch theorem. Generic in the float instance. -/
import proofs.«417676_j6554120093878_3_alg».proof.Proof.Gen.KernelIdeal.Launch
import proofs.«417676_j6554120093878_3_alg».proof.Proof.Gen.KernelIdeal.Skeleton
import proofs.«417676_j6554120093878_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses: every load and the one store take the whole staging buffer -/

abbrev r4_hg : Rect S256x128 := Rect.unit (s := S256x128) ![0, 0] S256x128.size inb_S256x128_S256x128_0_0
abbrev r4_w1 : Rect S128x256 := Rect.unit (s := S128x256) ![0, 0] S128x256.size inb_S128x256_S128x256_0_0
abbrev r4_b : Rect S256 := Rect.unit (s := S256) ![0] S256.size inb_S256_S256_0
abbrev r4_w2 : Rect S256x256 := Rect.unit (s := S256x256) ![0, 0] S256x256.size inb_S256x256_S256x256_0_0
abbrev r4_w3 : Rect S256x8 := Rect.unit (s := S256x8) ![0, 0] S256x8.size inb_S256x8_S256x8_0_0
abbrev r4_b3 : Rect S8 := Rect.unit (s := S8) ![0] S8.size inb_S8_S8_0

/-! ## What the body leaves in the output window's buffer -/

/-- Window 7's staging buffer after the body, from the seven input blocks: the single store of the payload. -/
def out4_7 (x0 : Vec F S256x128 .f32) (x1 : Vec F S128x256 .f32) (x2 : Vec F S256 .f32) (x3 : Vec F S256x256 .f32)
    (x4 : Vec F S256 .f32) (x5 : Vec F S256x8 .f32) (x6 : Vec F S8 .f32) : Vec F S256x8 .f32 :=
  View.canon [⟨r4_w3, k4_pay1 (View.ld x0 r4_hg) (View.ld x1 r4_w1) (View.ld x2 r4_b) (View.ld x3 r4_w2) (View.ld x4 r4_b)
    (View.ld x5 r4_w3) (View.ld x6 r4_b3)⟩]

/-- The store's rectangle is the whole buffer, so it covers it. -/
theorem cover4_7 (p0 : Vec F S256x8 .f32) (y : S256x8.Idx) :
    ∃ pc ∈ ([⟨r4_w3, p0⟩] : List (View.Piece (Elt F) S256x8 .f32)), y ∈ pc.1.set :=
  View.cover_of_tiled [⟨r4_w3, p0⟩] S256x8.size (by rfl) y

/-! ## The body's triple -/

set_option maxHeartbeats 4000000 in
/-- The kernel body on whole staging memrefs, the inputs' at contents `xW` and the output's at anything, runs to the
    continuation holding the inputs' as they were and the output's at `out4_7` of the inputs'. -/
theorem sound_kernel4 (c : Dev nD) (E : Set ℕ) (i : grid4.Coords)
    (arg0 : Memref sig .tc .vmem S256x128 .f32) (harg0 : arg0.IsWhole) (arg1 : Memref sig .tc .vmem S128x256 .f32) (harg1 : arg1.IsWhole)
    (arg2 : Memref sig .tc .vmem S256 .f32) (harg2 : arg2.IsWhole) (arg3 : Memref sig .tc .vmem S256x256 .f32) (harg3 : arg3.IsWhole)
    (arg4 : Memref sig .tc .vmem S256 .f32) (harg4 : arg4.IsWhole) (arg5 : Memref sig .tc .vmem S256x8 .f32) (harg5 : arg5.IsWhole)
    (arg6 : Memref sig .tc .vmem S8 .f32) (harg6 : arg6.IsWhole) (arg7 : Memref sig .tc .vmem S256x8 .f32) (harg7 : arg7.IsWhole)
    (x0 : Vec F S256x128 .f32) (x1 : Vec F S128x256 .f32) (x2 : Vec F S256 .f32) (x3 : Vec F S256x256 .f32)
    (x4 : Vec F S256 .f32) (x5 : Vec F S256x8 .f32) (x6 : Vec F S8 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare (out4_7 x0 x1 x2 x3 x4 x5 x6)) -∗ K ⟨⟩))
      ⊢ wp frame (wpE (defs₀ (F := F)) Variants.none c none) E
          (cc4__mlp_kernel i arg0 harg0 arg1 harg1 arg2 harg2 arg3 harg3 arg4 harg4 arg5 harg5 arg6 harg6 arg7 harg7) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover4_7 _)

/-! ## The pipeline's proof data -/

/-- The proof data of pipeline 4 on core `c`: the arrays as the region finds them; after the body each input's buffer at
    its block and the output's at `out4_7` of the input blocks; the invariant the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t =
    out4_7 (iblk4 V c 0 t) (iblk4 V c 1 t) (iblk4 V c 2 t) (iblk4 V c 3 t) (iblk4 V c 4 t) (iblk4 V c 5 t) (iblk4 V c 6 t) := by
  dsimp only [dat4]

/-- Each input's current staging buffer holds its block at the point, fetched there or not: the window is fetched at
    every point, uncut, never idle, and the body leaves the block in place. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)
theorem before4_6 (c : Dev nD) (t : Fin cfg4.N) (d) : (dat4 V c).before 6 t d = iblk4 V c 6 t :=
  ((dat4 V c).before_in_eq_fetched 6 rfl (fun _ => rfl) (fun _ _ _ => rfl) (fun t => by rw [after4_6]; unfold Dat.blockOf iblk4; rw [A_eq4]; try rfl) t d).trans
    (by unfold Dat.fetched Dat.blockOf iblk4; rw [A_eq4]; try rfl)

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

/-- The body at the point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel4 c Set.univ _ _ _ _ _ _ _ _ _ _ _ _ _ _ _ _ _ (iblk4 V c 0 t) (iblk4 V c 1 t) (iblk4 V c 2 t) (iblk4 V c 3 t)
    (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
import proofs.«417676_j6554120093878_3_alg».proof.Proof.Gen.KernelIdeal.Launch
import proofs.«417676_j6554120093878_3_alg».proof.Proof.Gen.KernelIdeal.Skeleton
import proofs.«417676_j6554120093878_3_alg».proof.Proof.Gen.KernelIdeal.Points
import proofs.«417676_j6554120093878_3_alg».proof.Proof.Gen.KernelIdeal.Regions
import proofs.«417676_j6554120093878_3_alg».proof.Proof.KI.R0
import proofs.«417676_j6554120093878_3_alg».proof.Proof.KI.R1
import proofs.«417676_j6554120093878_3_alg».proof.Proof.KI.R2
import proofs.«417676_j6554120093878_3_alg».proof.Proof.KI.R3
import proofs.«417676_j6554120093878_3_alg».proof.Proof.KI.R4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The run of @main, at any float instance

@main is seven stretches of host operations around five kernel regions. This module follows the contents of every
unscoped buffer through the twelve items (the fold W0 … W12), states what each item leaves unchanged, runs the items as
segments from the launch to the return, and reads the final memory against the last contents: the result array at
what region 4's write-backs leave, every argument array as launched. -/

variable (m : (ℓ : Loc nD τ sig) → Buf (Elt F) ℓ)

/-! # The buffer contents at each boundary of @main: a fold from the launch memory

@main is twelve items: seven stretches of host operations and five kernel regions. Between two items core c holds
every unscoped buffer at the contents W j m c. A host stretch takes the contents to StableHlo.after of its operations; a
region leaves each of its arrays at what its write-backs fold to (Dat.arrAt … N) and every other buffer as it found it. -/

/-- Core c's buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the third host stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit. -/
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b
/-- After the fourth host stretch (region 3's entry). -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- At region 3's exit. -/
def W8 (c : Dev nD) : Valuation τ sig (Elt F) :=
  Pipeline.withArrays spec3 c (W7 m c) fun w => (dat3 (V7 m) c).arrAt w cfg3.N
abbrev V8 : (c : Dev nD) → (b : Ref sig .tc) → Buf (Elt F) ((c : Thread nD τ).loc b) := fun c b => W8 m c b
/-- After the three host stretches between regions 3 and 4 (region 4's entry is W11). -/
abbrev W9 : Dev nD → Valuation τ sig (Elt F) := fun c => StableHlo.after hostOps4 (W8 m c)
abbrev W10 : Dev nD → Valuation τ sig (Elt F) := fun c => StableHlo.after hostOps4_1 (W9 m c)
abbrev W11 : Dev nD → Valuation τ sig (Elt F) := fun c => StableHlo.after hostOps4_2 (W10 m c)
abbrev V11 : (c : Dev nD) → (b : Ref sig .tc) → Buf (Elt F) ((c : Thread nD τ).loc b) := fun c b => W11 m c b
/-- At region 4's exit: the contents @main returns with. -/
def W12 (c : Dev nD) : Valuation τ sig (Elt F) :=
  Pipeline.withArrays spec4 c (W11 m c) fun w => (dat4 (V11 m) c).arrAt w cfg4.N
abbrev V12 : (c : Dev nD) → (b : Ref sig .tc) → Buf (Elt F) ((c : Thread nD τ).loc b) := fun c b => W12 m c b

/-! ## A region's exit contents, array by array and elsewhere -/

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

theorem W12_arr (c : Dev nD) (w : Fin cfg4.W) :
    W12 m c (Proc.devRef .tc (Pipeline.arrRef spec4 w)) = (dat4 (V11 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
theorem hF4 (c : Dev nD) (w : Fin cfg4.W) : (dat4 (V11 m) c).arrAt w cfg4.N = V12 m c (Pipeline.arrRef spec4 w) :=
  (W12_arr m c w).symm
theorem hrest4 (c : Dev nD) : ∀ b, b ∉ Finset.univ.image (Pipeline.arrRef spec4) → V12 m c b = V11 m c b :=
  fun b hb => W12_of_ne m c b fun w e => hb (Finset.mem_image.mpr ⟨w, Finset.mem_univ _, e⟩)

/-- An input window's array leaves a region as it entered it: nothing is written back to it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))
theorem W6_in (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hw _).trans (A_eq2 (V5 m) c w))
theorem W8_in (c : Dev nD) (w : Fin cfg3.W) (hw : (cfg3.win w).isOut = false) :
    W8 m c (Proc.devRef .tc (Pipeline.arrRef spec3 w)) = W7 m c (Proc.devRef .tc (Pipeline.arrRef spec3 w)) :=
  (W8_arr m c w).trans (((dat3 (V7 m) c).arrAt_in w hw _).trans (A_eq3 (V7 m) c w))
theorem W12_in (c : Dev nD) (w : Fin cfg4.W) (hw : (cfg4.win w).isOut = false) :
    W12 m c (Proc.devRef .tc (Pipeline.arrRef spec4 w)) = W11 m c (Proc.devRef .tc (Pipeline.arrRef spec4 w)) :=
  (W12_arr m c w).trans (((dat4 (V11 m) c).arrAt_in w hw _).trans (A_eq4 (V11 m) c w))

/-! ## What each item leaves unchanged

A host stretch changes only the references its operations write (the lists hostOpsJ_W); a region changes only its
output window's array: an input window's array is read, never written back, and a buffer that is no array of the
region is bypassed. -/

theorem W0_eq (c : Dev nD) (r : Ref sig .tc) : W0 m c (Proc.devRef .tc r) = m ((c.tc : Thread nD τ).loc r) := rfl

theorem W1_keep (c : Dev nD) (r : Ref sig .tc) (h : r ∉ hostOps0_W) :
    W1 m c (Proc.devRef .tc r) = W0 m c (Proc.devRef .tc r) :=
  StableHlo.after_of_writes_sub hostOps0 _ hostOps0_writes h

theorem W2_keep (c : Dev nD) (r : Ref sig .tc) (h : r ≠ main_v14) :
    W2 m c (Proc.devRef .tc r) = W1 m c (Proc.devRef .tc r) := by
  by_cases h0 : r = main_arg0
  · subst h0; exact W2_in m c 0 rfl
  by_cases h1 : r = main_arg4
  · subst h1; exact W2_in m c 1 rfl
  by_cases h2 : r = main_v13
  · subst h2; exact W2_in m c 2 rfl
  exact W2_of_ne m c r fun w => match w with
    | ⟨0, _⟩ => fun e => h0 e.symm
    | ⟨1, _⟩ => fun e => h1 e.symm
    | ⟨2, _⟩ => fun e => h2 e.symm
    | ⟨3, _⟩ => fun e => h e.symm

theorem W3_keep (c : Dev nD) (r : Ref sig .tc) (h : r ∉ hostOps1_W) :
    W3 m c (Proc.devRef .tc r) = W2 m c (Proc.devRef .tc r) :=
  StableHlo.after_of_writes_sub hostOps1 _ hostOps1_writes h

theorem W4_keep (c : Dev nD) (r : Ref sig .tc) (h : r ≠ main_v28) :
    W4 m c (Proc.devRef .tc r) = W3 m c (Proc.devRef .tc r) := by
  by_cases h0 : r = main_v25
  · subst h0; exact W4_in m c 0 rfl
  by_cases h1 : r = main_v26
  · subst h1; exact W4_in m c 1 rfl
  by_cases h2 : r = main_arg5
  · subst h2; exact W4_in m c 2 rfl
  by_cases h3 : r = main_arg6
  · subst h3; exact W4_in m c 3 rfl
  by_cases h4 : r = main_v27
  · subst h4; exact W4_in m c 4 rfl
  exact W4_of_ne m c r fun w => match w with
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => h e.symm

theorem W5_keep (c : Dev nD) (r : Ref sig .tc) (h : r ∉ hostOps2_W) :
    W5 m c (Proc.devRef .tc r) = W4 m c (Proc.devRef .tc r) :=
  StableHlo.after_of_writes_sub hostOps2 _ hostOps2_writes h

theorem W6_keep (c : Dev nD) (r : Ref sig .tc) (h : r ≠ main_v42) :
    W6 m c (Proc.devRef .tc r) = W5 m c (Proc.devRef .tc r) := by
  by_cases h0 : r = main_v39
  · subst h0; exact W6_in m c 0 rfl
  by_cases h1 : r = main_v40
  · subst h1; exact W6_in m c 1 rfl
  by_cases h2 : r = main_arg7
  · subst h2; exact W6_in m c 2 rfl
  by_cases h3 : r = main_arg8
  · subst h3; exact W6_in m c 3 rfl
  by_cases h4 : r = main_v41
  · subst h4; exact W6_in m c 4 rfl
  exact W6_of_ne m c r fun w => match w with
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => h e.symm

theorem W7_keep (c : Dev nD) (r : Ref sig .tc) (h : r ∉ hostOps3_W) :
    W7 m c (Proc.devRef .tc r) = W6 m c (Proc.devRef .tc r) :=
  StableHlo.after_of_writes_sub hostOps3 _ hostOps3_writes h

theorem W8_keep (c : Dev nD) (r : Ref sig .tc) (h : r ≠ main_v56) :
    W8 m c (Proc.devRef .tc r) = W7 m c (Proc.devRef .tc r) := by
  by_cases h0 : r = main_v53
  · subst h0; exact W8_in m c 0 rfl
  by_cases h1 : r = main_v55
  · subst h1; exact W8_in m c 1 rfl
  by_cases h2 : r = main_arg9
  · subst h2; exact W8_in m c 2 rfl
  by_cases h3 : r = main_v54
  · subst h3; exact W8_in m c 3 rfl
  exact W8_of_ne m c r fun w => match w with
    | ⟨0, _⟩ => fun e => h0 e.symm
    | ⟨1, _⟩ => fun e => h1 e.symm
    | ⟨2, _⟩ => fun e => h2 e.symm
    | ⟨3, _⟩ => fun e => h3 e.symm
    | ⟨4, _⟩ => fun e => h e.symm

theorem W9_keep (c : Dev nD) (r : Ref sig .tc) (h : r ∉ hostOps4_W) :
    W9 m c (Proc.devRef .tc r) = W8 m c (Proc.devRef .tc r) :=
  StableHlo.after_of_writes_sub hostOps4 _ hostOps4_writes h

theorem W10_keep (c : Dev nD) (r : Ref sig .tc) (h : r ∉ hostOps4_1_W) :
    W10 m c (Proc.devRef .tc r) = W9 m c (Proc.devRef .tc r) :=
  StableHlo.after_of_writes_sub hostOps4_1 _ hostOps4_1_writes h

theorem W11_keep (c : Dev nD) (r : Ref sig .tc) (h : r ∉ hostOps4_2_W) :
    W11 m c (Proc.devRef .tc r) = W10 m c (Proc.devRef .tc r) :=
  StableHlo.after_of_writes_sub hostOps4_2 _ hostOps4_2_writes h

theorem W12_keep (c : Dev nD) (r : Ref sig .tc) (h : r ≠ main_v73) :
    W12 m c (Proc.devRef .tc r) = W11 m c (Proc.devRef .tc r) := by
  by_cases h0 : r = main_v72
  · subst h0; exact W12_in m c 0 rfl
  by_cases h1 : r = main_arg10
  · subst h1; exact W12_in m c 1 rfl
  by_cases h2 : r = main_arg11
  · subst h2; exact W12_in m c 2 rfl
  by_cases h3 : r = main_arg12
  · subst h3; exact W12_in m c 3 rfl
  by_cases h4 : r = main_arg13
  · subst h4; exact W12_in m c 4 rfl
  by_cases h5 : r = main_arg14
  · subst h5; exact W12_in m c 5 rfl
  by_cases h6 : r = main_arg15
  · subst h6; exact W12_in m c 6 rfl
  exact W12_of_ne m c r fun w => match w with
    | ⟨0, _⟩ => fun e => h0 e.symm
    | ⟨1, _⟩ => fun e => h1 e.symm
    | ⟨2, _⟩ => fun e => h2 e.symm
    | ⟨3, _⟩ => fun e => h3 e.symm
    | ⟨4, _⟩ => fun e => h4 e.symm
    | ⟨5, _⟩ => fun e => h5 e.symm
    | ⟨6, _⟩ => fun e => h6 e.symm
    | ⟨7, _⟩ => fun e => h e.symm

/-! ## Each region's output array, read off the fold -/

theorem W2_out (c : Dev nD) : W2 m c (Proc.devRef .tc main_v14) = (dat0 (V1 m) c).arrAt 3 cfg0.N := W2_arr m c 3
theorem W4_out (c : Dev nD) : W4 m c (Proc.devRef .tc main_v28) = (dat1 (V3 m) c).arrAt 5 cfg1.N := W4_arr m c 5
theorem W6_out (c : Dev nD) : W6 m c (Proc.devRef .tc main_v42) = (dat2 (V5 m) c).arrAt 5 cfg2.N := W6_arr m c 5
theorem W8_out (c : Dev nD) : W8 m c (Proc.devRef .tc main_v56) = (dat3 (V7 m) c).arrAt 4 cfg3.N := W8_arr m c 4
theorem W12_out (c : Dev nD) : W12 m c (Proc.devRef .tc main_v73) = (dat4 (V11 m) c).arrAt 7 cfg4.N := W12_arr m c 7

/-! ## The arguments end as launched

No host operation writes an argument and no region's output window is one, so the fold at an argument's buffer walks
back to the launch memory. -/

/-- A reference that no stretch writes and that is no region's output array holds at the end what the launch memory held. -/
theorem W12_of (c : Dev nD) (r : Ref sig .tc)
    (h1 : r ∉ hostOps0_W) (h2 : r ≠ main_v14) (h3 : r ∉ hostOps1_W) (h4 : r ≠ main_v28) (h5 : r ∉ hostOps2_W)
    (h6 : r ≠ main_v42) (h7 : r ∉ hostOps3_W) (h8 : r ≠ main_v56) (h9 : r ∉ hostOps4_W) (h10 : r ∉ hostOps4_1_W)
    (h11 : r ∉ hostOps4_2_W) (h12 : r ≠ main_v73) :
    W12 m c (Proc.devRef .tc r) = m ((c.tc : Thread nD τ).loc r) :=
  (W12_keep m c r h12).trans <| (W11_keep m c r h11).trans <| (W10_keep m c r h10).trans <| (W9_keep m c r h9).trans <|
    (W8_keep m c r h8).trans <| (W7_keep m c r h7).trans <| (W6_keep m c r h6).trans <| (W5_keep m c r h5).trans <|
    (W4_keep m c r h4).trans <| (W3_keep m c r h3).trans <| (W2_keep m c r h2).trans <| (W1_keep m c r h1).trans (W0_eq m c r)

theorem W12_main_arg0 (c : Dev nD) : W12 m c (Proc.devRef .tc main_arg0) = m ((c.tc : Thread nD τ).loc main_arg0) :=
  W12_of m c main_arg0 (by decide) (by decide) (by decide) (by decide) (by decide) (by decide) (by decide) (by decide) (by decide) (by decide) (by decide) (by decide)
theorem W12_main_arg1 (c : Dev nD) : W12 m c (Proc.devRef .tc main_arg1) = m ((c.tc : Thread nD τ).loc main_arg1) :=
  W12_of m c main_arg1 (by decide) (by decide) (by decide) (by decide) (by decide) (by decide) (by decide) (by decide) (by decide) (by decide) (by decide) (by decide)
theorem W12_main_arg2 (c : Dev nD) : W12 m c (Proc.devRef .tc main_arg2) = m ((c.tc : Thread nD τ).loc main_arg2) :=
  W12_of m c main_arg2 (by decide) (by decide) (by decide) (by decide) (by decide) (by decide) (by decide) (by decide) (by decide) (by decide) (by decide) (by decide)
theorem W12_main_arg3 (c : Dev nD) : W12 m c (Proc.devRef .tc main_arg3) = m ((c.tc : Thread nD τ).loc main_arg3) :=
  W12_of m c main_arg3 (by decide) (by decide) (by decide) (by decide) (by decide) (by decide) (by decide) (by decide) (by decide) (by decide) (by decide) (by decide)
theorem W12_main_arg4 (c : Dev nD) : W12 m c (Proc.devRef .tc main_arg4) = m ((c.tc : Thread nD τ).loc main_arg4) :=
  W12_of m c main_arg4 (by decide) (by decide) (by decide) (by decide) (by decide) (by decide) (by decide) (by decide) (by decide) (by decide) (by decide) (by decide)
theorem W12_main_arg5 (c : Dev nD) : W12 m c (Proc.devRef .tc main_arg5) = m ((c.tc : Thread nD τ).loc main_arg5) :=
  W12_of m c main_arg5 (by decide) (by decide) (by decide) (by decide) (by decide) (by decide) (by decide) (by decide) (by decide) (by decide) (by decide) (by decide)
theorem W12_main_arg6 (c : Dev nD) : W12 m c (Proc.devRef .tc main_arg6) = m ((c.tc : Thread nD τ).loc main_arg6) :=
  W12_of m c main_arg6 (by decide) (by decide) (by decide) (by decide) (by decide) (by decide) (by decide) (by decide) (by decide) (by decide) (by decide) (by decide)
theorem W12_main_arg7 (c : Dev nD) : W12 m c (Proc.devRef .tc main_arg7) = m ((c.tc : Thread nD τ).loc main_arg7) :=
  W12_of m c main_arg7 (by decide) (by decide) (by decide) (by decide) (by decide) (by decide) (by decide) (by decide) (by decide) (by decide) (by decide) (by decide)
theorem W12_main_arg8 (c : Dev nD) : W12 m c (Proc.devRef .tc main_arg8) = m ((c.tc : Thread nD τ).loc main_arg8) :=
  W12_of m c main_arg8 (by decide) (by decide) (by decide) (by decide) (by decide) (by decide) (by decide) (by decide) (by decide) (by decide) (by decide) (by decide)
theorem W12_main_arg9 (c : Dev nD) : W12 m c (Proc.devRef .tc main_arg9) = m ((c.tc : Thread nD τ).loc main_arg9) :=
  W12_of m c main_arg9 (by decide) (by decide) (by decide) (by decide) (by decide) (by decide) (by decide) (by decide) (by decide) (by decide) (by decide) (by decide)
theorem W12_main_arg10 (c : Dev nD) : W12 m c (Proc.devRef .tc main_arg10) = m ((c.tc : Thread nD τ).loc main_arg10) :=
  W12_of m c main_arg10 (by decide) (by decide) (by decide) (by decide) (by decide) (by decide) (by decide) (by decide) (by decide) (by decide) (by decide) (by decide)
theorem W12_main_arg11 (c : Dev nD) : W12 m c (Proc.devRef .tc main_arg11) = m ((c.tc : Thread nD τ).loc main_arg11) :=
  W12_of m c main_arg11 (by decide) (by decide) (by decide) (by decide) (by decide) (by decide) (by decide) (by decide) (by decide) (by decide) (by decide) (by decide)
theorem W12_main_arg12 (c : Dev nD) : W12 m c (Proc.devRef .tc main_arg12) = m ((c.tc : Thread nD τ).loc main_arg12) :=
  W12_of m c main_arg12 (by decide) (by decide) (by decide) (by decide) (by decide) (by decide) (by decide) (by decide) (by decide) (by decide) (by decide) (by decide)
theorem W12_main_arg13 (c : Dev nD) : W12 m c (Proc.devRef .tc main_arg13) = m ((c.tc : Thread nD τ).loc main_arg13) :=
  W12_of m c main_arg13 (by decide) (by decide) (by decide) (by decide) (by decide) (by decide) (by decide) (by decide) (by decide) (by decide) (by decide) (by decide)
theorem W12_main_arg14 (c : Dev nD) : W12 m c (Proc.devRef .tc main_arg14) = m ((c.tc : Thread nD τ).loc main_arg14) :=
  W12_of m c main_arg14 (by decide) (by decide) (by decide) (by decide) (by decide) (by decide) (by decide) (by decide) (by decide) (by decide) (by decide) (by decide)
theorem W12_main_arg15 (c : Dev nD) : W12 m c (Proc.devRef .tc main_arg15) = m ((c.tc : Thread nD τ).loc main_arg15) :=
  W12_of m c main_arg15 (by decide) (by decide) (by decide) (by decide) (by decide) (by decide) (by decide) (by decide) (by decide) (by decide) (by decide) (by decide)

/-! # The proof data family and the thread state -/

/-- Every pipeline's proof data, each at its region's entry contents: a literal match, so that the pinned configuration
    at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents W, R riding along: it is left with those
    references at StableHlo.after of its operations, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W12 m c) ∗ ∃ r, prngReg c r)

/-! # The regions as segments

Each region is entered from every unscoped buffer at its entry contents beside R, and left with them at its exit
contents. Its arrays are split out of the unscoped buffers and put back at what the write-backs leave; the generator
register goes into the pipeline's invariant and comes back; nothing is owed; the kernel has no semaphore of its own. -/

set_option backward.isDefEq.respectTransparency.types false in
/-- Region 0: entered from W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from W3, left at W4. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from W5, left at W6. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from W7, left at W8. Its invariant carries the kernel's scratch buffer across the grid points: it
    is made at the first point from the generator register and the scoped buffers no window stages, and gives them back
    at the last. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m) c)
    iintro ⟨Hp, -, Hr⟩
    isplitl [Hp]; · iexact Hp
    iexact Hr
  hout c := by
    rw [Pipeline.ownSems0_none]
    refine (hout3 (V7 m) c).trans ?_
    iintro ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from W11, left at W12, the contents @main returns with: its exit state is the last thread state
    beside the core owing nothing. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m) c).loose
  hwaits := Pipeline.hwaits_of_owed_zero _ _ _ _ L lv 4 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V11 m c) (V12 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's twelve items in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .host (hseg hostOps4_1 hostOps4_1_sub hostOps4_1_fresh (W9 m)),
    .host (hseg hostOps4_2 hostOps4_2_sub hostOps4_2_fresh (W10 m)),
    .region (reg4 m) ]

/-- @main is the run of the segments: it is the chain of its items, and the segments' run is the chain of their
    fragments, item by item the same. -/
theorem main_run (c : Dev nD) : main (F := F) c = Pipeline.Seg.run (segs m) := by
  rw [main_chain c, Pipeline.Seg.run_eq_chain]
  rfl

set_option backward.isDefEq.respectTransparency.types false in
/-- The run of @main with its result: at the compiled mesh, from any memory with zero counters, every weakly fair
    execution of @main on the TensorCores terminates, nothing faulting, and every final state has every unscoped buffer
    at the last boundary's contents W12. The launch over the segments; the last thread state read against the final state. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h => h)

/-- The frame: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c),
     (h c _ (mem_uc main_arg7 (by decide))).trans (W12_main_arg7 m c),
     (h c _ (mem_uc main_arg8 (by decide))).trans (W12_main_arg8 m c),
     (h c _ (mem_uc main_arg9 (by decide))).trans (W12_main_arg9 m c),
     (h c _ (mem_uc main_arg10 (by decide))).trans (W12_main_arg10 m c),
     (h c _ (mem_uc main_arg11 (by decide))).trans (W12_main_arg11 m c),
     (h c _ (mem_uc main_arg12 (by decide))).trans (W12_main_arg12 m c),
     (h c _ (mem_uc main_arg13 (by decide))).trans (W12_main_arg13 m c),
     (h c _ (mem_uc main_arg14 (by decide))).trans (W12_main_arg14 m c),
     (h c _ (mem_uc main_arg15 (by decide))).trans (W12_main_arg15 m c)⟩) (run_all m ρ)

/-- The run with the result named: the result array ends at the last boundary's contents, each argument as launched. -/
theorem run_val (ρ : Dev nD → PrngReg) : θ_run defs (onTc (τ := τ) (main (F := F))) ⟨m, fun _ => 0, ρ⟩ (fun r => ∀ c : Dev nD,
      r.2.mem ((c.tc : Thread nD τ).loc main_v73) = W12 m c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c _ (mem_uc main_v73 (by decide)),
     (h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c),
     (h c _ (mem_uc main_arg7 (by decide))).trans (W12_main_arg7 m c),
     (h c _ (mem_uc main_arg8 (by decide))).trans (W12_main_arg8 m c),
     (h c _ (mem_uc main_arg9 (by decide))).trans (W12_main_arg9 m c),
     (h c _ (mem_uc main_arg10 (by decide))).trans (W12_main_arg10 m c),
     (h c _ (mem_uc main_arg11 (by decide))).trans (W12_main_arg11 m c),
     (h c _ (mem_uc main_arg12 (by decide))).trans (W12_main_arg12 m c),
     (h c _ (mem_uc main_arg13 (by decide))).trans (W12_main_arg13 m c),
     (h c _ (mem_uc main_arg14 (by decide))).trans (W12_main_arg14 m c),
     (h c _ (mem_uc main_arg15 (by decide))).trans (W12_main_arg15 m c)⟩) (run_all m ρ)

end Cert.KernelIdeal.Hand

end
-- ==== Proof.KI.V0.lean ====
/- Region 0's value over the extended reals: the output array after the region, block by block and then whole, is the
   reference's stage "features times weights, each row scaled by its source-side norm". -/
import proofs.«417676_j6554120093878_3_alg».proof.Proof.KI.R0
import proofs.«417676_j6554120093878_3_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! ## The block product read at an index -/

theorem lhs_blk_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_blk_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_blk_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_blk_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product of a 4000-row block with the 128 by 128 weights into a zero accumulator, at row `p` and lane `q`:
    the sum over the shared axis. -/
theorem blk_matmul_apply (l : FVec Ideal S4000x128 .bf16) (r : FVec Ideal S128x128 .bf16) (p : Fin 4000) (q : Fin 128) :
    FloatOps.matmul dot_S4000x128_S128x128_S4000x128_1_0_0_1_n_n none l r (constant (F := Ideal) S4000x128 .f32 0x00000000#32) (ix2 p q)
      = ∑ k : Fin 128, l (ix2 p k) * r (ix2 k q) := by
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-- A column of 4000 entries spread along the 128 lanes, at row `p` and lane `q`: the column's entry of row `p`. -/
theorem col_bcast_apply {α : Type} (v : S4000x1.Idx → α) (h : S4000x1.Broadcasts S4000x128) (p : Fin 4000) (q : Fin 128) :
    broadcastTo S4000x128 v h (ix2 p q) = v (ix2 p (0 : Fin 1)) := by
  refine broadcastTo_apply v h (ix2 p q) (ix2 p (0 : Fin 1)) fun ax => ?_
  match ax with
  | ⟨0, _⟩ => show p.val = if (4000 : Nat) = 1 then 0 else p.val; rw [if_neg (by decide)]
  | ⟨1, _⟩ => show 0 = if (1 : Nat) = 1 then 0 else q.val; rw [if_pos rfl]

/-- The body's stored value at row `p` and lane `q` of the block, over the extended reals: the row of the feature block
    times the column of the weights, scaled by the row's entry of the scaling column. -/
theorem pay_apply (v0 : Vec Ideal S4000x128 .f32) (v2 : Vec Ideal S128x128 .f32) (v5 : Vec Ideal S4000x1 .f32) (p : Fin 4000) (q : Fin 128) :
    k0_pay1 (F := Ideal) v0 v2 v5 (ix2 p q) = (∑ k : Fin 128, v0 (ix2 p k) * v2 (ix2 k q)) * v5 (ix2 p (0 : Fin 1)) := by
  unfold k0_pay1
  rw [truncf_apply, mulf_apply]
  refine congrArg₂ (· * ·) ?_ ?_
  · exact blk_matmul_apply (truncf .bf16 v0 bitsLt_bf16_f32) (truncf .bf16 v2 bitsLt_bf16_f32) p q
  · rw [col_bcast_apply, shapeCast_self]

/-! ## The reference's stage read at an index -/

/-- The reference's stage at row `r` and lane `q`: the row of the features times the column of the weights, scaled by the
    row's entry of the norm column. -/
theorem ref_apply (x0 : S100000x128.Idx → EReal) (x1 : IVec S1600000 32) (x4 : S128x128.Idx → EReal) (r : Fin 100000) (q : Fin 128) :
    Cert.ReferenceIdeal.Read.val_main_v16 (F := Ideal) x0 x1 x4 (ix2 r q)
      = (∑ k : Fin 128, x0 (ix2 r k) * x4 (ix2 k q)) * Cert.ReferenceIdeal.Read.val_main_v14 (F := Ideal) x1 (ix2 r (0 : Fin 1)) := by
  have el : ∀ k : Fin 128, Cert.ReferenceIdeal.Read.lidx_main_v13 (ix2 r q) k = ix2 r k := fun k => funext fun a => Fin.ext (by
    match a with
    | ⟨0, _⟩ => rfl
    | ⟨1, _⟩ => rfl)
  have er : ∀ k : Fin 128, Cert.ReferenceIdeal.Read.ridx_main_v13 (ix2 r q) k = ix2 k q := fun k => funext fun a => Fin.ext (by
    match a with
    | ⟨0, _⟩ => rfl
    | ⟨1, _⟩ => rfl)
  have ec : Cert.ReferenceIdeal.Read.idx_main_v15 (ix2 r q) = ix2 r (0 : Fin 1) := funext fun a => Fin.ext (by
    match a with
    | ⟨0, _⟩ => rfl
    | ⟨1, _⟩ => rfl)
  rw [Cert.ReferenceIdeal.Read.val_main_v16_apply, Cert.ReferenceIdeal.Read.val_main_v13_apply, Cert.ReferenceIdeal.Read.val_main_v15_apply, ec]
  simp only [el, er]
  rfl

/-- A block's stored value is the reference's stage at the array index the block entry sits at (row `T * 4000` plus the
    block's row, same lane), whenever the three loaded blocks are the features' rows from `T * 4000` on, the weights, and
    the norm column's rows from `T * 4000` on. -/
theorem blk_val (x0 : S100000x128.Idx → EReal) (x1 : IVec S1600000 32) (x4 : S128x128.Idx → EReal)
    (b0 : Vec Ideal S4000x128 .f32) (b1 : Vec Ideal S128x128 .f32) (b2 : Vec Ideal S4000x1 .f32)
    (T : Nat) (y : S4000x128.Idx) (i : S100000x128.Idx)
    (hi0 : (i 0).val = T * 4000 + (y 0).val) (hi1 : (i 1).val = (y 1).val)
    (e0 : ∀ (z : S4000x128.Idx) (u : S100000x128.Idx), (u 0).val = T * 4000 + (z 0).val → (u 1).val = (z 1).val → b0 z = x0 u)
    (e1 : ∀ z : S128x128.Idx, b1 z = x4 z)
    (e2 : ∀ (z : S4000x1.Idx) (u : S100000x1.Idx), (u 0).val = T * 4000 + (z 0).val → b2 z = Cert.ReferenceIdeal.Read.val_main_v14 (F := Ideal) x1 u) :
    k0_pay1 (F := Ideal) b0 b1 b2 y = Cert.ReferenceIdeal.Read.val_main_v16 (F := Ideal) x0 x1 x4 i := by
  obtain ⟨p, q, rfl⟩ : ∃ (p : Fin 4000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hr : r.val = T * 4000 + p.val := hi0
  have hq : q = q' := (Fin.ext hi1).symm
  subst hq
  rw [pay_apply, ref_apply, e2 (ix2 p (0 : Fin 1)) (ix2 r (0 : Fin 1)) hr]
  have hs : (∑ k : Fin 128, b0 (ix2 p k) * b1 (ix2 k q)) = ∑ k : Fin 128, x0 (ix2 r k) * x4 (ix2 k q) :=
    Finset.sum_congr rfl fun k _ => by rw [e0 (ix2 p k) (ix2 r k) hr rfl, e1 (ix2 k q)]
  rw [hs]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the features', the norm column's and the output's block follow the
    point along the rows; the weights' block never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 25 :=
  (by decide +kernel : ∀ t : Fin grid0.N, _)

/-- The features' block at point `t` is rows `4000 t … 4000 t + 3999` of the features. -/
theorem iblk0_0_apply (c : Dev nD) (t : Fin cfg0.N) (x0 : S100000x128.Idx → EReal) (h0 : V c main_arg0 = x0)
    (z : S4000x128.Idx) (u : S100000x128.Idx) (hu0 : (u 0).val = t.val * 4000 + (z 0).val) (hu1 : (u 1).val = (z 1).val) :
    (iblk0 V c 0 t : Vec Ideal S4000x128 .f32) z = x0 u := by
  obtain ⟨a0, a1, -, -, -, -, -, -, -⟩ := idx_facts t
  unfold iblk0
  rw [View.read_apply]
  show V c main_arg0 _ = x0 u
  rw [h0]
  refine congrArg x0 (funext fun a => Fin.ext ?_)
  match a with
  | ⟨0, _⟩ => show win0_0.index t (0 : Fin 2) * 4000 + 1 * (z 0).val = (u 0).val; omega
  | ⟨1, _⟩ => show win0_0.index t (1 : Fin 2) * 128 + 1 * (z 1).val = (u 1).val; omega

/-- The weights' block at every point is the whole weight matrix. -/
theorem iblk0_1_apply (c : Dev nD) (t : Fin cfg0.N) (x4 : S128x128.Idx → EReal) (h4 : V c main_arg4 = x4) (z : S128x128.Idx) :
    (iblk0 V c 1 t : Vec Ideal S128x128 .f32) z = x4 z := by
  obtain ⟨-, -, a2, a3, -, -, -, -, -⟩ := idx_facts t
  unfold iblk0
  rw [View.read_apply]
  show V c main_arg4 _ = x4 z
  rw [h4]
  refine congrArg x4 (funext fun a => Fin.ext ?_)
  match a with
  | ⟨0, _⟩ => show win0_1.index t (0 : Fin 2) * 128 + 1 * (z 0).val = (z 0).val; omega
  | ⟨1, _⟩ => show win0_1.index t (1 : Fin 2) * 128 + 1 * (z 1).val = (z 1).val; omega

/-- The norm column's block at point `t` is its rows `4000 t … 4000 t + 3999`. -/
theorem iblk0_2_apply (c : Dev nD) (t : Fin cfg0.N) (ns : S100000x1.Idx → EReal) (h13 : V c main_v13 = ns)
    (z : S4000x1.Idx) (u : S100000x1.Idx) (hu0 : (u 0).val = t.val * 4000 + (z 0).val) :
    (iblk0 V c 2 t : Vec Ideal S4000x1 .f32) z = ns u := by
  obtain ⟨-, -, -, -, a4, a5, -, -, -⟩ := idx_facts t
  unfold iblk0
  rw [View.read_apply]
  show V c main_v13 _ = ns u
  rw [h13]
  refine congrArg ns (funext fun a => Fin.ext ?_)
  have hz1 : (z 1).val < 1 := (z 1).isLt
  have hu1 : (u 1).val < 1 := (u 1).isLt
  match a with
  | ⟨0, _⟩ => show win0_2.index t (0 : Fin 2) * 4000 + 1 * (z 0).val = (u 0).val; omega
  | ⟨1, _⟩ => show win0_2.index t (1 : Fin 2) * 1 + 1 * (z 1).val = (u 1).val; omega

/-- The output window is never cut at the array's end: what a write-back moves of a buffer's contents is all of it. -/
theorem cut0_apply {α : Type} (t : Fin cfg0.N) (X : S4000x128.Idx → α) (p : Fin 4000) (q : Fin 128) :
    (cfg0.win 3).cut (grid0.coords t) X (ix2 p q) = X (ix2 p q) := rfl

/-- Point `t`'s block of the output array, read at a block index, is the array at the index the block places it at. -/
theorem read0_apply (t : Fin cfg0.N) (G : (⟨S100000x128, .bf16⟩ : BufTy).Contents (Elt Ideal)) (j : S4000x128.Idx) :
    ((cfg0.win 3).blk t).view.read (Elt Ideal) G j = G (((cfg0.win 3).blk t).view.emb j) := rfl

/-- What point `t` writes back is block `t` of the reference's stage. -/
theorem flushed_eq (c : Dev nD) (t : Fin cfg0.N) (x0 : S100000x128.Idx → EReal) (x1 : IVec S1600000 32) (x4 : S128x128.Idx → EReal)
    (h0 : V c main_arg0 = x0) (h4 : V c main_arg4 = x4) (h13 : V c main_v13 = Cert.ReferenceIdeal.Read.val_main_v14 (F := Ideal) x1) :
    (dat0 (F := Ideal) V c).flushed 3 t = ((cfg0.win 3).blk t).view.read (Elt Ideal) (Cert.ReferenceIdeal.Read.val_main_v16 (F := Ideal) x0 x1 x4) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz, View.ld_unit_zero (S := S4000x1) hz]
  obtain ⟨-, -, -, -, -, -, a6, a7, ht⟩ := idx_facts t
  funext j
  obtain ⟨p, q, rfl⟩ : ∃ (p : Fin 4000) (q : Fin 128), j = ix2 p q := ⟨j 0, j 1, eq_ix2 j⟩
  refine (cut0_apply t _ p q).trans ?_
  refine Eq.trans ?_ (read0_apply t _ (ix2 p q)).symm
  refine blk_val x0 x1 x4 (iblk0 V c 0 t) (iblk0 V c 1 t) (iblk0 V c 2 t) t.val (ix2 p q) (((cfg0.win 3).blk t).view.emb (ix2 p q)) ?_ ?_
    (fun z u hu0 hu1 => iblk0_0_apply V c t x0 h0 z u hu0 hu1) (fun z => iblk0_1_apply V c t x4 h4 z)
    (fun z u hu0 => iblk0_2_apply V c t _ h13 z u hu0)
  · show win0_3.index t (0 : Fin 2) * 4000 + 1 * p.val = t.val * 4000 + p.val; omega
  · show win0_3.index t (1 : Fin 2) * 128 + 1 * q.val = q.val; omega

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v14).slice (win0_3.rect t)).set ↔ _
  rw [View.set_slice_whole, Rect.mem_set_unit]
  exact Iff.rfl

/-- The 25 blocks of 4000 rows fill the 100000 rows: row `r` is in the block of point `r / 4000`. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by rw [show cfg0.N = 25 from N_0]; omega⟩, rfl⟩
  obtain ⟨a0, a1, a2, a3, a4, a5, a6, a7, -⟩ := idx_facts t
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- The output array after the region is the reference's stage: the features times the weights, each row scaled by
    its entry of the norm column. -/
theorem stage0 (c : Dev nD) (x0 : S100000x128.Idx → EReal) (x1 : IVec S1600000 32) (x4 : S128x128.Idx → EReal)
    (h0 : V c main_arg0 = x0) (h4 : V c main_arg4 = x4) (h13 : V c main_v13 = Cert.ReferenceIdeal.Read.val_main_v14 (F := Ideal) x1) :
    (dat0 (F := Ideal) V c).arrAt 3 cfg0.N = Cert.ReferenceIdeal.Read.val_main_v16 (F := Ideal) x0 x1 x4 :=
  (dat0 (F := Ideal) V c).arrAt_eq_of_cover 3 (Cert.ReferenceIdeal.Read.val_main_v16 (F := Ideal) x0 x1 x4)
    (fun t _ => flushed_eq V c t x0 x1 x4 h0 h4 h13) cover

end Cert.KernelIdeal.HandV
-- ==== Proof.KI.V1.lean ====
import proofs.«417676_j6554120093878_3_alg».proof.Proof.KI.R1
import proofs.«417676_j6554120093878_3_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

/-! # Region 1 of @main, read as a value over the extended reals

The call leaves in its output array, at row `r` and column `q`,

  `(∑ k, max (agg r k · nd r + b k) 0 · W k q) · ns r`

where `agg`, `nd`, `b`, `W`, `ns` are what the region finds in its five input arrays. Point `t` of the 25 grid
points writes rows `4000 t … 4000 t + 3999`; the 25 row blocks tile the 100000 rows, so the whole array is that
function of the inputs. The reference computes the same expression by the same operations (a product with a
broadcast column, a sum with a broadcast row, a maximum with zero, a contraction over the 128 columns, a product with
a broadcast column), so no algebra is needed: only the index maps of the two sides are identified. Conversions between
float formats are the identity over the extended reals. -/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## Layout operations of the payload, read at an index -/

/-- A column `[a, 1]` broadcast along the second axis reads, at `(p, c)`, the column's entry at row `p`. -/
theorem bcast_col1_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The contraction's operand indices: at output index `(r, c)` and contraction index `k` they are `(r, k)` and `(k, c)` -/

theorem lhs1_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs1_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs1_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs1_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-! ## The body's payload at an index -/

/-- The stored block at row `p` and column `q`, from the five loaded blocks: the contraction over the 128 columns of
    the rectified, biased, scaled row `p` with column `q` of the weights, times the row's second scale. -/
theorem pay1_apply (a0 : FVec Ideal S4000x128 .f32) (a1 : FVec Ideal S4000x1 .f32) (a2 : FVec Ideal S128 .f32)
    (a3 : FVec Ideal S128x128 .f32) (a4 : FVec Ideal S4000x1 .f32) (p : Fin 4000) (q : Fin 128) :
    k1_pay1 (F := Ideal) a0 a1 a2 a3 a4 (ix2 p q)
      = (∑ k : Fin 128, max (a0 (ix2 p k) * a1 (ix2 p (0 : Fin 1)) + a2 (ix1 k)) 0 * a3 (ix2 k q)) * a4 (ix2 p (0 : Fin 1)) := by
  unfold k1_pay1
  refine congrArg₂ (HMul.hMul : EReal → EReal → EReal) ?_ ?_
  · refine (Ideal.matmul_constant_zero_apply dot_S4000x128_S128x128_S4000x128_1_0_0_1_n_n none _ _ (ix2 p q)).trans ?_
    rw [← Equiv.sum_comp (contrEquiv1 dot_S4000x128_S128x128_S4000x128_1_0_0_1_n_n 128 rfl rfl).symm]
    refine Finset.sum_congr rfl fun k _ => ?_
    have hk := contrEquiv1_symm_val dot_S4000x128_S128x128_S4000x128_1_0_0_1_n_n 128 rfl rfl k
    have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
      match a with
      | ⟨0, _⟩ => exact lhs1_0 _ _
      | ⟨1, _⟩ => exact (lhs1_1 _ _).trans hk)
    have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
      match a with
      | ⟨0, _⟩ => exact (rhs1_0 _ _).trans hk
      | ⟨1, _⟩ => exact rhs1_1 _ _)
    rw [el, er]
    refine congrArg₂ (HMul.hMul : EReal → EReal → EReal) ?_ rfl
    show max (shapeCast S4000x128 a0 shapeCasts_S4000x128_S4000x128 (ix2 p k)
          * broadcastTo S4000x128 (shapeCast S4000x1 a1 shapeCasts_S4000x1_S4000x1) broadcasts_S4000x1_S4000x128 (ix2 p k)
          + broadcastTo S4000x128 (shapeCast S1x128 a2 shapeCasts_S128_S1x128) broadcasts_S1x128_S4000x128 (ix2 p k))
        (Ideal.ofBits .f32 0x00000000#32) = _
    rw [shapeCast_self, shapeCast_self, bcast_col1_apply, broadcastTo_1b_ab_apply, shapeCast_a_1a_apply, Ideal.ofBits_zero_f32]
  · show broadcastTo S4000x128 (shapeCast S4000x1 a4 shapeCasts_S4000x1_S4000x1) broadcasts_S4000x1_S4000x128 (ix2 p q) = _
    rw [shapeCast_self, bcast_col1_apply]

/-! ## The reference's stage at an index -/

/-- The reference's result at row `r` and column `q`: the same expression, over the reference's stages for the
    aggregated features, the destination-degree scale and the source-degree scale. -/
theorem ref1_apply (x0 : (⟨S100000x128, .f32⟩ : BufTy).Contents (Elt Ideal)) (x1 x2 : (⟨S1600000, .i32⟩ : BufTy).Contents (Elt Ideal))
    (x4 : (⟨S128x128, .f32⟩ : BufTy).Contents (Elt Ideal)) (xb : (⟨S128, .f32⟩ : BufTy).Contents (Elt Ideal))
    (xw : (⟨S128x128, .f32⟩ : BufTy).Contents (Elt Ideal)) (r : Fin 100000) (q : Fin 128) :
    Cert.ReferenceIdeal.Read.val_main_v37 (F := Ideal) x0 x1 x2 x4 xb xw (ix2 r q)
      = (∑ k : Fin 128, max (Cert.ReferenceIdeal.Read.val_main_v26 (F := Ideal) x0 x1 x2 x4 (ix2 r k)
            * Cert.ReferenceIdeal.Read.val_main_v27 (F := Ideal) x2 (ix2 r (0 : Fin 1)) + xb (ix1 k)) 0 * xw (ix2 k q))
        * Cert.ReferenceIdeal.Read.val_main_v35 (F := Ideal) x1 (ix2 r (0 : Fin 1)) := by
  have eNs : Cert.ReferenceIdeal.Read.idx_main_v36 (ix2 r q) = ix2 r (0 : Fin 1) :=
    funext fun a => Fin.ext (by match a with | ⟨0, _⟩ => rfl | ⟨1, _⟩ => rfl)
  have el : ∀ k : Fin 128, Cert.ReferenceIdeal.Read.lidx_main_v34 (ix2 r q) k = ix2 r k := fun k =>
    funext fun a => Fin.ext (by match a with | ⟨0, _⟩ => rfl | ⟨1, _⟩ => rfl)
  have er : ∀ k : Fin 128, Cert.ReferenceIdeal.Read.ridx_main_v34 (ix2 r q) k = ix2 k q := fun k =>
    funext fun a => Fin.ext (by match a with | ⟨0, _⟩ => rfl | ⟨1, _⟩ => rfl)
  have eNd : ∀ k : Fin 128, Cert.ReferenceIdeal.Read.idx_main_v28 (ix2 r k) = ix2 r (0 : Fin 1) := fun k =>
    funext fun a => Fin.ext (by match a with | ⟨0, _⟩ => rfl | ⟨1, _⟩ => rfl)
  have eRow : ∀ k : Fin 128, Cert.ReferenceIdeal.Read.idx_main_v31 (ix2 r k) = ix2 (0 : Fin 1) k := fun k =>
    funext fun a => Fin.ext (by match a with | ⟨0, _⟩ => rfl | ⟨1, _⟩ => rfl)
  have eBias : ∀ k : Fin 128, Cert.ReferenceIdeal.Read.idx_main_v30 (ix2 (0 : Fin 1) k) = ix1 k := fun k =>
    funext fun a => Fin.ext (by match a with | ⟨0, _⟩ => rfl)
  rw [Cert.ReferenceIdeal.Read.val_main_v37_apply, Cert.ReferenceIdeal.Read.val_main_v34_apply,
    Cert.ReferenceIdeal.Read.val_main_v36_apply, eNs]
  refine congrArg₂ (HMul.hMul : EReal → EReal → EReal) (Finset.sum_congr rfl fun k _ => ?_) rfl
  rw [el, er]
  refine congrArg₂ (HMul.hMul : EReal → EReal → EReal) ?_ rfl
  rw [Cert.ReferenceIdeal.Read.val_main_v33_apply, Cert.ReferenceIdeal.Read.val_main_v32_apply,
    Cert.ReferenceIdeal.Read.val_main_v29_apply, Cert.ReferenceIdeal.Read.val_main_v28_apply,
    Cert.ReferenceIdeal.Read.val_main_v31_apply, Cert.ReferenceIdeal.Read.val_main_v30_apply,
    Cert.ReferenceIdeal.Read.val_main_call0_v0_apply, Cert.ReferenceIdeal.Read.val_main_call0_cst_apply,
    eNd, eRow, eBias]
  show max (_ * _ + _) (Ideal.ofBits .f32 0x00000000#32) = _
  rw [Ideal.ofBits_zero_f32]

/-! ## The printed index maps, decided over the grid -/

theorem hz1_2 : (![0, 0] : Fin 2 → Nat) = fun _ => 0 := funext fun a => by fin_cases a <;> rfl
theorem hz1_1 : (![0] : Fin 1 → Nat) = fun _ => 0 := funext fun a => by fin_cases a; rfl

/-- The row-blocked windows (the aggregated features, the two scale columns, the output) are at block `t` of the
    row axis at point `t`; the bias and the weights are at their one block at every point. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row `p` of point `t`'s block is row `4000 t + p` of the array. -/
def row1 (t : Fin cfg1.N) (p : Fin 4000) : Fin 100000 :=
  ⟨t.val * 4000 + p.val, by have := t.isLt; have := p.isLt; have : cfg1.N = 25 := N_1; omega⟩

/-! ## The windows' blocks, read where the output's rectangle says -/

section Blocks
variable (V : (c : Dev nD) → (b : Ref sig .tc) → Buf (Elt Ideal) ((c : Thread nD τ).loc b)) (c : Dev nD) (t : Fin cfg1.N)

theorem blk1_0 (p : Fin 4000) (k : Fin 128) : iblk1 V c 0 t (ix2 p k) = V c main_v25 (ix2 (row1 t p) k) := by
  obtain ⟨e00, e01, -⟩ := idx_facts1 t
  show V c main_v25 (((cfg1.win 0).blk t).view.emb (ix2 p k)) = V c main_v25 (ix2 (row1 t p) k)
  refine congrArg (V c main_v25) (funext fun a => Fin.ext ?_)
  match a with
  | ⟨0, _⟩ => show win1_0.index t (0 : Fin 2) * 4000 + 1 * p.val = t.val * 4000 + p.val; omega
  | ⟨1, _⟩ => show win1_0.index t (1 : Fin 2) * 128 + 1 * k.val = k.val; omega

theorem blk1_1 (p : Fin 4000) : iblk1 V c 1 t (ix2 p (0 : Fin 1)) = V c main_v26 (ix2 (row1 t p) (0 : Fin 1)) := by
  obtain ⟨-, -, e10, e11, -⟩ := idx_facts1 t
  show V c main_v26 (((cfg1.win 1).blk t).view.emb (ix2 p (0 : Fin 1))) = V c main_v26 (ix2 (row1 t p) (0 : Fin 1))
  refine congrArg (V c main_v26) (funext fun a => Fin.ext ?_)
  match a with
  | ⟨0, _⟩ => show win1_1.index t (0 : Fin 2) * 4000 + 1 * p.val = t.val * 4000 + p.val; omega
  | ⟨1, _⟩ => show win1_1.index t (1 : Fin 2) * 1 + 1 * 0 = 0; omega

theorem blk1_2 (k : Fin 128) : iblk1 V c 2 t (ix1 k) = V c main_arg5 (ix1 k) := by
  obtain ⟨-, -, -, -, e2, -⟩ := idx_facts1 t
  show V c main_arg5 (((cfg1.win 2).blk t).view.emb (ix1 k)) = V c main_arg5 (ix1 k)
  refine congrArg (V c main_arg5) (funext fun a => Fin.ext ?_)
  match a with
  | ⟨0, _⟩ => show win1_2.index t (0 : Fin 1) * 128 + 1 * k.val = k.val; omega

theorem blk1_3 (k q : Fin 128) : iblk1 V c 3 t (ix2 k q) = V c main_arg6 (ix2 k q) := by
  obtain ⟨-, -, -, -, -, eBias, eRow, -⟩ := idx_facts1 t
  show V c main_arg6 (((cfg1.win 3).blk t).view.emb (ix2 k q)) = V c main_arg6 (ix2 k q)
  refine congrArg (V c main_arg6) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

theorem blk1_4 (p : Fin 4000) : iblk1 V c 4 t (ix2 p (0 : Fin 1)) = V c main_v27 (ix2 (row1 t p) (0 : Fin 1)) := by
  obtain ⟨-, -, -, -, -, -, -, e40, e41, -⟩ := idx_facts1 t
  show V c main_v27 (((cfg1.win 4).blk t).view.emb (ix2 p (0 : Fin 1))) = V c main_v27 (ix2 (row1 t p) (0 : Fin 1))
  refine congrArg (V c main_v27) (funext fun a => Fin.ext ?_)
  match a with
  | ⟨0, _⟩ => show win1_4.index t (0 : Fin 2) * 4000 + 1 * p.val = t.val * 4000 + p.val; omega
  | ⟨1, _⟩ => show win1_4.index t (1 : Fin 2) * 1 + 1 * 0 = 0; omega

theorem emb1_5 (p : Fin 4000) (q : Fin 128) : ((cfg1.win 5).blk t).view.emb (ix2 p q) = ix2 (row1 t p) q := by
  obtain ⟨-, -, -, -, -, -, -, -, -, e50, e51⟩ := idx_facts1 t
  refine funext fun a => Fin.ext ?_
  match a with
  | ⟨0, _⟩ => show win1_5.index t (0 : Fin 2) * 4000 + 1 * p.val = t.val * 4000 + p.val; omega
  | ⟨1, _⟩ => show win1_5.index t (1 : Fin 2) * 128 + 1 * q.val = q.val; omega

end Blocks

/-! ## What each point writes back, the cover, and the whole array -/

section Stage
variable (V : (c : Dev nD) → (b : Ref sig .tc) → Buf (Elt Ideal) ((c : Thread nD τ).loc b)) (c : Dev nD)
  (x0 : (⟨S100000x128, .f32⟩ : BufTy).Contents (Elt Ideal)) (x1 x2 : (⟨S1600000, .i32⟩ : BufTy).Contents (Elt Ideal))
  (x4 : (⟨S128x128, .f32⟩ : BufTy).Contents (Elt Ideal)) (xb : (⟨S128, .f32⟩ : BufTy).Contents (Elt Ideal))
  (xw : (⟨S128x128, .f32⟩ : BufTy).Contents (Elt Ideal))

/-- Point `t`'s block of the output array, read at row `p` and column `q`, is the array at row `4000 t + p`. -/
theorem read1_apply (t : Fin cfg1.N) (G : (⟨S100000x128, .bf16⟩ : BufTy).Contents (Elt Ideal)) (p : Fin 4000) (q : Fin 128) :
    ((cfg1.win 5).blk t).view.read (Elt Ideal) G (ix2 p q) = G (ix2 (row1 t p) q) := by
  show G (((cfg1.win 5).blk t).view.emb (ix2 p q)) = _
  rw [emb1_5]

/-- The output window is never cut at the array's end: what a write-back moves of a buffer's contents is all of it. -/
theorem cut1_apply {α : Type} (t : Fin cfg1.N) (X : S4000x128.Idx → α) (p : Fin 4000) (q : Fin 128) :
    (cfg1.win 5).cut (grid1.coords t) X (ix2 p q) = X (ix2 p q) := rfl

/-- Point `t` writes back block `t` of the reference's result, when the region finds the reference's stages in its
    input arrays. -/
theorem flushed1_eq
    (h25 : V c main_v25 = Cert.ReferenceIdeal.Read.val_main_v26 (F := Ideal) x0 x1 x2 x4)
    (h26 : V c main_v26 = Cert.ReferenceIdeal.Read.val_main_v27 (F := Ideal) x2)
    (h5 : V c main_arg5 = xb) (h6 : V c main_arg6 = xw)
    (h27 : V c main_v27 = Cert.ReferenceIdeal.Read.val_main_v35 (F := Ideal) x1) (t : Fin cfg1.N) :
    (dat1 (F := Ideal) V c).flushed 5 t
      = ((cfg1.win 5).blk t).view.read (Elt Ideal) (Cert.ReferenceIdeal.Read.val_main_v37 (F := Ideal) x0 x1 x2 x4 xb xw) := by
  show (cfg1.win 5).cut (grid1.coords t) ((dat1 V c).after 5 t) = _
  rw [after1_5]
  unfold out1_5
  rw [View.canon_unit_zero hz1_2]
  simp only [View.ld_unit_zero (S := S4000x128) hz1_2, View.ld_unit_zero (S := S4000x1) hz1_2,
    View.ld_unit_zero (S := S128) hz1_1, View.ld_unit_zero (S := S128x128) hz1_2]
  funext j
  obtain ⟨p, q, rfl⟩ : ∃ (p : Fin 4000) (q : Fin 128), j = ix2 p q := ⟨j 0, j 1, eq_ix2 j⟩
  refine (cut1_apply t _ p q).trans ?_
  refine (pay1_apply _ _ _ _ _ p q).trans ?_
  refine Eq.trans ?_ (read1_apply t _ p q).symm
  rw [ref1_apply]
  simp only [blk1_0, blk1_1, blk1_2, blk1_3, blk1_4, h25, h26, h5, h6, h27]

/-- An index of the array is in point `t`'s block iff each coordinate is in the block's range on its axis. -/
theorem mem_blk1 (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v28).slice (win1_5.rect t)).set ↔ _
  rw [View.set_slice_whole, Rect.mem_set_unit]
  exact Iff.rfl

/-- Every index of the array is in the block of the point its row falls in: row `r` is written by point `r / 4000`. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by omega⟩, rfl⟩
  obtain ⟨-, -, -, -, -, -, -, -, -, e50, e51⟩ := idx_facts1 t
  refine ⟨t, flush1_5 t, ?_⟩
  rw [mem_blk1]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- THE OUTPUT ARRAY after the region is the reference's stage: the 25 row blocks cover the array, and each point
    writes its block of that stage. -/
theorem stage1
    (h25 : V c main_v25 = Cert.ReferenceIdeal.Read.val_main_v26 (F := Ideal) x0 x1 x2 x4)
    (h26 : V c main_v26 = Cert.ReferenceIdeal.Read.val_main_v27 (F := Ideal) x2)
    (h5 : V c main_arg5 = xb) (h6 : V c main_arg6 = xw)
    (h27 : V c main_v27 = Cert.ReferenceIdeal.Read.val_main_v35 (F := Ideal) x1) :
    (dat1 (F := Ideal) V c).arrAt 5 cfg1.N = Cert.ReferenceIdeal.Read.val_main_v37 (F := Ideal) x0 x1 x2 x4 xb xw :=
  (dat1 (F := Ideal) V c).arrAt_eq_of_cover 5 _ (fun t _ => flushed1_eq V c x0 x1 x2 x4 xb xw h25 h26 h5 h6 h27 t) cover1

end Stage

end Cert.KernelIdeal.HandV
-- ==== Proof.KI.V2.lean ====
import proofs.«417676_j6554120093878_3_alg».proof.Proof.KI.R2
import proofs.«417676_j6554120093878_3_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

/-! # Region 2 of @main, read as a value over the extended reals

The call leaves in its output array, at row `r` and column `q`,

  `(∑ k, max (agg r k · nd r + b k) 0 · W k q) · ns r`

where `agg`, `nd`, `b`, `W`, `ns` are what the region finds in its five input arrays. Point `t` of the 25 grid
points writes rows `4000 t … 4000 t + 3999`; the 25 row blocks tile the 100000 rows, so the whole array is that
function of the inputs. The reference computes the same expression by the same operations (a product with a
broadcast column, a sum with a broadcast row, a maximum with zero, a contraction over the 128 columns, a product with
a broadcast column), so no algebra is needed: only the index maps of the two sides are identified. Conversions between
float formats are the identity over the extended reals. -/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## Layout operations of the payload, read at an index -/

/-- A column `[a, 1]` broadcast along the second axis reads, at `(p, c)`, the column's entry at row `p`. -/
theorem bcast_col2_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The contraction's operand indices: at output index `(r, c)` and contraction index `k` they are `(r, k)` and `(k, c)` -/

theorem lhs2_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs2_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs2_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs2_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-! ## The body's payload at an index -/

/-- The stored block at row `p` and column `q`, from the five loaded blocks: the contraction over the 128 columns of
    the rectified, biased, scaled row `p` with column `q` of the weights, times the row's second scale. -/
theorem pay2_apply (a0 : FVec Ideal S4000x128 .f32) (a1 : FVec Ideal S4000x1 .f32) (a2 : FVec Ideal S128 .f32)
    (a3 : FVec Ideal S128x128 .f32) (a4 : FVec Ideal S4000x1 .f32) (p : Fin 4000) (q : Fin 128) :
    k2_pay1 (F := Ideal) a0 a1 a2 a3 a4 (ix2 p q)
      = (∑ k : Fin 128, max (a0 (ix2 p k) * a1 (ix2 p (0 : Fin 1)) + a2 (ix1 k)) 0 * a3 (ix2 k q)) * a4 (ix2 p (0 : Fin 1)) := by
  unfold k2_pay1
  refine congrArg₂ (HMul.hMul : EReal → EReal → EReal) ?_ ?_
  · refine (Ideal.matmul_constant_zero_apply dot_S4000x128_S128x128_S4000x128_1_0_0_1_n_n none _ _ (ix2 p q)).trans ?_
    rw [← Equiv.sum_comp (contrEquiv1 dot_S4000x128_S128x128_S4000x128_1_0_0_1_n_n 128 rfl rfl).symm]
    refine Finset.sum_congr rfl fun k _ => ?_
    have hk := contrEquiv1_symm_val dot_S4000x128_S128x128_S4000x128_1_0_0_1_n_n 128 rfl rfl k
    have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
      match a with
      | ⟨0, _⟩ => exact lhs2_0 _ _
      | ⟨1, _⟩ => exact (lhs2_1 _ _).trans hk)
    have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
      match a with
      | ⟨0, _⟩ => exact (rhs2_0 _ _).trans hk
      | ⟨1, _⟩ => exact rhs2_1 _ _)
    rw [el, er]
    refine congrArg₂ (HMul.hMul : EReal → EReal → EReal) ?_ rfl
    show max (shapeCast S4000x128 a0 shapeCasts_S4000x128_S4000x128 (ix2 p k)
          * broadcastTo S4000x128 (shapeCast S4000x1 a1 shapeCasts_S4000x1_S4000x1) broadcasts_S4000x1_S4000x128 (ix2 p k)
          + broadcastTo S4000x128 (shapeCast S1x128 a2 shapeCasts_S128_S1x128) broadcasts_S1x128_S4000x128 (ix2 p k))
        (Ideal.ofBits .f32 0x00000000#32) = _
    rw [shapeCast_self, shapeCast_self, bcast_col2_apply, broadcastTo_1b_ab_apply, shapeCast_a_1a_apply, Ideal.ofBits_zero_f32]
  · show broadcastTo S4000x128 (shapeCast S4000x1 a4 shapeCasts_S4000x1_S4000x1) broadcasts_S4000x1_S4000x128 (ix2 p q) = _
    rw [shapeCast_self, bcast_col2_apply]

/-! ## The reference's stage at an index -/

/-- The reference's result at row `r` and column `q`: the same expression, over the reference's stages for the
    aggregated features, the destination-degree scale and the source-degree scale. -/
theorem ref2_apply (x0 : (⟨S100000x128, .f32⟩ : BufTy).Contents (Elt Ideal)) (x1 x2 : (⟨S1600000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (xb : (⟨S128, .f32⟩ : BufTy).Contents (Elt Ideal))
    (xw : (⟨S128x128, .f32⟩ : BufTy).Contents (Elt Ideal)) (r : Fin 100000) (q : Fin 128) :
    Cert.ReferenceIdeal.Read.val_main_v58 (F := Ideal) x0 x1 x2 x4 x5 x6 xb xw (ix2 r q)
      = (∑ k : Fin 128, max (Cert.ReferenceIdeal.Read.val_main_v47 (F := Ideal) x0 x1 x2 x4 x5 x6 (ix2 r k)
            * Cert.ReferenceIdeal.Read.val_main_v48 (F := Ideal) x2 (ix2 r (0 : Fin 1)) + xb (ix1 k)) 0 * xw (ix2 k q))
        * Cert.ReferenceIdeal.Read.val_main_v56 (F := Ideal) x1 (ix2 r (0 : Fin 1)) := by
  have eNs : Cert.ReferenceIdeal.Read.idx_main_v57 (ix2 r q) = ix2 r (0 : Fin 1) :=
    funext fun a => Fin.ext (by match a with | ⟨0, _⟩ => rfl | ⟨1, _⟩ => rfl)
  have el : ∀ k : Fin 128, Cert.ReferenceIdeal.Read.lidx_main_v55 (ix2 r q) k = ix2 r k := fun k =>
    funext fun a => Fin.ext (by match a with | ⟨0, _⟩ => rfl | ⟨1, _⟩ => rfl)
  have er : ∀ k : Fin 128, Cert.ReferenceIdeal.Read.ridx_main_v55 (ix2 r q) k = ix2 k q := fun k =>
    funext fun a => Fin.ext (by match a with | ⟨0, _⟩ => rfl | ⟨1, _⟩ => rfl)
  have eNd : ∀ k : Fin 128, Cert.ReferenceIdeal.Read.idx_main_v49 (ix2 r k) = ix2 r (0 : Fin 1) := fun k =>
    funext fun a => Fin.ext (by match a with | ⟨0, _⟩ => rfl | ⟨1, _⟩ => rfl)
  have eRow : ∀ k : Fin 128, Cert.ReferenceIdeal.Read.idx_main_v52 (ix2 r k) = ix2 (0 : Fin 1) k := fun k =>
    funext fun a => Fin.ext (by match a with | ⟨0, _⟩ => rfl | ⟨1, _⟩ => rfl)
  have eBias : ∀ k : Fin 128, Cert.ReferenceIdeal.Read.idx_main_v51 (ix2 (0 : Fin 1) k) = ix1 k := fun k =>
    funext fun a => Fin.ext (by match a with | ⟨0, _⟩ => rfl)
  rw [Cert.ReferenceIdeal.Read.val_main_v58_apply, Cert.ReferenceIdeal.Read.val_main_v55_apply,
    Cert.ReferenceIdeal.Read.val_main_v57_apply, eNs]
  refine congrArg₂ (HMul.hMul : EReal → EReal → EReal) (Finset.sum_congr rfl fun k _ => ?_) rfl
  rw [el, er]
  refine congrArg₂ (HMul.hMul : EReal → EReal → EReal) ?_ rfl
  rw [Cert.ReferenceIdeal.Read.val_main_v54_apply, Cert.ReferenceIdeal.Read.val_main_v53_apply,
    Cert.ReferenceIdeal.Read.val_main_v50_apply, Cert.ReferenceIdeal.Read.val_main_v49_apply,
    Cert.ReferenceIdeal.Read.val_main_v52_apply, Cert.ReferenceIdeal.Read.val_main_v51_apply,
    Cert.ReferenceIdeal.Read.val_main_call1_v0_apply, Cert.ReferenceIdeal.Read.val_main_call1_cst_apply,
    eNd, eRow, eBias]
  show max (_ * _ + _) (Ideal.ofBits .f32 0x00000000#32) = _
  rw [Ideal.ofBits_zero_f32]

/-! ## The printed index maps, decided over the grid -/

theorem hz2_2 : (![0, 0] : Fin 2 → Nat) = fun _ => 0 := funext fun a => by fin_cases a <;> rfl
theorem hz2_1 : (![0] : Fin 1 → Nat) = fun _ => 0 := funext fun a => by fin_cases a; rfl

/-- The row-blocked windows (the aggregated features, the two scale columns, the output) are at block `t` of the
    row axis at point `t`; the bias and the weights are at their one block at every point. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Row `p` of point `t`'s block is row `4000 t + p` of the array. -/
def row2 (t : Fin cfg2.N) (p : Fin 4000) : Fin 100000 :=
  ⟨t.val * 4000 + p.val, by have := t.isLt; have := p.isLt; have : cfg2.N = 25 := N_2; omega⟩

/-! ## The windows' blocks, read where the output's rectangle says -/

section Blocks
variable (V : (c : Dev nD) → (b : Ref sig .tc) → Buf (Elt Ideal) ((c : Thread nD τ).loc b)) (c : Dev nD) (t : Fin cfg2.N)

theorem blk2_0 (p : Fin 4000) (k : Fin 128) : iblk2 V c 0 t (ix2 p k) = V c main_v39 (ix2 (row2 t p) k) := by
  obtain ⟨e00, e01, -⟩ := idx_facts2 t
  show V c main_v39 (((cfg2.win 0).blk t).view.emb (ix2 p k)) = V c main_v39 (ix2 (row2 t p) k)
  refine congrArg (V c main_v39) (funext fun a => Fin.ext ?_)
  match a with
  | ⟨0, _⟩ => show win2_0.index t (0 : Fin 2) * 4000 + 1 * p.val = t.val * 4000 + p.val; omega
  | ⟨1, _⟩ => show win2_0.index t (1 : Fin 2) * 128 + 1 * k.val = k.val; omega

theorem blk2_1 (p : Fin 4000) : iblk2 V c 1 t (ix2 p (0 : Fin 1)) = V c main_v40 (ix2 (row2 t p) (0 : Fin 1)) := by
  obtain ⟨-, -, e10, e11, -⟩ := idx_facts2 t
  show V c main_v40 (((cfg2.win 1).blk t).view.emb (ix2 p (0 : Fin 1))) = V c main_v40 (ix2 (row2 t p) (0 : Fin 1))
  refine congrArg (V c main_v40) (funext fun a => Fin.ext ?_)
  match a with
  | ⟨0, _⟩ => show win2_1.index t (0 : Fin 2) * 4000 + 1 * p.val = t.val * 4000 + p.val; omega
  | ⟨1, _⟩ => show win2_1.index t (1 : Fin 2) * 1 + 1 * 0 = 0; omega

theorem blk2_2 (k : Fin 128) : iblk2 V c 2 t (ix1 k) = V c main_arg7 (ix1 k) := by
  obtain ⟨-, -, -, -, e2, -⟩ := idx_facts2 t
  show V c main_arg7 (((cfg2.win 2).blk t).view.emb (ix1 k)) = V c main_arg7 (ix1 k)
  refine congrArg (V c main_arg7) (funext fun a => Fin.ext ?_)
  match a with
  | ⟨0, _⟩ => show win2_2.index t (0 : Fin 1) * 128 + 1 * k.val = k.val; omega

theorem blk2_3 (k q : Fin 128) : iblk2 V c 3 t (ix2 k q) = V c main_arg8 (ix2 k q) := by
  obtain ⟨-, -, -, -, -, eBias, eRow, -⟩ := idx_facts2 t
  show V c main_arg8 (((cfg2.win 3).blk t).view.emb (ix2 k q)) = V c main_arg8 (ix2 k q)
  refine congrArg (V c main_arg8) (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

theorem blk2_4 (p : Fin 4000) : iblk2 V c 4 t (ix2 p (0 : Fin 1)) = V c main_v41 (ix2 (row2 t p) (0 : Fin 1)) := by
  obtain ⟨-, -, -, -, -, -, -, e40, e41, -⟩ := idx_facts2 t
  show V c main_v41 (((cfg2.win 4).blk t).view.emb (ix2 p (0 : Fin 1))) = V c main_v41 (ix2 (row2 t p) (0 : Fin 1))
  refine congrArg (V c main_v41) (funext fun a => Fin.ext ?_)
  match a with
  | ⟨0, _⟩ => show win2_4.index t (0 : Fin 2) * 4000 + 1 * p.val = t.val * 4000 + p.val; omega
  | ⟨1, _⟩ => show win2_4.index t (1 : Fin 2) * 1 + 1 * 0 = 0; omega

theorem emb2_5 (p : Fin 4000) (q : Fin 128) : ((cfg2.win 5).blk t).view.emb (ix2 p q) = ix2 (row2 t p) q := by
  obtain ⟨-, -, -, -, -, -, -, -, -, e50, e51⟩ := idx_facts2 t
  refine funext fun a => Fin.ext ?_
  match a with
  | ⟨0, _⟩ => show win2_5.index t (0 : Fin 2) * 4000 + 1 * p.val = t.val * 4000 + p.val; omega
  | ⟨1, _⟩ => show win2_5.index t (1 : Fin 2) * 128 + 1 * q.val = q.val; omega

end Blocks

/-! ## What each point writes back, the cover, and the whole array -/

section Stage
variable (V : (c : Dev nD) → (b : Ref sig .tc) → Buf (Elt Ideal) ((c : Thread nD τ).loc b)) (c : Dev nD)
  (x0 : (⟨S100000x128, .f32⟩ : BufTy).Contents (Elt Ideal)) (x1 x2 : (⟨S1600000, .i32⟩ : BufTy).Contents (Elt Ideal))
  (x4 : (⟨S128x128, .f32⟩ : BufTy).Contents (Elt Ideal)) (x5 : (⟨S128, .f32⟩ : BufTy).Contents (Elt Ideal)) (x6 : (⟨S128x128, .f32⟩ : BufTy).Contents (Elt Ideal)) (xb : (⟨S128, .f32⟩ : BufTy).Contents (Elt Ideal))
  (xw : (⟨S128x128, .f32⟩ : BufTy).Contents (Elt Ideal))

/-- Point `t`'s block of the output array, read at row `p` and column `q`, is the array at row `4000 t + p`. -/
theorem read2_apply (t : Fin cfg2.N) (G : (⟨S100000x128, .bf16⟩ : BufTy).Contents (Elt Ideal)) (p : Fin 4000) (q : Fin 128) :
    ((cfg2.win 5).blk t).view.read (Elt Ideal) G (ix2 p q) = G (ix2 (row2 t p) q) := by
  show G (((cfg2.win 5).blk t).view.emb (ix2 p q)) = _
  rw [emb2_5]

/-- The output window is never cut at the array's end: what a write-back moves of a buffer's contents is all of it. -/
theorem cut2_apply {α : Type} (t : Fin cfg2.N) (X : S4000x128.Idx → α) (p : Fin 4000) (q : Fin 128) :
    (cfg2.win 5).cut (grid2.coords t) X (ix2 p q) = X (ix2 p q) := rfl

/-- Point `t` writes back block `t` of the reference's result, when the region finds the reference's stages in its
    input arrays. -/
theorem flushed2_eq
    (h39 : V c main_v39 = Cert.ReferenceIdeal.Read.val_main_v47 (F := Ideal) x0 x1 x2 x4 x5 x6)
    (h40 : V c main_v40 = Cert.ReferenceIdeal.Read.val_main_v48 (F := Ideal) x2)
    (h7 : V c main_arg7 = xb) (h8 : V c main_arg8 = xw)
    (h41 : V c main_v41 = Cert.ReferenceIdeal.Read.val_main_v56 (F := Ideal) x1) (t : Fin cfg2.N) :
    (dat2 (F := Ideal) V c).flushed 5 t
      = ((cfg2.win 5).blk t).view.read (Elt Ideal) (Cert.ReferenceIdeal.Read.val_main_v58 (F := Ideal) x0 x1 x2 x4 x5 x6 xb xw) := by
  show (cfg2.win 5).cut (grid2.coords t) ((dat2 V c).after 5 t) = _
  rw [after2_5]
  unfold out2_5
  rw [View.canon_unit_zero hz2_2]
  simp only [View.ld_unit_zero (S := S4000x128) hz2_2, View.ld_unit_zero (S := S4000x1) hz2_2,
    View.ld_unit_zero (S := S128) hz2_1, View.ld_unit_zero (S := S128x128) hz2_2]
  funext j
  obtain ⟨p, q, rfl⟩ : ∃ (p : Fin 4000) (q : Fin 128), j = ix2 p q := ⟨j 0, j 1, eq_ix2 j⟩
  refine (cut2_apply t _ p q).trans ?_
  refine (pay2_apply _ _ _ _ _ p q).trans ?_
  refine Eq.trans ?_ (read2_apply t _ p q).symm
  rw [ref2_apply]
  simp only [blk2_0, blk2_1, blk2_2, blk2_3, blk2_4, h39, h40, h7, h8, h41]

/-- An index of the array is in point `t`'s block iff each coordinate is in the block's range on its axis. -/
theorem mem_blk2 (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v42).slice (win2_5.rect t)).set ↔ _
  rw [View.set_slice_whole, Rect.mem_set_unit]
  exact Iff.rfl

/-- Every index of the array is in the block of the point its row falls in: row `r` is written by point `r / 4000`. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 25 := N_2
  obtain ⟨t, ht⟩ : ∃ t : Fin cfg2.N, t.val = (i 0).val / 4000 := ⟨⟨(i 0).val / 4000, by omega⟩, rfl⟩
  obtain ⟨-, -, -, -, -, -, -, -, -, e50, e51⟩ := idx_facts2 t
  refine ⟨t, flush2_5 t, ?_⟩
  rw [mem_blk2]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 128 ≤ (i 1).val ∧ (i 1).val < win2_5.index t (1 : Fin 2) * 128 + 128; omega

/-- THE OUTPUT ARRAY after the region is the reference's stage: the 25 row blocks cover the array, and each point
    writes its block of that stage. -/
theorem stage2
    (h39 : V c main_v39 = Cert.ReferenceIdeal.Read.val_main_v47 (F := Ideal) x0 x1 x2 x4 x5 x6)
    (h40 : V c main_v40 = Cert.ReferenceIdeal.Read.val_main_v48 (F := Ideal) x2)
    (h7 : V c main_arg7 = xb) (h8 : V c main_arg8 = xw)
    (h41 : V c main_v41 = Cert.ReferenceIdeal.Read.val_main_v56 (F := Ideal) x1) :
    (dat2 (F := Ideal) V c).arrAt 5 cfg2.N = Cert.ReferenceIdeal.Read.val_main_v58 (F := Ideal) x0 x1 x2 x4 x5 x6 xb xw :=
  (dat2 (F := Ideal) V c).arrAt_eq_of_cover 5 _ (fun t _ => flushed2_eq V c x0 x1 x2 x4 x5 x6 xb xw h39 h40 h7 h8 h41 t) cover2

end Stage

end Cert.KernelIdeal.HandV
-- ==== Proof.KI.V3Ref.lean ====
import proofs.«417676_j6554120093878_3_alg».proof.Proof.Gen.ReferenceIdeal.Read
import Idealize.ShloMosaic.Lib.ValueIdx
import Idealize.ShloMosaic.PureOps.Ideal
import Idealize.ShloMosaic.PureOps.Ideal.Laws

/-! # The reference's segment sum, read at an index

The reference pools the rows of `relu (agg · nd + b)` by a scatter-add into a zero array of 256 rows: row `n` of the
100000 update rows is added to row `node2graph n` of the result, read signed, and dropped when that row is outside
`0 … 255`. Read at row `g` and column `d`, the result is therefore the sum, over the rows `n` whose `node2graph`
word is `g`, of the update's entry at `(n, d)`. -/

set_option maxRecDepth 16384

noncomputable section

namespace Cert.KernelIdeal.HandV

open Cert.ReferenceIdeal Cert.ReferenceIdeal.Gen
open Idealize.ShloMosaic Idealize.ShloMosaic.TcCoe Idealize.ShloMosaic.ValueIdx
open scoped BigOperators

/-- The scatter's dimension numbers: update row `n` lands on the operand row its index names, column for column. -/
abbrev D78 := scatter_S256x128_S100000x1_S100000x128_1_0_0_1

/-- A 32-bit word read signed is `g`, for `g` below 256, exactly when it is the word `g`. -/
theorem toInt_eq_iff (w : BitVec 32) (g : Fin 256) : w.toInt = (g.val : Int) ↔ w = BitVec.ofNat 32 g.val := by
  constructor
  · intro h
    have := BitVec.ofInt_toInt (x := w)
    rw [h] at this
    rw [← this]
    exact BitVec.ofInt_natCast ..
  · intro h
    subst h
    rw [BitVec.toInt_ofNat']
    have := g.isLt
    first
      | omega
      | (simp only [Int.bmod_def]; omega)
      | (rw [Int.bmod_def]; omega)

/-- The window of update index `j` starts, on the operand's row axis, at the index word of `j`'s row, read signed … -/
theorem start0 (idx : IVec S100000x1 32) (j : S100000x128.Idx) :
    D78.start j idx ⟨0, by decide⟩ = (idx (ix2 (j 0) (0 : Fin 1))).toInt := by
  unfold ScatterDims.start
  rw [dif_pos (by decide)]
  congr 2
  funext b
  match b with
  | ⟨0, _⟩ => rfl
  | ⟨1, _⟩ => rfl

/-- … and at `0` on the column axis, which the index vector does not name. -/
theorem start1 (idx : IVec S100000x1 32) (j : S100000x128.Idx) :
    D78.start j idx ⟨1, by decide⟩ = 0 := by
  unfold ScatterDims.start
  rw [dif_neg (by decide)]

/-- The window coordinate is `0` on the inserted row axis … -/
theorem window0 (j : S100000x128.Idx) : D78.window j ⟨0, by decide⟩ = 0 := by
  unfold ScatterDims.window
  rw [dif_neg (by decide)]

/-- … and `j`'s column on the column axis. -/
theorem window1 (j : S100000x128.Idx) : D78.window j ⟨1, by decide⟩ = (j 1).val := by
  unfold ScatterDims.window
  rw [dif_pos (by decide)]
  rfl

/-- Update index `j` lands on `(g, d)` exactly when its row's index word, read signed, is `g` and its column is `d`:
    an index outside `0 … 255` lands nowhere. -/
theorem resultIdx_iff (idx : IVec S100000x1 32) (j : S100000x128.Idx) (g : Fin 256) (d : Fin 128) :
    D78.resultIdx? j idx = some (ix2 g d) ↔ (idx (ix2 (j 0) (0 : Fin 1))).toInt = (g.val : Int) ∧ j 1 = d := by
  unfold ScatterDims.resultIdx?
  constructor
  · intro h
    split at h
    · rename_i hc
      have h' := Option.some.inj h
      have e0 := congrArg Fin.val (congrFun h' ⟨0, by decide⟩)
      have e1 := congrArg Fin.val (congrFun h' ⟨1, by decide⟩)
      have c0 := (hc ⟨0, by decide⟩).1
      simp only [start0, window0, start1, window1] at e0 e1 c0
      have e0' : ((idx (ix2 (j 0) (0 : Fin 1))).toInt + ((0 : Nat) : Int)).toNat = g.val := e0
      have e1' : ((0 : Int) + ((j 1).val : Int)).toNat = d.val := e1
      exact ⟨by omega, Fin.ext (by omega)⟩
    · exact absurd h (by simp)
  · rintro ⟨h0, h1⟩
    have hc : ∀ a, 0 ≤ D78.start j idx a + D78.window j a ∧ D78.start j idx a + D78.window j a < S256x128.size a := by
      intro a
      match a with
      | ⟨0, _⟩ =>
        simp only [start0, window0]
        rw [h0]
        show 0 ≤ (g.val : Int) + ((0 : Nat) : Int) ∧ (g.val : Int) + ((0 : Nat) : Int) < ((256 : Nat) : Int)
        have := g.isLt
        omega
      | ⟨1, _⟩ =>
        simp only [start1, window1]
        show 0 ≤ (0 : Int) + ((j 1).val : Int) ∧ (0 : Int) + ((j 1).val : Int) < ((128 : Nat) : Int)
        have := idx2_lt1 j
        omega
    rw [dif_pos hc]
    congr 1
    funext a
    match a with
    | ⟨0, _⟩ =>
      apply Fin.ext
      show (D78.start j idx ⟨0, by decide⟩ + (D78.window j ⟨0, by decide⟩ : Int)).toNat = g.val
      rw [start0, window0, h0]
      omega
    | ⟨1, _⟩ =>
      apply Fin.ext
      show (D78.start j idx ⟨1, by decide⟩ + (D78.window j ⟨1, by decide⟩ : Int)).toNat = d.val
      rw [start1, window1, ← h1]
      omega

/-- The same at an update index given by its coordinates. -/
theorem resultIdx_ix2_iff (idx : IVec S100000x1 32) (n : Fin 100000) (b : Fin 128) (g : Fin 256) (d : Fin 128) :
    D78.resultIdx? (ix2 n b) idx = some (ix2 g d) ↔ (idx (ix2 n (0 : Fin 1))).toInt = (g.val : Int) ∧ b = d :=
  resultIdx_iff idx (ix2 n b) g d

/-- The index word of update row `n`, read signed, is `g` exactly when `node2graph n` is the word `g`. -/
theorem idxword_iff (x3 : IVec S100000 32) (n : Fin 100000) (g : Fin 256) :
    ((Cert.ReferenceIdeal.Read.val_main_v77 (F := Ideal) x3 : IVec S100000x1 32) (ix2 n (0 : Fin 1))).toInt = (g.val : Int)
      ↔ x3 (ix1 n) = BitVec.ofNat 32 g.val := by
  have hi : Cert.ReferenceIdeal.Read.idx_main_v77 (ix2 n (0 : Fin 1)) = ix1 n := by
    funext a; match a with | ⟨0, _⟩ => rfl
  rw [Cert.ReferenceIdeal.Read.val_main_v77_apply, hi]
  exact toInt_eq_iff _ g

/-- The update array at `(n, d)`: `relu (agg n d · nd n + b d)`. -/
theorem upd_apply (x0 : S100000x128.Idx → EReal) (x1 x2 : IVec S1600000 32)
    (x4 : S128x128.Idx → EReal) (x5 : S128.Idx → EReal) (x6 : S128x128.Idx → EReal) (x7 : S128.Idx → EReal)
    (x8 : S128x128.Idx → EReal) (x9 : S128.Idx → EReal) (n : Fin 100000) (d : Fin 128) :
    Cert.ReferenceIdeal.Read.val_main_v75 (F := Ideal) x0 x1 x2 x4 x5 x6 x7 x8 x9 (ix2 n d)
      = max (Cert.ReferenceIdeal.Read.val_main_v68 (F := Ideal) x0 x1 x2 x4 x5 x6 x7 x8 (ix2 n d)
              * Cert.ReferenceIdeal.Read.val_main_v69 (F := Ideal) x2 (ix2 n (0 : Fin 1)) + x9 (ix1 d)) 0 := by
  have h70 : Cert.ReferenceIdeal.Read.idx_main_v70 (ix2 n d) = ix2 n (0 : Fin 1) := by
    funext a; match a with | ⟨0, _⟩ => rfl | ⟨1, _⟩ => rfl
  have h73 : Cert.ReferenceIdeal.Read.idx_main_v72 (Cert.ReferenceIdeal.Read.idx_main_v73 (ix2 n d)) = ix1 d := by
    funext a; match a with | ⟨0, _⟩ => rfl
  rw [Cert.ReferenceIdeal.Read.val_main_v75_apply, Cert.ReferenceIdeal.Read.val_main_v74_apply,
    Cert.ReferenceIdeal.Read.val_main_v71_apply, Cert.ReferenceIdeal.Read.val_main_v70_apply,
    Cert.ReferenceIdeal.Read.val_main_v73_apply, Cert.ReferenceIdeal.Read.val_main_v72_apply,
    Cert.ReferenceIdeal.Read.val_main_call2_v0_apply, Cert.ReferenceIdeal.Read.val_main_call2_cst_apply, h70, h73]
  simp only [Ideal.maximumf_def, Ideal.addf_def, Ideal.mulf_def, Ideal.ofBits_def, Ideal.ofBits_zero_f32]

theorem ref_pool (x0 : S100000x128.Idx → EReal) (x1 x2 : IVec S1600000 32) (x3 : IVec S100000 32)
    (x4 : S128x128.Idx → EReal) (x5 : S128.Idx → EReal) (x6 : S128x128.Idx → EReal) (x7 : S128.Idx → EReal)
    (x8 : S128x128.Idx → EReal) (x9 : S128.Idx → EReal) (g : Fin 256) (d : Fin 128) :
    Cert.ReferenceIdeal.Read.val_main_v78 (F := Ideal) x0 x1 x2 x3 x4 x5 x6 x7 x8 x9 (ValueIdx.ix2 g d)
      = ∑ n : Fin 100000, (if x3 (ValueIdx.ix1 n) = BitVec.ofNat 32 g.val then
          max (Cert.ReferenceIdeal.Read.val_main_v68 (F := Ideal) x0 x1 x2 x4 x5 x6 x7 x8 (ValueIdx.ix2 n d)
                * Cert.ReferenceIdeal.Read.val_main_v69 (F := Ideal) x2 (ValueIdx.ix2 n (0 : Fin 1)) + x9 (ValueIdx.ix1 d)) 0
        else 0) := by
  unfold Cert.ReferenceIdeal.Read.val_main_v78 Host.scatterAdd
  rw [Ideal.hostScatterAdd_def]
  unfold Ideal.hostScatterAdd
  show Cert.ReferenceIdeal.Read.val_main_v76 (F := Ideal) (ix2 g d) + _ = _
  rw [Cert.ReferenceIdeal.Read.val_main_v76_apply, Cert.ReferenceIdeal.Read.val_main_cst_12_apply, Ideal.ofBits_def,
    Ideal.ofBits_zero_f32, zero_add, Finset.sum_filter, sum_idx2]
  refine Finset.sum_congr rfl (fun n _ => ?_)
  simp only [resultIdx_ix2_iff]
  by_cases hg : ((Cert.ReferenceIdeal.Read.val_main_v77 (F := Ideal) x3 : IVec S100000x1 32) (ix2 n (0 : Fin 1))).toInt = (g.val : Int)
  · rw [if_pos ((idxword_iff x3 n g).1 hg)]
    simp only [hg, true_and]
    rw [Finset.sum_ite_eq' Finset.univ d, if_pos (Finset.mem_univ d)]
    exact upd_apply x0 x1 x2 x4 x5 x6 x7 x8 x9 n d
  · rw [if_neg (fun h => hg ((idxword_iff x3 n g).2 h))]
    simp only [hg, false_and, if_false]
    exact Finset.sum_const_zero

end Cert.KernelIdeal.HandV
-- ==== Proof.KI.V3.lean ====
/- Region 3's value (the pooled sum per graph), at the ideal instance: the body's arithmetic read at an index — the
   one-hot matrix of the block's graph ids, the relu rows, their product over the block's 4000 rows —; the blocks read
   off the arrays; the accumulator after each point as a sum over the nodes of the blocks so far (an induction on the
   point); the output array as the accumulator after the last point; and the stage: that array is the reference's
   scatter-added segment sum of the relu rows. -/
import proofs.«417676_j6554120093878_3_alg».proof.Proof.KI.R3
import proofs.«417676_j6554120093878_3_alg».proof.Proof.KI.V3Ref
import proofs.«417676_j6554120093878_3_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen
open Idealize.ShloMosaic Idealize.ShloMosaic.TcCoe Idealize.SL.Sem
open Idealize.ShloMosaic.ValueIdx
open Idealize.ShloMosaic.Pipeline (Dat)

/-! ## The body's arithmetic at an index -/

theorem hz3_2 : (![0, 0] : Fin 2 → Nat) = fun _ => 0 := funext fun a => by fin_cases a <;> rfl
theorem hz3_1 : (![0] : Fin 1 → Nat) = fun _ => 0 := funext fun a => by fin_cases a <;> rfl

/-- A column `[a, 1]` broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot entry: 1 where the row's graph id is `g`, else 0. -/
def hot (b : BitVec 32) (g : Fin 256) : EReal := if b = BitVec.ofNat 32 g.val then 1 else 0

/-- The one-hot matrix the body builds, at row `k` and column `g`. -/
theorem onehot_apply (x3 : IVec S4000x1 32) (k : Fin 4000) (g : Fin 256) :
    (truncf (F := Ideal) .bf16 (sitofp .f32 (extui 32 (cmpi .eq (broadcastTo S4000x256 (shapeCast S4000x1 x3 shapeCasts_S4000x1_S4000x1) broadcasts_S4000x1_S4000x256)
        (broadcastTo S4000x256 (iota .tc S1x256 32 [1] iota_S1x256_d1_w32) broadcasts_S1x256_S4000x256)) natLt_1_32)) bitsLt_bf16_f32 : FVec Ideal S4000x256 .bf16) (ix2 k g)
      = hot (x3 (ix2 k (0 : Fin 1))) g := by
  rw [truncf_apply, sitofp_apply, extui_apply]
  show FloatOps.sitofp .f32 ((IntOp.cmpi .eq _ _).setWidth 32) = _
  rw [shapeCast_self, broadcastTo_a1_ab_apply, broadcastTo_1b_ab_apply, iota_single_apply]
  have e : ∀ b : Bool, FloatOps.sitofp (F := Ideal) .f32 (BitVec.setWidth 32 (BitVec.ofBool b)) = if b then (1 : EReal) else 0 := by
    intro b; cases b
    · show (((BitVec.setWidth 32 (BitVec.ofBool false)).toInt : ℝ) : EReal) = 0
      rw [show (BitVec.setWidth 32 (BitVec.ofBool false)).toInt = 0 from by decide]; simp
    · show (((BitVec.setWidth 32 (BitVec.ofBool true)).toInt : ℝ) : EReal) = 1
      rw [show (BitVec.setWidth 32 (BitVec.ofBool true)).toInt = 1 from by decide]; simp
  show FloatOps.sitofp .f32 (BitVec.setWidth 32 (BitVec.ofBool (x3 (ix2 k 0) == BitVec.ofNat 32 g.val))) = _
  rw [e]; unfold hot; simp only [beq_iff_eq]

/-- The relu rows the body multiplies the one-hot matrix with, at row `k` and column `d`. -/
theorem relu_apply (x0 : FVec Ideal S4000x128 .f32) (x1 : FVec Ideal S4000x1 .f32) (x2 : FVec Ideal S128 .f32) (k : Fin 4000) (d : Fin 128) :
    (truncf (F := Ideal) .bf16 (maximumf (addf (mulf (shapeCast S4000x128 x0 shapeCasts_S4000x128_S4000x128)
          (broadcastTo S4000x128 (shapeCast S4000x1 x1 shapeCasts_S4000x1_S4000x1) broadcasts_S4000x1_S4000x128))
        (broadcastTo S4000x128 (shapeCast S1x128 x2 shapeCasts_S128_S1x128) broadcasts_S1x128_S4000x128))
      (broadcast S4000x128 (Scalar.ofBits .f32 0x00000000#32))) bitsLt_bf16_f32 : FVec Ideal S4000x128 .bf16) (ix2 k d)
      = max (x0 (ix2 k d) * x1 (ix2 k (0 : Fin 1)) + x2 (ix1 d)) 0 := by
  rw [truncf_apply, maximumf_apply, addf_apply, mulf_apply, broadcast_apply, shapeCast_self, shapeCast_self,
    broadcastTo_a1_ab_apply, broadcastTo_1b_ab_apply, shapeCast_a_1a_apply]
  show max _ (Ideal.ofBits .f32 0x00000000#32) = _
  rw [Ideal.ofBits_zero_f32]

abbrev D3 := dot_S4000x256_S4000x128_S256x128_0_0_1_1_n_n

theorem lhs_D3_0 (i : S256x128.Idx) (q : D3.contr.Idx) : (D3.lhsIdx i q 0).val = (q ⟨0, by decide⟩).val :=
  dot_S4000x256_S4000x128_S256x128_0_0_1_1_n_n.lhsIdx_val_of_single rfl i q
theorem lhs_D3_1 (i : S256x128.Idx) (q : D3.contr.Idx) : (D3.lhsIdx i q 1).val = (i 0).val := by
  unfold DotDims.lhsIdx
  rw [dif_neg (show ¬(1 : Fin S4000x256.rank) ∈ dot_S4000x256_S4000x128_S256x128_0_0_1_1_n_n.lhsBatch by decide), dif_pos (show (1 : Fin S4000x256.rank) ∈ dot_S4000x256_S4000x128_S256x128_0_0_1_1_n_n.lhsNonContracting by decide)]
  rfl
theorem rhs_D3_0 (i : S256x128.Idx) (q : D3.contr.Idx) : (D3.rhsIdx i q 0).val = (q ⟨0, by decide⟩).val :=
  dot_S4000x256_S4000x128_S256x128_0_0_1_1_n_n.rhsIdx_val_of_single rfl i q
theorem rhs_D3_1 (i : S256x128.Idx) (q : D3.contr.Idx) : (D3.rhsIdx i q 1).val = (i 1).val := by
  unfold DotDims.rhsIdx
  rw [dif_neg (show ¬(1 : Fin S4000x128.rank) ∈ dot_S4000x256_S4000x128_S256x128_0_0_1_1_n_n.rhsBatch by decide), dif_pos (show (1 : Fin S4000x128.rank) ∈ dot_S4000x256_S4000x128_S256x128_0_0_1_1_n_n.rhsNonContracting by decide)]
  rfl

/-- The body's matrix product into the zero accumulator, read at `(g, d)`: the sum over the block's 4000 rows of the
    products of the two operands' entries at row `k`. -/
theorem matmul3_apply (l : FVec Ideal S4000x256 .bf16) (r : FVec Ideal S4000x128 .bf16) (g : Fin 256) (d : Fin 128) :
    matmul (F := Ideal) dot_S4000x256_S4000x128_S256x128_0_0_1_1_n_n none l r (constant S256x128 .f32 0x00000000#32) (ix2 g d)
      = ∑ k : Fin 4000, l (ix2 k g) * r (ix2 k d) := by
  show FloatOps.matmul dot_S4000x256_S4000x128_S256x128_0_0_1_1_n_n none l r (constant S256x128 .f32 0x00000000#32) (ix2 g d) = _
  rw [Ideal.matmul_constant_zero_apply, ← Equiv.sum_comp (ValueIdx.contrEquiv1 dot_S4000x256_S4000x128_S256x128_0_0_1_1_n_n 4000 rfl rfl).symm]
  refine Finset.sum_congr rfl fun k _ => ?_
  have hk := ValueIdx.contrEquiv1_symm_val dot_S4000x256_S4000x128_S256x128_0_0_1_1_n_n 4000 rfl rfl k
  have el : dot_S4000x256_S4000x128_S256x128_0_0_1_1_n_n.lhsIdx (ix2 g d) ((ValueIdx.contrEquiv1 dot_S4000x256_S4000x128_S256x128_0_0_1_1_n_n 4000 rfl rfl).symm k) = ix2 k g := funext fun a => Fin.ext (by
    match a with
    | ⟨0, _⟩ => exact (lhs_D3_0 _ _).trans hk
    | ⟨1, _⟩ => exact lhs_D3_1 _ _)
  have er : dot_S4000x256_S4000x128_S256x128_0_0_1_1_n_n.rhsIdx (ix2 g d) ((ValueIdx.contrEquiv1 dot_S4000x256_S4000x128_S256x128_0_0_1_1_n_n 4000 rfl rfl).symm k) = ix2 k d := funext fun a => Fin.ext (by
    match a with
    | ⟨0, _⟩ => exact (rhs_D3_0 _ _).trans hk
    | ⟨1, _⟩ => exact rhs_D3_1 _ _)
  rw [el, er]

/-- The accumulator's update at `(g, d)`: what it held plus the block's contribution. -/
theorem pay3_2_apply (x0 : Vec Ideal S4000x128 .f32) (x1 : Vec Ideal S4000x1 .f32) (x2 : Vec Ideal S128 .f32) (x3 : Vec Ideal S4000x1 .i32)
    (s : Vec Ideal S256x128 .f32) (g : Fin 256) (d : Fin 128) :
    k3_pay2 (F := Ideal) x0 x1 x2 x3 s (ix2 g d)
      = s (ix2 g d) + ∑ k : Fin 4000, hot (x3 (ix2 k (0 : Fin 1))) g * max (x0 (ix2 k d) * x1 (ix2 k (0 : Fin 1)) + x2 (ix1 d)) 0 := by
  unfold k3_pay2
  rw [shapeCast_self, addf_apply, matmul3_apply]
  refine congrArg (s (ix2 g d) + ·) (Finset.sum_congr rfl fun k _ => ?_)
  rw [onehot_apply, relu_apply]

/-- The zero fill at an index. -/
theorem pay3_1_apply (i : S256x128.Idx) : k3_pay1 (F := Ideal) i = 0 := by
  unfold k3_pay1
  rw [shapeCast_self, broadcast_apply]
  exact Ideal.ofBits_zero_f32

open Cert.KernelIdeal.Hand

/-! ## What the accumulator's recursion computes at an index -/

theorem step3_apply (x0 : Vec Ideal S4000x128 .f32) (x1 : Vec Ideal S4000x1 .f32) (x2 : Vec Ideal S128 .f32) (x3 : Vec Ideal S4000x1 .i32)
    (s : Vec Ideal S256x128 .f32) (g : Fin 256) (d : Fin 128) :
    step3 x0 x1 x2 x3 s (ix2 g d)
      = s (ix2 g d) + ∑ k : Fin 4000, hot (x3 (ix2 k (0 : Fin 1))) g * max (x0 (ix2 k d) * x1 (ix2 k (0 : Fin 1)) + x2 (ix1 d)) 0 := by
  unfold step3
  rw [View.canon_unit_zero hz3_2]
  simp only [View.ld_unit_zero (S := S4000x128) hz3_2, View.ld_unit_zero (S := S4000x1) hz3_2, View.ld_unit_zero (S := S128) hz3_1,
    View.ld_unit_zero (S := S256x128) hz3_2]
  exact pay3_2_apply x0 x1 x2 x3 s g d

theorem zero3_apply (i : S256x128.Idx) : zero3 (F := Ideal) i = 0 := by
  unfold zero3
  rw [View.canon_unit_zero hz3_2]
  exact pay3_1_apply i

theorem out3_4_eq (s : Vec Ideal S256x128 .f32) : out3_4 s = s := by
  unfold out3_4
  rw [View.canon_unit_zero hz3_2, View.ld_unit_zero (S := S256x128) hz3_2]

/-! ## Sums over the row blocks -/

/-- A sum over `S` consecutive blocks of `B` naturals is the sum over the first `B * S` naturals. -/
theorem sum_blocks {β : Type*} [AddCommMonoid β] (B : ℕ) (f : ℕ → β) : ∀ S : ℕ,
    ∑ s ∈ Finset.range S, ∑ k ∈ Finset.range B, f (B * s + k) = ∑ n ∈ Finset.range (B * S), f n
  | 0 => by simp
  | S + 1 => by rw [Finset.sum_range_succ, sum_blocks B f S, Nat.mul_succ, Finset.sum_range_add]

/-- Node `n`'s contribution to entry `(g, d)` of the pooled sum, over the four arrays the region reads: its relu row
    entry if its graph id is `g`, else 0 (0 past the last node). -/
def termOf (A0 : S100000x128.Idx → EReal) (A1 : S100000x1.Idx → EReal) (A2 : S128.Idx → EReal) (A3 : S100000x1.Idx → BitVec 32)
    (g : Fin 256) (d : Fin 128) (n : ℕ) : EReal :=
  if h : n < 100000 then
    hot (A3 (ix2 ⟨n, h⟩ (0 : Fin 1))) g * max (A0 (ix2 ⟨n, h⟩ d) * A1 (ix2 ⟨n, h⟩ (0 : Fin 1)) + A2 (ix1 d)) 0
  else 0

variable (V : (c : Dev nD) → (b : Ref sig .tc) → Buf (Elt Ideal) ((c : Thread nD τ).loc b))

/-! ## The blocks read off the arrays -/

theorem idx3_0 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
theorem idx3_1 : ∀ t : Fin cfg3.N, win3_1.index t (0 : Fin 2) = t.val ∧ win3_1.index t (1 : Fin 2) = 0 :=
  (by decide +kernel : ∀ t : Fin grid3.N, win3_1.index t (0 : Fin 2) = t.val ∧ win3_1.index t (1 : Fin 2) = 0)
theorem idx3_2 : ∀ t : Fin cfg3.N, win3_2.index t (0 : Fin 1) = 0 :=
  (by decide +kernel : ∀ t : Fin grid3.N, win3_2.index t (0 : Fin 1) = 0)
theorem idx3_3 : ∀ t : Fin cfg3.N, win3_3.index t (0 : Fin 2) = t.val ∧ win3_3.index t (1 : Fin 2) = 0 :=
  (by decide +kernel : ∀ t : Fin grid3.N, win3_3.index t (0 : Fin 2) = t.val ∧ win3_3.index t (1 : Fin 2) = 0)
theorem idx3_4 : ∀ t : Fin cfg3.N, win3_4.index t (0 : Fin 2) = 0 ∧ win3_4.index t (1 : Fin 2) = 0 :=
  (by decide +kernel : ∀ t : Fin grid3.N, win3_4.index t (0 : Fin 2) = 0 ∧ win3_4.index t (1 : Fin 2) = 0)

/-- Row `k` of the aggregated features' block at point `t` is row `4000 t + k` of the array. -/
theorem blk3_0 (c : Dev nD) (t : Fin cfg3.N) (x : Vec Ideal S4000x128 .f32) (hx : x = iblk3 V c 0 t)
    (A : S100000x128.Idx → EReal) (hA : V c main_v53 = A) (k : Fin 4000) (d : Fin 128) (hb : 4000 * t.val + k.val < 100000) :
    x (ix2 k d) = A (ix2 ⟨4000 * t.val + k.val, hb⟩ d) := by
  subst hx; subst hA
  show V c main_v53 (((cfg3.win 0).blk t).view.emb (ix2 k d)) = V c main_v53 _
  refine congrArg _ (funext fun a => Fin.ext ?_)
  match a with
  | ⟨0, _⟩ =>
    show win3_0.index t 0 * 4000 + 1 * k.val = 4000 * t.val + k.val
    rw [(idx3_0 t).1]; omega
  | ⟨1, _⟩ =>
    show win3_0.index t 1 * 128 + 1 * d.val = d.val
    rw [(idx3_0 t).2]; omega

/-- The scaling column's block likewise. -/
theorem blk3_1 (c : Dev nD) (t : Fin cfg3.N) (x : Vec Ideal S4000x1 .f32) (hx : x = iblk3 V c 1 t)
    (A : S100000x1.Idx → EReal) (hA : V c main_v55 = A) (k : Fin 4000) (hb : 4000 * t.val + k.val < 100000) :
    x (ix2 k (0 : Fin 1)) = A (ix2 ⟨4000 * t.val + k.val, hb⟩ (0 : Fin 1)) := by
  subst hx; subst hA
  show V c main_v55 (((cfg3.win 1).blk t).view.emb (ix2 k (0 : Fin 1))) = V c main_v55 _
  refine congrArg _ (funext fun a => Fin.ext ?_)
  match a with
  | ⟨0, _⟩ =>
    show win3_1.index t 0 * 4000 + 1 * k.val = 4000 * t.val + k.val
    rw [(idx3_1 t).1]; omega
  | ⟨1, _⟩ =>
    show win3_1.index t 1 * 1 + 1 * 0 = 0
    rw [(idx3_1 t).2]

/-- The bias row's one block is the array. -/
theorem blk3_2 (c : Dev nD) (t : Fin cfg3.N) (x : Vec Ideal S128 .f32) (hx : x = iblk3 V c 2 t)
    (A : S128.Idx → EReal) (hA : V c main_arg9 = A) (d : Fin 128) : x (ix1 d) = A (ix1 d) := by
  subst hx; subst hA
  show V c main_arg9 (((cfg3.win 2).blk t).view.emb (ix1 d)) = V c main_arg9 _
  refine congrArg _ (funext fun a => Fin.ext ?_)
  match a with
  | ⟨0, _⟩ =>
    show win3_2.index t 0 * 128 + 1 * d.val = d.val
    rw [idx3_2 t]; omega

/-- The graph-id column's block. -/
theorem blk3_3 (c : Dev nD) (t : Fin cfg3.N) (x : Vec Ideal S4000x1 .i32) (hx : x = iblk3 V c 3 t)
    (A : S100000x1.Idx → BitVec 32) (hA : V c main_v54 = A) (k : Fin 4000) (hb : 4000 * t.val + k.val < 100000) :
    x (ix2 k (0 : Fin 1)) = A (ix2 ⟨4000 * t.val + k.val, hb⟩ (0 : Fin 1)) := by
  subst hx; subst hA
  show V c main_v54 (((cfg3.win 3).blk t).view.emb (ix2 k (0 : Fin 1))) = V c main_v54 _
  refine congrArg _ (funext fun a => Fin.ext ?_)
  match a with
  | ⟨0, _⟩ =>
    show win3_3.index t 0 * 4000 + 1 * k.val = 4000 * t.val + k.val
    rw [(idx3_3 t).1]; omega
  | ⟨1, _⟩ =>
    show win3_3.index t 1 * 1 + 1 * 0 = 0
    rw [(idx3_3 t).2]

/-- A point's contribution to entry `(g, d)`: the contributions of its block's 4000 nodes. -/
theorem addend3 (c : Dev nD) (t : Fin cfg3.N)
    (x0 : Vec Ideal S4000x128 .f32) (x1 : Vec Ideal S4000x1 .f32) (x2 : Vec Ideal S128 .f32) (x3 : Vec Ideal S4000x1 .i32)
    (h0 : x0 = iblk3 V c 0 t) (h1 : x1 = iblk3 V c 1 t) (h2 : x2 = iblk3 V c 2 t) (h3 : x3 = iblk3 V c 3 t)
    (A0 : S100000x128.Idx → EReal) (A1 : S100000x1.Idx → EReal) (A2 : S128.Idx → EReal) (A3 : S100000x1.Idx → BitVec 32)
    (hA0 : V c main_v53 = A0) (hA1 : V c main_v55 = A1) (hA2 : V c main_arg9 = A2) (hA3 : V c main_v54 = A3)
    (g : Fin 256) (d : Fin 128) :
    ∑ k : Fin 4000, hot (x3 (ix2 k (0 : Fin 1))) g * max (x0 (ix2 k d) * x1 (ix2 k (0 : Fin 1)) + x2 (ix1 d)) 0
      = ∑ k ∈ Finset.range 4000, termOf A0 A1 A2 A3 g d (4000 * t.val + k) := by
  rw [Finset.sum_range]
  refine Finset.sum_congr rfl fun k _ => ?_
  have hb : 4000 * t.val + k.val < 100000 := by
    have := t.isLt; have hN : cfg3.N = 25 := N_3; have := k.isLt; omega
  unfold termOf
  rw [dif_pos hb, blk3_0 V c t x0 h0 A0 hA0 k d hb, blk3_1 V c t x1 h1 A1 hA1 k hb, blk3_2 V c t x2 h2 A2 hA2 d,
    blk3_3 V c t x3 h3 A3 hA3 k hb]

/-! ## The accumulator after each point, at an index -/

/-- After point `n` the accumulator's entry `(g, d)` is the sum of the contributions of the nodes of blocks `0 … n`. -/
theorem acc3_apply (c : Dev nD)
    (A0 : S100000x128.Idx → EReal) (A1 : S100000x1.Idx → EReal) (A2 : S128.Idx → EReal) (A3 : S100000x1.Idx → BitVec 32)
    (hA0 : V c main_v53 = A0) (hA1 : V c main_v55 = A1) (hA2 : V c main_arg9 = A2) (hA3 : V c main_v54 = A3)
    (g : Fin 256) (d : Fin 128) : ∀ (n : ℕ) (hn : n < cfg3.N),
    acc3 V c n hn (ix2 g d) = ∑ s ∈ Finset.range (n + 1), ∑ k ∈ Finset.range 4000, termOf A0 A1 A2 A3 g d (4000 * s + k)
  | 0, hn => by
    rw [Finset.sum_range_one]
    show step3 (iblk3 V c 0 ⟨0, hn⟩) (iblk3 V c 1 ⟨0, hn⟩) (iblk3 V c 2 ⟨0, hn⟩) (iblk3 V c 3 ⟨0, hn⟩) zero3 (ix2 g d) = _
    refine (step3_apply _ _ _ _ _ g d).trans ?_
    rw [zero3_apply, zero_add]
    exact addend3 V c ⟨0, hn⟩ _ _ _ _ rfl rfl rfl rfl A0 A1 A2 A3 hA0 hA1 hA2 hA3 g d
  | n + 1, hn => by
    rw [Finset.sum_range_succ _ (n + 1), ← acc3_apply c A0 A1 A2 A3 hA0 hA1 hA2 hA3 g d n (Nat.lt_of_succ_lt hn)]
    show step3 (iblk3 V c 0 ⟨n + 1, hn⟩) (iblk3 V c 1 ⟨n + 1, hn⟩) (iblk3 V c 2 ⟨n + 1, hn⟩) (iblk3 V c 3 ⟨n + 1, hn⟩)
      (acc3 V c n (Nat.lt_of_succ_lt hn)) (ix2 g d) = _
    refine (step3_apply _ _ _ _ _ g d).trans ?_
    exact congrArg (acc3 V c n (Nat.lt_of_succ_lt hn) (ix2 g d) + ·)
      (addend3 V c ⟨n + 1, hn⟩ _ _ _ _ rfl rfl rfl rfl A0 A1 A2 A3 hA0 hA1 hA2 hA3 g d)

/-- After the last point: the sum over all 100000 nodes. -/
theorem acc3_last (c : Dev nD)
    (A0 : S100000x128.Idx → EReal) (A1 : S100000x1.Idx → EReal) (A2 : S128.Idx → EReal) (A3 : S100000x1.Idx → BitVec 32)
    (hA0 : V c main_v53 = A0) (hA1 : V c main_v55 = A1) (hA2 : V c main_arg9 = A2) (hA3 : V c main_v54 = A3)
    (g : Fin 256) (d : Fin 128) (h24 : 24 < cfg3.N) :
    acc3 V c 24 h24 (ix2 g d)
      = ∑ n : Fin 100000, hot (A3 (ix2 n (0 : Fin 1))) g * max (A0 (ix2 n d) * A1 (ix2 n (0 : Fin 1)) + A2 (ix1 d)) 0 := by
  rw [acc3_apply V c A0 A1 A2 A3 hA0 hA1 hA2 hA3 g d 24 h24, sum_blocks 4000 _ 25, Finset.sum_range]
  refine Finset.sum_congr rfl fun n _ => ?_
  unfold termOf
  rw [dif_pos n.isLt]

/-! ## The output array -/

theorem h24 : 24 < cfg3.N := by rw [show cfg3.N = 25 from N_3]; decide

/-- The accumulator after the last point, as contents of the output array (its one block is the array). -/
abbrev res3 (c : Dev nD) : Buf (Elt Ideal) ((c : Thread nD τ).loc main_v56) := acc3 V c 24 h24

/-- The one write-back, at the last point, writes it: block (0, 0) of the [256,128] array read through zero offsets is
    the array. -/
theorem flushed3_eq (c : Dev nD) (t : Fin cfg3.N) (hf : (cfg3.win 4).flush t = true) :
    (dat3 V c).flushed 4 t = ((cfg3.win 4).blk t).view.read (Elt Ideal) (res3 V c) := by
  have hN : cfg3.N = 25 := N_3
  have ht : t.val = 24 := by have := (flush3_4 t).mp hf; have := t.isLt; omega
  obtain rfl : t = ⟨24, h24⟩ := Fin.ext ht
  show (cfg3.win 4).cut (grid3.coords ⟨24, h24⟩) ((dat3 V c).after 4 ⟨24, h24⟩) = _
  rw [after3_4, out3_4_eq]
  have hz' : (fun a => win3_4.index ⟨24, h24⟩ a * main_v56.ty.shape.size a) = fun _ => 0 := funext fun a => by
    match a with
    | ⟨0, _⟩ => show win3_4.index ⟨24, h24⟩ 0 * _ = 0; rw [(idx3_4 _).1, Nat.zero_mul]
    | ⟨1, _⟩ => show win3_4.index ⟨24, h24⟩ 1 * _ = 0; rw [(idx3_4 _).2, Nat.zero_mul]
  exact (Memref.read_access_unit_zero (Elt Ideal) main_v56 hz' (fun a => by rw [congrFun hz' a]; simp) (res3 V c)).symm

/-- So the output array ends holding the accumulator after the last point: that point's block covers it. -/
theorem final3 (c : Dev nD) : (dat3 V c).arrAt 4 cfg3.N = res3 V c :=
  (dat3 V c).arrAt_eq_of_cover 4 (res3 V c) (flushed3_eq V c) fun i =>
    ⟨⟨24, h24⟩, (flush3_4 ⟨24, h24⟩).mpr rfl, by
      show i ∈ ((View.whole main_v56).slice (win3_4.rect ⟨24, h24⟩)).set
      rw [View.set_slice_whole, Rect.mem_set_unit]
      intro a
      have h0 : (i 0 : Nat) < 256 := (i 0).isLt
      have h1 : (i 1 : Nat) < 128 := (i 1).isLt
      match a with
      | ⟨0, _⟩ =>
        show win3_4.index ⟨24, h24⟩ 0 * win3_4.size 0 ≤ (i 0 : Nat) ∧ (i 0 : Nat) < win3_4.index ⟨24, h24⟩ 0 * win3_4.size 0 + win3_4.xsize (grid3.coords ⟨24, h24⟩) 0
        rw [(idx3_4 _).1, show win3_4.xsize (grid3.coords ⟨24, h24⟩) 0 = 256 from by decide +kernel]; omega
      | ⟨1, _⟩ =>
        show win3_4.index ⟨24, h24⟩ 1 * win3_4.size 1 ≤ (i 1 : Nat) ∧ (i 1 : Nat) < win3_4.index ⟨24, h24⟩ 1 * win3_4.size 1 + win3_4.xsize (grid3.coords ⟨24, h24⟩) 1
        rw [(idx3_4 _).2, show win3_4.xsize (grid3.coords ⟨24, h24⟩) 1 = 128 from by decide +kernel]; omega⟩

/-! ## The stage: the region's output array is the reference's segment sum -/

/-- The region's output array, when the region finds in its input arrays the reference's aggregated features, scaling
    column, bias and graph-id column, is the reference's scatter-added sum of the relu rows: at entry `(g, d)` both are
    the sum over the nodes whose graph id is `g` of the relu row entry at column `d` — the kernel as 25 blocks of 4000
    one-hot products added in point order, the reference as the scatter's sum; over the extended reals a product with
    the one-hot entry is the entry or 0, and the order of the additions does not matter. -/
theorem stage3 (c : Dev nD) (x0 : S100000x128.Idx → EReal) (x1 x2 : IVec S1600000 32) (x3 : IVec S100000 32)
    (x4 : S128x128.Idx → EReal) (x5 : S128.Idx → EReal) (x6 : S128x128.Idx → EReal) (x7 : S128.Idx → EReal)
    (x8 : S128x128.Idx → EReal) (x9 : S128.Idx → EReal)
    (h53 : V c main_v53 = Cert.ReferenceIdeal.Read.val_main_v68 (F := Ideal) x0 x1 x2 x4 x5 x6 x7 x8)
    (h55 : V c main_v55 = Cert.ReferenceIdeal.Read.val_main_v69 (F := Ideal) x2)
    (h9 : V c main_arg9 = x9)
    (h54 : V c main_v54 = Cert.ReferenceIdeal.Read.val_main_v77 (F := Ideal) x3) :
    (dat3 (F := Ideal) V c).arrAt 4 cfg3.N = Cert.ReferenceIdeal.Read.val_main_v78 (F := Ideal) x0 x1 x2 x3 x4 x5 x6 x7 x8 x9 := by
  rw [final3]
  funext i
  obtain ⟨g, d, rfl⟩ : ∃ (g : Fin 256) (d : Fin 128), i = ix2 g d := ⟨i 0, i 1, eq_ix2 i⟩
  rw [ref_pool]
  show acc3 V c 24 h24 (ix2 g d) = _
  rw [acc3_last V c _ _ _ _ h53 h55 h9 h54 g d h24]
  refine Finset.sum_congr rfl fun n _ => ?_
  rw [Cert.ReferenceIdeal.Read.val_main_v77_apply,
    show Cert.ReferenceIdeal.Read.idx_main_v77 (ix2 n (0 : Fin 1)) = ix1 n from funext fun a => Fin.ext (by match a with | ⟨0, _⟩ => rfl)]
  unfold hot
  split
  · rw [one_mul]
  · rw [zero_mul]

end Cert.KernelIdeal.HandV

end
-- ==== Proof.KI.V4.lean ====
/- Region 4 of @main read as a value at the ideal instance: the array the MLP head's output window ends holding is the
   reference's last stage. Both sides are the same three dense layers — a contraction over the inner axis, a bias row
   added, a maximum with zero after the first two — of the pooled features and the six weight arrays; at the ideal
   instance the kernel's roundings to bf16 are the identity and a matmul into a zero accumulator is the exact sum, as
   is the reference's dot_general. The region has one grid point and every window is its whole array, so the one
   written-back block is the array. -/
import proofs.«417676_j6554120093878_3_alg».proof.Proof.KI.R4
import proofs.«417676_j6554120093878_3_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)

/-! ## The three dense layers, as functions of their operands, index by index

The operand indices are the ones the reference's stages are read at: row `i 0` of the left operand against column
`i 1` of the right, over the contraction index `k`; the bias at column `i 1`. -/

/-- The f32 zero the two maxima are taken against. -/
abbrev z32 : EReal := Ideal.ofBits .f32 0x00000000#32

/-- Layer 1: max(hg · w1 + b1, 0), a [256,256] array. -/
def layer1 (hg : ReferenceIdeal.S256x128.Idx → EReal) (w : ReferenceIdeal.S128x256.Idx → EReal) (b : ReferenceIdeal.S256.Idx → EReal) :
    ReferenceIdeal.S256x256.Idx → EReal := fun i =>
  max ((∑ k : Fin 128, hg (ReferenceIdeal.Read.lidx_main_v88 i k) * w (ReferenceIdeal.Read.ridx_main_v88 i k))
    + b (ReferenceIdeal.Read.idx_main_v89 (ReferenceIdeal.Read.idx_main_v90 i))) z32

/-- Layer 2: max(a · w2 + b2, 0), a [256,256] array. -/
def layer2 (a : ReferenceIdeal.S256x256.Idx → EReal) (w : ReferenceIdeal.S256x256.Idx → EReal) (b : ReferenceIdeal.S256.Idx → EReal) :
    ReferenceIdeal.S256x256.Idx → EReal := fun i =>
  max ((∑ k : Fin 256, a (ReferenceIdeal.Read.lidx_main_v93 i k) * w (ReferenceIdeal.Read.ridx_main_v93 i k))
    + b (ReferenceIdeal.Read.idx_main_v94 (ReferenceIdeal.Read.idx_main_v95 i))) z32

/-- Layer 3: a · w3 + b3, a [256,8] array. -/
def layer3 (a : ReferenceIdeal.S256x256.Idx → EReal) (w : ReferenceIdeal.S256x8.Idx → EReal) (b : ReferenceIdeal.S8.Idx → EReal) :
    ReferenceIdeal.S256x8.Idx → EReal := fun i =>
  (∑ k : Fin 256, a (ReferenceIdeal.Read.lidx_main_v98 i k) * w (ReferenceIdeal.Read.ridx_main_v98 i k))
    + b (ReferenceIdeal.Read.idx_main_v99 (ReferenceIdeal.Read.idx_main_v100 i))

/-! ## The reference's stages are the layers -/

section Ref
open ReferenceIdeal ReferenceIdeal.Read
variable (x0 : (⟨ReferenceIdeal.S100000x128, .f32⟩ : BufTy).Contents (Elt Ideal)) (x1 x2 : (⟨ReferenceIdeal.S1600000, .i32⟩ : BufTy).Contents (Elt Ideal))
    (x3 : (⟨ReferenceIdeal.S100000, .i32⟩ : BufTy).Contents (Elt Ideal)) (x4 : (⟨ReferenceIdeal.S128x128, .f32⟩ : BufTy).Contents (Elt Ideal))
    (x5 : (⟨ReferenceIdeal.S128, .f32⟩ : BufTy).Contents (Elt Ideal)) (x6 : (⟨ReferenceIdeal.S128x128, .f32⟩ : BufTy).Contents (Elt Ideal))
    (x7 : (⟨ReferenceIdeal.S128, .f32⟩ : BufTy).Contents (Elt Ideal)) (x8 : (⟨ReferenceIdeal.S128x128, .f32⟩ : BufTy).Contents (Elt Ideal))
    (x9 : (⟨ReferenceIdeal.S128, .f32⟩ : BufTy).Contents (Elt Ideal)) (x10 : (⟨ReferenceIdeal.S128x256, .f32⟩ : BufTy).Contents (Elt Ideal))
    (x11 : (⟨ReferenceIdeal.S256, .f32⟩ : BufTy).Contents (Elt Ideal)) (x12 : (⟨ReferenceIdeal.S256x256, .f32⟩ : BufTy).Contents (Elt Ideal))
    (x13 : (⟨ReferenceIdeal.S256, .f32⟩ : BufTy).Contents (Elt Ideal)) (x14 : (⟨ReferenceIdeal.S256x8, .f32⟩ : BufTy).Contents (Elt Ideal))
    (x15 : (⟨ReferenceIdeal.S8, .f32⟩ : BufTy).Contents (Elt Ideal))

theorem ref_layer1 : Read.val_main_v92 (F := Ideal) x0 x1 x2 x3 x4 x5 x6 x7 x8 x9 x10 x11
    = layer1 (Read.val_main_v87 (F := Ideal) x0 x1 x2 x3 x4 x5 x6 x7 x8 x9) x10 x11 := by
  funext i
  rw [Read.val_main_v92_apply, Read.val_main_v91_apply, Read.val_main_v88_apply, Read.val_main_v90_apply, Read.val_main_v89_apply,
    Read.val_main_call3_v0_apply, Read.val_main_call3_cst_apply]
  rfl

theorem ref_layer2 : Read.val_main_v97 (F := Ideal) x0 x1 x2 x3 x4 x5 x6 x7 x8 x9 x10 x11 x12 x13
    = layer2 (Read.val_main_v92 (F := Ideal) x0 x1 x2 x3 x4 x5 x6 x7 x8 x9 x10 x11) x12 x13 := by
  funext i
  rw [Read.val_main_v97_apply, Read.val_main_v96_apply, Read.val_main_v93_apply, Read.val_main_v95_apply, Read.val_main_v94_apply,
    Read.val_main_call4_v0_apply, Read.val_main_call4_cst_apply]
  rfl

theorem ref_layer3 : Read.val_main_v101 (F := Ideal) x0 x1 x2 x3 x4 x5 x6 x7 x8 x9 x10 x11 x12 x13 x14 x15
    = layer3 (Read.val_main_v97 (F := Ideal) x0 x1 x2 x3 x4 x5 x6 x7 x8 x9 x10 x11 x12 x13) x14 x15 := by
  funext i
  rw [Read.val_main_v101_apply, Read.val_main_v98_apply, Read.val_main_v100_apply, Read.val_main_v99_apply]
  rfl

/-- The reference's last stage is the three layers of the pooled features and the six weight arrays. -/
theorem ref_mlp : Read.val_main_v101 (F := Ideal) x0 x1 x2 x3 x4 x5 x6 x7 x8 x9 x10 x11 x12 x13 x14 x15
    = layer3 (layer2 (layer1 (Read.val_main_v87 (F := Ideal) x0 x1 x2 x3 x4 x5 x6 x7 x8 x9) x10 x11) x12 x13) x14 x15 := by
  rw [ref_layer3, ref_layer2, ref_layer1]
end Ref

/-! ## The kernel's payload, operation by operation, at an index -/

theorem lhs_mm1_0 (i : S256x256.Idx) (q : dot_S256x128_S128x256_S256x256_1_0_0_1_n_n.contr.Idx) :
    (dot_S256x128_S128x256_S256x256_1_0_0_1_n_n.lhsIdx i q 0).val = (i 0).val := by
  unfold DotDims.lhsIdx
  rw [dif_neg (show ¬(0 : Fin S256x128.rank) ∈ dot_S256x128_S128x256_S256x256_1_0_0_1_n_n.lhsBatch by decide), dif_pos (show (0 : Fin S256x128.rank) ∈ dot_S256x128_S128x256_S256x256_1_0_0_1_n_n.lhsNonContracting by decide)]
  rfl
theorem lhs_mm1_1 (i : S256x256.Idx) (q : dot_S256x128_S128x256_S256x256_1_0_0_1_n_n.contr.Idx) :
    (dot_S256x128_S128x256_S256x256_1_0_0_1_n_n.lhsIdx i q 1).val = (q ⟨0, by decide⟩).val :=
  dot_S256x128_S128x256_S256x256_1_0_0_1_n_n.lhsIdx_val_of_single rfl i q
theorem rhs_mm1_0 (i : S256x256.Idx) (q : dot_S256x128_S128x256_S256x256_1_0_0_1_n_n.contr.Idx) :
    (dot_S256x128_S128x256_S256x256_1_0_0_1_n_n.rhsIdx i q 0).val = (q ⟨0, by decide⟩).val :=
  dot_S256x128_S128x256_S256x256_1_0_0_1_n_n.rhsIdx_val_of_single rfl i q
theorem rhs_mm1_1 (i : S256x256.Idx) (q : dot_S256x128_S128x256_S256x256_1_0_0_1_n_n.contr.Idx) :
    (dot_S256x128_S128x256_S256x256_1_0_0_1_n_n.rhsIdx i q 1).val = (i 1).val := by
  unfold DotDims.rhsIdx
  rw [dif_neg (show ¬(1 : Fin S128x256.rank) ∈ dot_S256x128_S128x256_S256x256_1_0_0_1_n_n.rhsBatch by decide), dif_pos (show (1 : Fin S128x256.rank) ∈ dot_S256x128_S128x256_S256x256_1_0_0_1_n_n.rhsNonContracting by decide)]
  rfl

/-- The kernel's matmul of layer 1 into the zero accumulator, at an index: the sum over the contraction index of
    row `i 0` of the left operand against column `i 1` of the right. -/
theorem mm1_apply (A : FVec Ideal S256x128 .bf16) (B : FVec Ideal S128x256 .bf16) (i : S256x256.Idx) :
    matmul dot_S256x128_S128x256_S256x256_1_0_0_1_n_n none A B (constant S256x256 .f32 0x00000000#32) i
      = ∑ k : Fin 128, A (ReferenceIdeal.Read.lidx_main_v88 i k) * B (ReferenceIdeal.Read.ridx_main_v88 i k) := by
  simp only [matmul]
  rw [Ideal.matmul_constant_zero_apply, ← Equiv.sum_comp (ValueIdx.contrEquiv1 dot_S256x128_S128x256_S256x256_1_0_0_1_n_n 128 rfl rfl).symm]
  refine Finset.sum_congr rfl fun k _ => ?_
  have hk := ValueIdx.contrEquiv1_symm_val dot_S256x128_S128x256_S256x256_1_0_0_1_n_n 128 rfl rfl k
  have el : dot_S256x128_S128x256_S256x256_1_0_0_1_n_n.lhsIdx i ((ValueIdx.contrEquiv1 dot_S256x128_S128x256_S256x256_1_0_0_1_n_n 128 rfl rfl).symm k) = ReferenceIdeal.Read.lidx_main_v88 i k := funext fun a => Fin.ext (by
    match a with
    | ⟨0, _⟩ => exact lhs_mm1_0 _ _
    | ⟨1, _⟩ => exact (lhs_mm1_1 _ _).trans hk)
  have er : dot_S256x128_S128x256_S256x256_1_0_0_1_n_n.rhsIdx i ((ValueIdx.contrEquiv1 dot_S256x128_S128x256_S256x256_1_0_0_1_n_n 128 rfl rfl).symm k) = ReferenceIdeal.Read.ridx_main_v88 i k := funext fun a => Fin.ext (by
    match a with
    | ⟨0, _⟩ => exact (rhs_mm1_0 _ _).trans hk
    | ⟨1, _⟩ => exact rhs_mm1_1 _ _)
  rw [el, er]

theorem lhs_mm2_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhs_mm2_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem rhs_mm2_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem rhs_mm2_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- The kernel's matmul of layer 2 into the zero accumulator, at an index: the sum over the contraction index of
    row `i 0` of the left operand against column `i 1` of the right. -/
theorem mm2_apply (A : FVec Ideal S256x256 .bf16) (B : FVec Ideal S256x256 .bf16) (i : S256x256.Idx) :
    matmul dot_S256x256_S256x256_S256x256_1_0_0_1_n_n none A B (constant S256x256 .f32 0x00000000#32) i
      = ∑ k : Fin 256, A (ReferenceIdeal.Read.lidx_main_v93 i k) * B (ReferenceIdeal.Read.ridx_main_v93 i k) := by
  simp only [matmul]
  rw [Ideal.matmul_constant_zero_apply, ← Equiv.sum_comp (ValueIdx.contrEquiv1 dot_S256x256_S256x256_S256x256_1_0_0_1_n_n 256 rfl rfl).symm]
  refine Finset.sum_congr rfl fun k _ => ?_
  have hk := ValueIdx.contrEquiv1_symm_val dot_S256x256_S256x256_S256x256_1_0_0_1_n_n 256 rfl rfl k
  have el : dot_S256x256_S256x256_S256x256_1_0_0_1_n_n.lhsIdx i ((ValueIdx.contrEquiv1 dot_S256x256_S256x256_S256x256_1_0_0_1_n_n 256 rfl rfl).symm k) = ReferenceIdeal.Read.lidx_main_v93 i k := funext fun a => Fin.ext (by
    match a with
    | ⟨0, _⟩ => exact lhs_mm2_0 _ _
    | ⟨1, _⟩ => exact (lhs_mm2_1 _ _).trans hk)
  have er : dot_S256x256_S256x256_S256x256_1_0_0_1_n_n.rhsIdx i ((ValueIdx.contrEquiv1 dot_S256x256_S256x256_S256x256_1_0_0_1_n_n 256 rfl rfl).symm k) = ReferenceIdeal.Read.ridx_main_v93 i k := funext fun a => Fin.ext (by
    match a with
    | ⟨0, _⟩ => exact (rhs_mm2_0 _ _).trans hk
    | ⟨1, _⟩ => exact rhs_mm2_1 _ _)
  rw [el, er]

theorem lhs_mm3_0 (i : S256x8.Idx) (q : dot_S256x256_S256x8_S256x8_1_0_0_1_n_n.contr.Idx) :
    (dot_S256x256_S256x8_S256x8_1_0_0_1_n_n.lhsIdx i q 0).val = (i 0).val := by
  unfold DotDims.lhsIdx
  rw [dif_neg (show ¬(0 : Fin S256x256.rank) ∈ dot_S256x256_S256x8_S256x8_1_0_0_1_n_n.lhsBatch by decide), dif_pos (show (0 : Fin S256x256.rank) ∈ dot_S256x256_S256x8_S256x8_1_0_0_1_n_n.lhsNonContracting by decide)]
  rfl
theorem lhs_mm3_1 (i : S256x8.Idx) (q : dot_S256x256_S256x8_S256x8_1_0_0_1_n_n.contr.Idx) :
    (dot_S256x256_S256x8_S256x8_1_0_0_1_n_n.lhsIdx i q 1).val = (q ⟨0, by decide⟩).val :=
  dot_S256x256_S256x8_S256x8_1_0_0_1_n_n.lhsIdx_val_of_single rfl i q
theorem rhs_mm3_0 (i : S256x8.Idx) (q : dot_S256x256_S256x8_S256x8_1_0_0_1_n_n.contr.Idx) :
    (dot_S256x256_S256x8_S256x8_1_0_0_1_n_n.rhsIdx i q 0).val = (q ⟨0, by decide⟩).val :=
  dot_S256x256_S256x8_S256x8_1_0_0_1_n_n.rhsIdx_val_of_single rfl i q
theorem rhs_mm3_1 (i : S256x8.Idx) (q : dot_S256x256_S256x8_S256x8_1_0_0_1_n_n.contr.Idx) :
    (dot_S256x256_S256x8_S256x8_1_0_0_1_n_n.rhsIdx i q 1).val = (i 1).val := by
  unfold DotDims.rhsIdx
  rw [dif_neg (show ¬(1 : Fin S256x8.rank) ∈ dot_S256x256_S256x8_S256x8_1_0_0_1_n_n.rhsBatch by decide), dif_pos (show (1 : Fin S256x8.rank) ∈ dot_S256x256_S256x8_S256x8_1_0_0_1_n_n.rhsNonContracting by decide)]
  rfl

/-- The kernel's matmul of layer 3 into the zero accumulator, at an index: the sum over the contraction index of
    row `i 0` of the left operand against column `i 1` of the right. -/
theorem mm3_apply (A : FVec Ideal S256x256 .bf16) (B : FVec Ideal S256x8 .bf16) (i : S256x8.Idx) :
    matmul dot_S256x256_S256x8_S256x8_1_0_0_1_n_n none A B (constant S256x8 .f32 0x00000000#32) i
      = ∑ k : Fin 256, A (ReferenceIdeal.Read.lidx_main_v98 i k) * B (ReferenceIdeal.Read.ridx_main_v98 i k) := by
  simp only [matmul]
  rw [Ideal.matmul_constant_zero_apply, ← Equiv.sum_comp (ValueIdx.contrEquiv1 dot_S256x256_S256x8_S256x8_1_0_0_1_n_n 256 rfl rfl).symm]
  refine Finset.sum_congr rfl fun k _ => ?_
  have hk := ValueIdx.contrEquiv1_symm_val dot_S256x256_S256x8_S256x8_1_0_0_1_n_n 256 rfl rfl k
  have el : dot_S256x256_S256x8_S256x8_1_0_0_1_n_n.lhsIdx i ((ValueIdx.contrEquiv1 dot_S256x256_S256x8_S256x8_1_0_0_1_n_n 256 rfl rfl).symm k) = ReferenceIdeal.Read.lidx_main_v98 i k := funext fun a => Fin.ext (by
    match a with
    | ⟨0, _⟩ => exact lhs_mm3_0 _ _
    | ⟨1, _⟩ => exact (lhs_mm3_1 _ _).trans hk)
  have er : dot_S256x256_S256x8_S256x8_1_0_0_1_n_n.rhsIdx i ((ValueIdx.contrEquiv1 dot_S256x256_S256x8_S256x8_1_0_0_1_n_n 256 rfl rfl).symm k) = ReferenceIdeal.Read.ridx_main_v98 i k := funext fun a => Fin.ext (by
    match a with
    | ⟨0, _⟩ => exact (rhs_mm3_0 _ _).trans hk
    | ⟨1, _⟩ => exact rhs_mm3_1 _ _)
  rw [el, er]

/-- The bias row of 256 entries, viewed [1,256] and broadcast down the rows, read at an index: the entry at column `i 1`. -/
theorem bias256_apply (b : FVec Ideal S256 .f32) (hc : S256.ShapeCasts S1x256) (hb : S1x256.Broadcasts S256x256) (i : S256x256.Idx) :
    broadcastTo S256x256 (shapeCast S1x256 b hc) hb i = b (ReferenceIdeal.Read.idx_main_v89 (ReferenceIdeal.Read.idx_main_v90 i)) := by
  rw [broadcastTo_apply _ hb i (ReferenceIdeal.Read.idx_main_v90 i) (fun a => match a with
      | ⟨0, _⟩ => by show 0 = if (1 : Nat) = 1 then 0 else _; rw [if_pos rfl]
      | ⟨1, _⟩ => by show (i 1).val = if (256 : Nat) = 1 then 0 else (i 1).val; rw [if_neg (by decide)])]
  exact shapeCast_apply b hc _ _ (by
    rw [Shape.rowMajor_val_one, Shape.rowMajor_val_two]
    show (i 1).val = 0 * 256 + (i 1).val
    omega)

/-- The bias row of 8 entries, viewed [1,8] and broadcast down the rows, read at an index: the entry at column `i 1`. -/
theorem bias8_apply (b : FVec Ideal S8 .f32) (hc : S8.ShapeCasts S1x8) (hb : S1x8.Broadcasts S256x8) (i : S256x8.Idx) :
    broadcastTo S256x8 (shapeCast S1x8 b hc) hb i = b (ReferenceIdeal.Read.idx_main_v99 (ReferenceIdeal.Read.idx_main_v100 i)) := by
  rw [broadcastTo_apply _ hb i (ReferenceIdeal.Read.idx_main_v100 i) (fun a => match a with
      | ⟨0, _⟩ => by show 0 = if (1 : Nat) = 1 then 0 else _; rw [if_pos rfl]
      | ⟨1, _⟩ => by show (i 1).val = if (8 : Nat) = 1 then 0 else (i 1).val; rw [if_neg (by decide)])]
  exact shapeCast_apply b hc _ _ (by
    rw [Shape.rowMajor_val_one, Shape.rowMajor_val_two]
    show (i 1).val = 0 * 8 + (i 1).val
    omega)

/-- The body's payload is the three layers of its seven loaded blocks: the roundings to bf16 are the identity at the
    ideal values, each matmul the exact sum, each bias the broadcast row, each maximum against the f32 zero. -/
theorem pay4_eq (X0 : Vec Ideal S256x128 .f32) (X1 : Vec Ideal S128x256 .f32) (X2 : Vec Ideal S256 .f32) (X3 : Vec Ideal S256x256 .f32)
    (X4 : Vec Ideal S256 .f32) (X5 : Vec Ideal S256x8 .f32) (X6 : Vec Ideal S8 .f32) :
    k4_pay1 X0 X1 X2 X3 X4 X5 X6 = layer3 (layer2 (layer1 X0 X1 X2) X3 X4) X5 X6 := by
  have e1 : maximumf (F := Ideal) (addf (F := Ideal) (matmul (F := Ideal) dot_S256x128_S128x256_S256x256_1_0_0_1_n_n none (truncf .bf16 X0 bitsLt_bf16_f32) (truncf .bf16 X1 bitsLt_bf16_f32)
        (constant S256x256 .f32 0x00000000#32)) (broadcastTo S256x256 (shapeCast S1x256 X2 shapeCasts_S256_S1x256) broadcasts_S1x256_S256x256))
      (broadcast S256x256 (Scalar.ofBits .f32 0x00000000#32)) = layer1 X0 X1 X2 := by
    funext i
    rw [ValueIdx.maximumf_apply, ValueIdx.addf_apply, mm1_apply, bias256_apply]
    rfl
  have e2 : ∀ a : FVec Ideal S256x256 .f32, maximumf (F := Ideal) (addf (F := Ideal) (matmul (F := Ideal) dot_S256x256_S256x256_S256x256_1_0_0_1_n_n none (truncf .bf16 a bitsLt_bf16_f32) (truncf .bf16 X3 bitsLt_bf16_f32)
        (constant S256x256 .f32 0x00000000#32)) (broadcastTo S256x256 (shapeCast S1x256 X4 shapeCasts_S256_S1x256) broadcasts_S1x256_S256x256))
      (broadcast S256x256 (Scalar.ofBits .f32 0x00000000#32)) = layer2 a X3 X4 := by
    intro a; funext i
    rw [ValueIdx.maximumf_apply, ValueIdx.addf_apply, mm2_apply, bias256_apply]
    rfl
  have e3 : ∀ a : FVec Ideal S256x256 .f32, addf (F := Ideal) (matmul (F := Ideal) dot_S256x256_S256x8_S256x8_1_0_0_1_n_n none (truncf .bf16 a bitsLt_bf16_f32) (truncf .bf16 X5 bitsLt_bf16_f32)
        (constant S256x8 .f32 0x00000000#32)) (broadcastTo S256x8 (shapeCast S1x8 X6 shapeCasts_S8_S1x8) broadcasts_S1x8_S256x8) = layer3 a X5 X6 := by
    intro a; funext i
    rw [ValueIdx.addf_apply, mm3_apply, bias8_apply]
    rfl
  unfold k4_pay1
  dsimp only
  rw [shapeCast_self, e1, e2, e3]

/-! ## From the block to the array: one point, every window the whole of its array -/

section Blocks
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! Each input window's block at the one point is its array: the block index is zero on every axis and the block has
    the array's sizes. -/

theorem iblk4_0_eq (c : Dev nD) : iblk4 V c 0 t4_0 = V c main_v72 := by
  have hz' : (fun a => win4_0.index t4_0 a * main_v72.ty.shape.size a) = fun _ => 0 := funext fun a => by fin_cases a <;> decide
  exact Memref.read_access_unit_zero (Elt Ideal) main_v72 hz' (fun a => by rw [congrFun hz' a]; simp) (V c main_v72)

theorem iblk4_1_eq (c : Dev nD) : iblk4 V c 1 t4_0 = V c main_arg10 := by
  have hz' : (fun a => win4_1.index t4_0 a * main_arg10.ty.shape.size a) = fun _ => 0 := funext fun a => by fin_cases a <;> decide
  exact Memref.read_access_unit_zero (Elt Ideal) main_arg10 hz' (fun a => by rw [congrFun hz' a]; simp) (V c main_arg10)

theorem iblk4_2_eq (c : Dev nD) : iblk4 V c 2 t4_0 = V c main_arg11 := by
  have hz' : (fun a => win4_2.index t4_0 a * main_arg11.ty.shape.size a) = fun _ => 0 := funext fun a => by fin_cases a <;> decide
  exact Memref.read_access_unit_zero (Elt Ideal) main_arg11 hz' (fun a => by rw [congrFun hz' a]; simp) (V c main_arg11)

theorem iblk4_3_eq (c : Dev nD) : iblk4 V c 3 t4_0 = V c main_arg12 := by
  have hz' : (fun a => win4_3.index t4_0 a * main_arg12.ty.shape.size a) = fun _ => 0 := funext fun a => by fin_cases a <;> decide
  exact Memref.read_access_unit_zero (Elt Ideal) main_arg12 hz' (fun a => by rw [congrFun hz' a]; simp) (V c main_arg12)

theorem iblk4_4_eq (c : Dev nD) : iblk4 V c 4 t4_0 = V c main_arg13 := by
  have hz' : (fun a => win4_4.index t4_0 a * main_arg13.ty.shape.size a) = fun _ => 0 := funext fun a => by fin_cases a <;> decide
  exact Memref.read_access_unit_zero (Elt Ideal) main_arg13 hz' (fun a => by rw [congrFun hz' a]; simp) (V c main_arg13)

theorem iblk4_5_eq (c : Dev nD) : iblk4 V c 5 t4_0 = V c main_arg14 := by
  have hz' : (fun a => win4_5.index t4_0 a * main_arg14.ty.shape.size a) = fun _ => 0 := funext fun a => by fin_cases a <;> decide
  exact Memref.read_access_unit_zero (Elt Ideal) main_arg14 hz' (fun a => by rw [congrFun hz' a]; simp) (V c main_arg14)

theorem iblk4_6_eq (c : Dev nD) : iblk4 V c 6 t4_0 = V c main_arg15 := by
  have hz' : (fun a => win4_6.index t4_0 a * main_arg15.ty.shape.size a) = fun _ => 0 := funext fun a => by fin_cases a <;> decide
  exact Memref.read_access_unit_zero (Elt Ideal) main_arg15 hz' (fun a => by rw [congrFun hz' a]; simp) (V c main_arg15)

/-- What the one point writes back is the three layers of the arrays the region finds, read through the output window's
    block (which is the whole array). -/
theorem flushed4_7 (c : Dev nD) (t : Fin cfg4.N) :
    (dat4 V c).flushed 7 t = ((cfg4.win 7).blk t).view.read (Elt Ideal)
      (layer3 (layer2 (layer1 (V c main_v72) (V c main_arg10) (V c main_arg11)) (V c main_arg12) (V c main_arg13)) (V c main_arg14) (V c main_arg15)) := by
  obtain rfl := fin_N4 t
  show (cfg4.win 7).cut (grid4.coords t4_0) ((dat4 V c).after 7 t4_0) = _
  rw [after4_7]
  unfold out4_7
  rw [View.canon_unit_zero hz2]
  rw [View.ld_unit_zero (S := S256x128) hz2, View.ld_unit_zero (S := S128x256) hz2, View.ld_unit_zero (S := S256) hz1,
    View.ld_unit_zero (S := S256x256) hz2, View.ld_unit_zero (S := S256) hz1, View.ld_unit_zero (S := S256x8) hz2, View.ld_unit_zero (S := S8) hz1]
  rw [iblk4_0_eq, iblk4_1_eq, iblk4_2_eq, iblk4_3_eq, iblk4_4_eq, iblk4_5_eq, iblk4_6_eq]
  rw [pay4_eq]
  have hz' : (fun a => win4_7.index t4_0 a * main_v73.ty.shape.size a) = fun _ => 0 := funext fun a => by fin_cases a <;> decide
  exact (Memref.read_access_unit_zero (Elt Ideal) main_v73 hz' (fun a => by rw [congrFun hz' a]; simp) _).symm

/-- The one point's block covers the output array: it starts at index zero on both axes and has the array's sizes. -/
theorem cover4_7 (c : Dev nD) (i : ((cfg4.win 7).arr.view.loc (c.tc : Thread nD τ)).2.ty.Idx) :
    ∃ t : Fin cfg4.N, (cfg4.win 7).flush t = true ∧ i ∈ ((cfg4.win 7).blk t).view.set :=
  ⟨t4_0, flush4_7 t4_0, by
    show i ∈ ((View.whole main_v73).slice (win4_7.rect t4_0)).set
    rw [View.set_slice_whole, Rect.mem_set_unit]
    intro a
    have h0 : (i 0 : Nat) < 256 := (i 0).isLt
    have h1 : (i 1 : Nat) < 8 := (i 1).isLt
    match a with
    | ⟨0, _⟩ =>
      show win4_7.index t4_0 0 * win4_7.size 0 ≤ (i 0 : Nat) ∧ (i 0 : Nat) < win4_7.index t4_0 0 * win4_7.size 0 + win4_7.xsize (grid4.coords t4_0) 0
      rw [show win4_7.index t4_0 0 * win4_7.size 0 = 0 from by decide +kernel, show win4_7.xsize (grid4.coords t4_0) 0 = 256 from by decide +kernel]
      omega
    | ⟨1, _⟩ =>
      show win4_7.index t4_0 1 * win4_7.size 1 ≤ (i 1 : Nat) ∧ (i 1 : Nat) < win4_7.index t4_0 1 * win4_7.size 1 + win4_7.xsize (grid4.coords t4_0) 1
      rw [show win4_7.index t4_0 1 * win4_7.size 1 = 0 from by decide +kernel, show win4_7.xsize (grid4.coords t4_0) 1 = 8 from by decide +kernel]
      omega⟩
end Blocks

/-! ## The stage -/

/-- The array the MLP head's output window ends holding is the reference's last stage, when the region finds the
    pooled features at the reference's stage for them and the six weight arrays at the arguments. -/
theorem stage4 (V : (c : Dev nD) → (b : Ref sig .tc) → Buf (Elt Ideal) ((c : Thread nD τ).loc b)) (c : Dev nD)
    (x0 : (⟨ReferenceIdeal.S100000x128, .f32⟩ : BufTy).Contents (Elt Ideal)) (x1 x2 : (⟨ReferenceIdeal.S1600000, .i32⟩ : BufTy).Contents (Elt Ideal))
    (x3 : (⟨ReferenceIdeal.S100000, .i32⟩ : BufTy).Contents (Elt Ideal)) (x4 : (⟨ReferenceIdeal.S128x128, .f32⟩ : BufTy).Contents (Elt Ideal))
    (x5 : (⟨ReferenceIdeal.S128, .f32⟩ : BufTy).Contents (Elt Ideal)) (x6 : (⟨ReferenceIdeal.S128x128, .f32⟩ : BufTy).Contents (Elt Ideal))
    (x7 : (⟨ReferenceIdeal.S128, .f32⟩ : BufTy).Contents (Elt Ideal)) (x8 : (⟨ReferenceIdeal.S128x128, .f32⟩ : BufTy).Contents (Elt Ideal))
    (x9 : (⟨ReferenceIdeal.S128, .f32⟩ : BufTy).Contents (Elt Ideal)) (x10 : (⟨ReferenceIdeal.S128x256, .f32⟩ : BufTy).Contents (Elt Ideal))
    (x11 : (⟨ReferenceIdeal.S256, .f32⟩ : BufTy).Contents (Elt Ideal)) (x12 : (⟨ReferenceIdeal.S256x256, .f32⟩ : BufTy).Contents (Elt Ideal))
    (x13 : (⟨ReferenceIdeal.S256, .f32⟩ : BufTy).Contents (Elt Ideal)) (x14 : (⟨ReferenceIdeal.S256x8, .f32⟩ : BufTy).Contents (Elt Ideal))
    (x15 : (⟨ReferenceIdeal.S8, .f32⟩ : BufTy).Contents (Elt Ideal))
    (h72 : V c main_v72 = ReferenceIdeal.Read.val_main_v87 (F := Ideal) x0 x1 x2 x3 x4 x5 x6 x7 x8 x9)
    (h10 : V c main_arg10 = x10) (h11 : V c main_arg11 = x11) (h12 : V c main_arg12 = x12) (h13 : V c main_arg13 = x13)
    (h14 : V c main_arg14 = x14) (h15 : V c main_arg15 = x15) :
    (dat4 (F := Ideal) V c).arrAt 7 cfg4.N = ReferenceIdeal.Read.val_main_v101 (F := Ideal) x0 x1 x2 x3 x4 x5 x6 x7 x8 x9 x10 x11 x12 x13 x14 x15 := by
  rw [ref_mlp, ← h72, ← h10, ← h11, ← h12, ← h13, ← h14, ← h15]
  exact (dat4 V c).arrAt_eq_of_cover 7 _ (fun t _ => flushed4_7 V c t) (cover4_7 c)

end Cert.KernelIdeal.HandV

end
-- ==== Proof.Host.A.lean ====
import proofs.«417676_j6554120093878_3_alg».proof.Proof.Gen.KernelIdeal.Launch
import proofs.«417676_j6554120093878_3_alg».proof.Proof.Gen.ReferenceIdeal.Read
import Idealize.ShloMosaic.Lib.StableHlo.Run
import Idealize.ShloMosaic.PureOps.Ideal

/-!
# The host stretches between the kernels, against the reference's stages

Between its kernel calls the kernel program runs plain host operations: first the two degree
norms (a count of edges per node by a scatter-add of ones, clamped below by one, then the inverse
square root), and then, before each later kernel call, one round of edge aggregation: the source
index of every edge wrapped into range, the rows of the node features gathered at those indices,
widened from the 16-bit to the 32-bit float format, and summed into the rows named by the
destination indices; beside it the two norms laid out as columns.

The reference performs the very same operations on the very same operands. Over the extended
reals a change of float format is the identity, and a gather only moves elements, so it is the
same function at either float format. Each statement below therefore says: what a host stretch
leaves in a buffer is the reference's stage of the same name, provided the buffers the stretch
reads hold the reference's earlier stages.
-/

noncomputable section

namespace Cert.Bridge

open Idealize.ShloMosaic Idealize.ShloMosaic.TcCoe Idealize.SL.Sem
open Cert.KernelIdeal Cert.KernelIdeal.Gen

namespace HostA

/-- A TensorCore reference of the kernel program as a device reference. -/
abbrev d (r : Ref sig .tc) : DevRef τ sig := Proc.devRef (τ := τ) .tc r

/-! ## The shared operations, each as one function of its operands -/

/-- The degree norm of an index list over the edges: the number of edges naming each node (ones
    summed into a zero vector at the named places), clamped below by one, to the power `-1/2`. -/
def degNorm (idx : IVec S1600000 32) : FVec Ideal S100000 .f32 :=
  Host.rsqrt (F := Ideal)
    (maximumf (F := Ideal)
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 idx)
        (broadcastInDim S1600000 ![] bcast_S_S1600000 (constant (F := Ideal) S_ .f32 0x3F800000#32)))
      (broadcastInDim S100000 ![] bcast_S_S100000 (constant (F := Ideal) S_ .f32 0x3F800000#32)))

/-- A vector over the nodes laid out as a one-column matrix. -/
def asColumn {α : Type} (v : S100000.Idx → α) : S100000x1.Idx → α :=
  broadcastInDim S100000x1 ![0] bcast_S100000_S100000x1_0 v

/-- An edge's source index wrapped into range: a negative index has the node count added. -/
def wrapIndex (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32)))
    src

/-- One round of edge aggregation: row `e` of the gathered matrix is the feature row of edge
    `e`'s (wrapped) source node, and the rows are summed into a zero matrix at the edges'
    destination nodes. -/
def aggregate (y : FVec Ideal S100000x128 .f32) (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 y
      (broadcastInDim S1600000x1 ![0] bcast_S1600000_S1600000x1_0 (wrapIndex src)))

/-! ## The reference's stages are these functions of its earlier stages

Each is the unfolding of the stage's definition; the operands' terms are never opened. -/

theorem ref_v9 (x1 : IVec S1600000 32) : Cert.ReferenceIdeal.Read.val_main_v9 (F := Ideal) x1 = degNorm x1 := rfl
theorem ref_v12 (x2 : IVec S1600000 32) : Cert.ReferenceIdeal.Read.val_main_v12 (F := Ideal) x2 = degNorm x2 := rfl
theorem ref_v14 (x1 : IVec S1600000 32) :
    Cert.ReferenceIdeal.Read.val_main_v14 (F := Ideal) x1 = asColumn (Cert.ReferenceIdeal.Read.val_main_v9 (F := Ideal) x1) := rfl
theorem ref_v27 (x2 : IVec S1600000 32) :
    Cert.ReferenceIdeal.Read.val_main_v27 (F := Ideal) x2 = asColumn (Cert.ReferenceIdeal.Read.val_main_v12 (F := Ideal) x2) := rfl
theorem ref_v35 (x1 : IVec S1600000 32) :
    Cert.ReferenceIdeal.Read.val_main_v35 (F := Ideal) x1 = asColumn (Cert.ReferenceIdeal.Read.val_main_v9 (F := Ideal) x1) := rfl
theorem ref_v48 (x2 : IVec S1600000 32) :
    Cert.ReferenceIdeal.Read.val_main_v48 (F := Ideal) x2 = asColumn (Cert.ReferenceIdeal.Read.val_main_v12 (F := Ideal) x2) := rfl
theorem ref_v56 (x1 : IVec S1600000 32) :
    Cert.ReferenceIdeal.Read.val_main_v56 (F := Ideal) x1 = asColumn (Cert.ReferenceIdeal.Read.val_main_v9 (F := Ideal) x1) := rfl
theorem ref_v69 (x2 : IVec S1600000 32) :
    Cert.ReferenceIdeal.Read.val_main_v69 (F := Ideal) x2 = asColumn (Cert.ReferenceIdeal.Read.val_main_v12 (F := Ideal) x2) := rfl
theorem ref_v77 (x3 : IVec S100000 32) : Cert.ReferenceIdeal.Read.val_main_v77 (F := Ideal) x3 = asColumn x3 := rfl

theorem ref_v26 (x0 : S100000x128.Idx → EReal) (x1 x2 : IVec S1600000 32) (x4 : S128x128.Idx → EReal) :
    Cert.ReferenceIdeal.Read.val_main_v26 (F := Ideal) x0 x1 x2 x4
      = aggregate (Cert.ReferenceIdeal.Read.val_main_v16 (F := Ideal) x0 x1 x4) x1 x2 := rfl
theorem ref_v47 (x0 : S100000x128.Idx → EReal) (x1 x2 : IVec S1600000 32) (x4 : S128x128.Idx → EReal)
    (x5 : S128.Idx → EReal) (x6 : S128x128.Idx → EReal) :
    Cert.ReferenceIdeal.Read.val_main_v47 (F := Ideal) x0 x1 x2 x4 x5 x6
      = aggregate (Cert.ReferenceIdeal.Read.val_main_v37 (F := Ideal) x0 x1 x2 x4 x5 x6) x1 x2 := rfl
theorem ref_v68 (x0 : S100000x128.Idx → EReal) (x1 x2 : IVec S1600000 32) (x4 : S128x128.Idx → EReal)
    (x5 : S128.Idx → EReal) (x6 : S128x128.Idx → EReal) (x7 : S128.Idx → EReal) (x8 : S128x128.Idx → EReal) :
    Cert.ReferenceIdeal.Read.val_main_v68 (F := Ideal) x0 x1 x2 x4 x5 x6 x7 x8
      = aggregate (Cert.ReferenceIdeal.Read.val_main_v58 (F := Ideal) x0 x1 x2 x4 x5 x6 x7 x8) x1 x2 := rfl

/-! ## What the kernel program's host stretches leave, as the same functions of what they read

Each stretch is run operation by operation from any contents `W` of the buffers; what is left in
a buffer is the composition of the operations that fed it, which is one of the functions above at
the contents of the buffers the stretch reads. The widening of the gathered rows from the 16-bit
to the 32-bit format is the identity on the extended reals, so the gathered matrix is the same
function of the same rows at either format. -/

theorem ker0_v9 (W : Valuation τ sig (Elt Ideal)) :
    StableHlo.after hostOps0 W (d main_v9) = degNorm (W (d main_arg1)) := by
  show StableHlo.after hostOps0 W (Proc.devRef .tc main_v9) = _
  dsimp only [hostOps0]
  after_results_simp
  rfl

theorem ker0_v12 (W : Valuation τ sig (Elt Ideal)) :
    StableHlo.after hostOps0 W (d main_v12) = degNorm (W (d main_arg2)) := by
  show StableHlo.after hostOps0 W (Proc.devRef .tc main_v12) = _
  dsimp only [hostOps0]
  after_results_simp
  rfl

theorem ker0_v13 (W : Valuation τ sig (Elt Ideal)) :
    StableHlo.after hostOps0 W (d main_v13) = asColumn (degNorm (W (d main_arg1))) := by
  show StableHlo.after hostOps0 W (Proc.devRef .tc main_v13) = _
  dsimp only [hostOps0]
  after_results_simp
  rfl

theorem ker1_v25 (W : Valuation τ sig (Elt Ideal)) :
    StableHlo.after hostOps1 W (d main_v25) = aggregate (W (d main_v14)) (W (d main_arg1)) (W (d main_arg2)) := by
  show StableHlo.after hostOps1 W (Proc.devRef .tc main_v25) = _
  dsimp only [hostOps1]
  after_results_simp
  rfl

theorem ker1_v26 (W : Valuation τ sig (Elt Ideal)) :
    StableHlo.after hostOps1 W (d main_v26) = asColumn (W (d main_v12)) := by
  show StableHlo.after hostOps1 W (Proc.devRef .tc main_v26) = _
  dsimp only [hostOps1]
  after_results_simp
  rfl

theorem ker1_v27 (W : Valuation τ sig (Elt Ideal)) :
    StableHlo.after hostOps1 W (d main_v27) = asColumn (W (d main_v9)) := by
  show StableHlo.after hostOps1 W (Proc.devRef .tc main_v27) = _
  dsimp only [hostOps1]
  after_results_simp
  rfl

theorem ker2_v39 (W : Valuation τ sig (Elt Ideal)) :
    StableHlo.after hostOps2 W (d main_v39) = aggregate (W (d main_v28)) (W (d main_arg1)) (W (d main_arg2)) := by
  show StableHlo.after hostOps2 W (Proc.devRef .tc main_v39) = _
  dsimp only [hostOps2]
  after_results_simp
  rfl

theorem ker2_v40 (W : Valuation τ sig (Elt Ideal)) :
    StableHlo.after hostOps2 W (d main_v40) = asColumn (W (d main_v12)) := by
  show StableHlo.after hostOps2 W (Proc.devRef .tc main_v40) = _
  dsimp only [hostOps2]
  after_results_simp
  rfl

theorem ker2_v41 (W : Valuation τ sig (Elt Ideal)) :
    StableHlo.after hostOps2 W (d main_v41) = asColumn (W (d main_v9)) := by
  show StableHlo.after hostOps2 W (Proc.devRef .tc main_v41) = _
  dsimp only [hostOps2]
  after_results_simp
  rfl

theorem ker3_v53 (W : Valuation τ sig (Elt Ideal)) :
    StableHlo.after hostOps3 W (d main_v53) = aggregate (W (d main_v42)) (W (d main_arg1)) (W (d main_arg2)) := by
  show StableHlo.after hostOps3 W (Proc.devRef .tc main_v53) = _
  dsimp only [hostOps3]
  after_results_simp
  rfl

theorem ker3_v55 (W : Valuation τ sig (Elt Ideal)) :
    StableHlo.after hostOps3 W (d main_v55) = asColumn (W (d main_v12)) := by
  show StableHlo.after hostOps3 W (Proc.devRef .tc main_v55) = _
  dsimp only [hostOps3]
  after_results_simp
  rfl

theorem ker3_v54 (W : Valuation τ sig (Elt Ideal)) :
    StableHlo.after hostOps3 W (d main_v54) = asColumn (W (d main_arg3)) := by
  show StableHlo.after hostOps3 W (Proc.devRef .tc main_v54) = _
  dsimp only [hostOps3]
  after_results_simp
  rfl

end HostA

open HostA

/-! ## The stretches against the reference's stages -/

/-- After the first stretch the source-degree norm, as a column, is the reference's. -/
theorem h0_v13 (W : Valuation τ sig (Elt Ideal)) :
    StableHlo.after hostOps0 W (d main_v13) = Cert.ReferenceIdeal.Read.val_main_v14 (F := Ideal) (W (d main_arg1)) := by
  rw [ker0_v13, ref_v14, ref_v9]

/-- After the first stretch the source-degree norm is the reference's. -/
theorem h0_v9 (W : Valuation τ sig (Elt Ideal)) :
    StableHlo.after hostOps0 W (d main_v9) = Cert.ReferenceIdeal.Read.val_main_v9 (F := Ideal) (W (d main_arg1)) := by
  rw [ker0_v9, ref_v9]

/-- After the first stretch the destination-degree norm is the reference's. -/
theorem h0_v12 (W : Valuation τ sig (Elt Ideal)) :
    StableHlo.after hostOps0 W (d main_v12) = Cert.ReferenceIdeal.Read.val_main_v12 (F := Ideal) (W (d main_arg2)) := by
  rw [ker0_v12, ref_v12]

/-- The first aggregation round: from the first layer's scaled product, the aggregated features
    and the two norm columns are the reference's. -/
theorem h1 (W : Valuation τ sig (Elt Ideal))
    (x0 : S100000x128.Idx → EReal) (x1 x2 : IVec S1600000 32) (x4 : S128x128.Idx → EReal)
    (h14 : W (d main_v14) = Cert.ReferenceIdeal.Read.val_main_v16 (F := Ideal) x0 x1 x4)
    (h1 : W (d main_arg1) = x1) (h2 : W (d main_arg2) = x2)
    (h9 : W (d main_v9) = Cert.ReferenceIdeal.Read.val_main_v9 (F := Ideal) x1)
    (h12 : W (d main_v12) = Cert.ReferenceIdeal.Read.val_main_v12 (F := Ideal) x2) :
    StableHlo.after hostOps1 W (d main_v25) = Cert.ReferenceIdeal.Read.val_main_v26 (F := Ideal) x0 x1 x2 x4
    ∧ StableHlo.after hostOps1 W (d main_v26) = Cert.ReferenceIdeal.Read.val_main_v27 (F := Ideal) x2
    ∧ StableHlo.after hostOps1 W (d main_v27) = Cert.ReferenceIdeal.Read.val_main_v35 (F := Ideal) x1 := by
  refine ⟨?_, ?_, ?_⟩
  · rw [ker1_v25, h14, h1, h2, ref_v26]
  · rw [ker1_v26, h12, ref_v27]
  · rw [ker1_v27, h9, ref_v35]

/-- The second aggregation round, from the second layer's output. -/
theorem h2 (W : Valuation τ sig (Elt Ideal))
    (x0 : S100000x128.Idx → EReal) (x1 x2 : IVec S1600000 32) (x4 : S128x128.Idx → EReal)
    (x5 : S128.Idx → EReal) (x6 : S128x128.Idx → EReal)
    (h28 : W (d main_v28) = Cert.ReferenceIdeal.Read.val_main_v37 (F := Ideal) x0 x1 x2 x4 x5 x6)
    (h1 : W (d main_arg1) = x1) (h2 : W (d main_arg2) = x2)
    (h9 : W (d main_v9) = Cert.ReferenceIdeal.Read.val_main_v9 (F := Ideal) x1)
    (h12 : W (d main_v12) = Cert.ReferenceIdeal.Read.val_main_v12 (F := Ideal) x2) :
    StableHlo.after hostOps2 W (d main_v39) = Cert.ReferenceIdeal.Read.val_main_v47 (F := Ideal) x0 x1 x2 x4 x5 x6
    ∧ StableHlo.after hostOps2 W (d main_v40) = Cert.ReferenceIdeal.Read.val_main_v48 (F := Ideal) x2
    ∧ StableHlo.after hostOps2 W (d main_v41) = Cert.ReferenceIdeal.Read.val_main_v56 (F := Ideal) x1 := by
  refine ⟨?_, ?_, ?_⟩
  · rw [ker2_v39, h28, h1, h2, ref_v47]
  · rw [ker2_v40, h12, ref_v48]
  · rw [ker2_v41, h9, ref_v56]

/-- The third aggregation round, from the third layer's input; beside it the destination norm
    and the nodes' graph indices as columns. -/
theorem h3 (W : Valuation τ sig (Elt Ideal))
    (x0 : S100000x128.Idx → EReal) (x1 x2 : IVec S1600000 32) (x3 : IVec S100000 32) (x4 : S128x128.Idx → EReal)
    (x5 : S128.Idx → EReal) (x6 : S128x128.Idx → EReal) (x7 : S128.Idx → EReal) (x8 : S128x128.Idx → EReal)
    (h42 : W (d main_v42) = Cert.ReferenceIdeal.Read.val_main_v58 (F := Ideal) x0 x1 x2 x4 x5 x6 x7 x8)
    (h1 : W (d main_arg1) = x1) (h2 : W (d main_arg2) = x2) (h3 : W (d main_arg3) = x3)
    (h12 : W (d main_v12) = Cert.ReferenceIdeal.Read.val_main_v12 (F := Ideal) x2) :
    StableHlo.after hostOps3 W (d main_v53) = Cert.ReferenceIdeal.Read.val_main_v68 (F := Ideal) x0 x1 x2 x4 x5 x6 x7 x8
    ∧ StableHlo.after hostOps3 W (d main_v55) = Cert.ReferenceIdeal.Read.val_main_v69 (F := Ideal) x2
    ∧ StableHlo.after hostOps3 W (d main_v54) = Cert.ReferenceIdeal.Read.val_main_v77 (F := Ideal) x3 := by
  refine ⟨?_, ?_, ?_⟩
  · rw [ker3_v53, h42, h1, h2, ref_v68]
  · rw [ker3_v55, h12, ref_v69]
  · rw [ker3_v54, h3, ref_v77]

end Cert.Bridge
-- ==== Proof.Host.B.lean ====
import proofs.«417676_j6554120093878_3_alg».proof.Proof.Gen.KernelIdeal.Launch
import proofs.«417676_j6554120093878_3_alg».proof.Proof.Gen.ReferenceIdeal.Read
import Idealize.ShloMosaic.Lib.StableHlo.Run
import Idealize.ShloMosaic.Lib.StableHlo.Predicate
import Idealize.ShloMosaic.Lib.Affine
import Idealize.ShloMosaic.PureOps.Ideal
import Idealize.ShloMosaic.PureOps.Ideal.Laws
import Mathlib.Algebra.BigOperators.Fin
import Mathlib.Data.BitVec

/-!
# The mean pool's divisor: node counts per graph, kernel against reference

The kernel counts the nodes of each of the 256 graphs in 32-bit integers: it clips every graph id to
`[0, ∞)`, wraps a negative id by the bin count (never taken after the clip), scatters a one into a zero
vector of 256 bins at each id (ids outside `0 … 255` are dropped), and converts the integer counts to
floats. The reference scatters float ones into float zeros at the raw ids. When every id is
nonnegative the clip and the wrap are the identity, so both scatters visit the same bins; a bin's
integer count is the number of nodes with that id, at most 100000, so the 32-bit sum does not wrap and
its signed reading, as a real number, is the sum of that many real ones. The remaining operations
(maximum with one, two broadcasts, the division of the pooled sums) are the same on both sides.
-/

set_option maxRecDepth 1136

noncomputable section

namespace Cert.Bridge

open Idealize.ShloMosaic Idealize.ShloMosaic.TcCoe Idealize.SL.Sem Idealize.ShloMosaic.StableHlo
open Cert.KernelIdeal Cert.KernelIdeal.Gen

/-! ## An integer scatter-add is a sum over the updates that land -/

section ScatterSum
variable {s si u : Shape} {w : Nat}

/-- The scatter's fold at a fixed result index `i`, over any list of update positions: the operand's entry
    plus, for each position of the list whose update lands on `i`, that update. -/
theorem scatter_fold_addi (d : ScatterDims s si u) (idx : IVec si w) (upd : u.Idx → BitVec 32) (i : s.Idx) :
    ∀ (l : List (Fin u.numel)) (x : s.Idx → BitVec 32),
      (l.foldl (fun r n =>
          match d.resultIdx? (u.rowMajor.symm n) idx with
          | some i0 => fun i' => if i' = i0 then IntOp.addi (r i0) (upd (u.rowMajor.symm n)) else r i'
          | none => r) x) i
        = x i + (l.map fun n => if d.resultIdx? (u.rowMajor.symm n) idx = some i then upd (u.rowMajor.symm n) else 0).sum
  | [], x => by simp
  | a :: l, x => by
    rw [List.foldl_cons, scatter_fold_addi d idx upd i l, List.map_cons, List.sum_cons, ← add_assoc]
    congr 1
    cases h : d.resultIdx? (u.rowMajor.symm a) idx with
    | none => simp
    | some i0 =>
      by_cases hi : i = i0
      · subst hi; simp [IntOp.addi]
      · have : ¬ (some i0 = some i) := fun e => hi (Option.some.inj e).symm
        simp [hi, this]

/-- An integer scatter with an `add` body: each operand element plus the sum (in 32-bit words) of the
    updates whose result index is that element. -/
theorem scatter_addi_eq_sum (d : ScatterDims s si u) (x : s.Idx → BitVec 32) (idx : IVec si w) (upd : u.Idx → BitVec 32)
    (i : s.Idx) :
    Host.scatter d IntOp.addi x idx upd i
      = x i + ∑ j ∈ Finset.univ.filter (fun j => d.resultIdx? j idx = some i), upd j := by
  unfold Host.scatter
  refine (scatter_fold_addi d idx upd i _ x).trans ?_
  rw [← Fin.sum_univ_def, Finset.sum_filter]
  congr 1
  exact Equiv.sum_comp u.rowMajor.symm (fun j => if d.resultIdx? j idx = some i then upd j else 0)

end ScatterSum

/-! ## Words and sums of ones -/

/-- On a nonnegative word the clip to `[0, ∞)` and the wrap of a negative index by the bin count are both the identity. -/
theorem wrap_of_nonneg (a : BitVec 32) (ha : 0 ≤ a.toInt) :
    Scalar.select (IntOp.cmpi .slt (IntOp.maxsi 0#32 a) 0#32) (IntOp.addi (IntOp.maxsi 0#32 a) 256#32) (IntOp.maxsi 0#32 a) = a := by
  have h0 : (0#32 : BitVec 32).toInt = 0 := by decide
  have hm : IntOp.maxsi 0#32 a = a := by
    unfold IntOp.maxsi
    rw [if_neg]
    rw [Bool.not_eq_true, ← Bool.not_eq_true, BitVec.slt_iff_toInt_lt, h0]
    omega
  rw [hm]
  have hc : ¬ IntOp.cmpi .slt a 0#32 = 1#1 := by
    intro h
    have := IntOp.cmpi_slt.1 h
    rw [h0] at this
    omega
  unfold Scalar.select
  exact if_neg hc

/-- A sum of ones over a set of fewer than `2³¹` elements, in 32-bit words, reads signed as the set's size. -/
theorem toInt_sum_ones {ι : Type} (S : Finset ι) (hS : S.card < 2 ^ 31) :
    (∑ _j ∈ S, (1#32 : BitVec 32)).toInt = S.card := by
  have e : (∑ _j ∈ S, (1#32 : BitVec 32)) = BitVec.ofNat 32 S.card := by
    rw [Finset.sum_const, show (1#32 : BitVec 32) = 1 from rfl, nsmul_one, BitVec.natCast_eq_ofNat]
  rw [e, StableHlo.Predicate.toInt_ofNat_small _ hS]

/-- A sum of ones in the extended reals is the set's size. -/
theorem ereal_sum_ones {ι : Type} (S : Finset ι) : (∑ _j ∈ S, (1 : EReal)) = ((S.card : ℝ) : EReal) := by
  rw [Finset.sum_const, nsmul_one]
  exact (EReal.coe_natCast (n := S.card)).symm

/-- The f32 word `0x3F800000` is the real number one. -/
theorem ofBits_one_f32 : Ideal.ofBits .f32 0x3F800000#32 = 1 := by
  simp [Ideal.ofBits, Ideal.ieee, -EReal.coe_mul]; norm_num

/-- A shape has as many indices as elements. -/
theorem card_idx (u : Shape) : Fintype.card u.Idx = u.numel := by
  rw [Fintype.card_congr u.rowMajor, Fintype.card_fin]

/-! ## The three host stretches, one operation at a time -/

local notation "d" => Proc.devRef (τ := τ) (sig := sig) (Proc.tc : Proc τ)

/-- The first stretch writes the zero counts and a zero scalar, and leaves the graph ids and the pooled sums. -/
theorem after4_v57 (V : Valuation τ sig (Elt Ideal)) :
    StableHlo.after (hostOps4 (F := Ideal)) V (d main_v57) = broadcastInDim S256 ![] bcast_S_S256 (constantI S_ 32 0#32) := by
  after_results
theorem after4_c13 (V : Valuation τ sig (Elt Ideal)) :
    StableHlo.after (hostOps4 (F := Ideal)) V (d main_c_13) = constantI S_ 32 0#32 := by
  after_results
theorem after4_arg3 (V : Valuation τ sig (Elt Ideal)) :
    StableHlo.after (hostOps4 (F := Ideal)) V (d main_arg3) = V (d main_arg3) := by
  after_results
theorem after4_v56 (V : Valuation τ sig (Elt Ideal)) :
    StableHlo.after (hostOps4 (F := Ideal)) V (d main_v56) = V (d main_v56) := by
  after_results

/-- The second stretch clips the graph ids below at the zero scalar, and leaves the zero counts and the pooled sums. -/
theorem after41_v58 (V : Valuation τ sig (Elt Ideal)) :
    StableHlo.after (hostOps4_1 (F := Ideal)) V (d main_v58)
      = maxsi (broadcastInDim S100000 ![] bcast_S_S100000 (V (d main_c_13))) (V (d main_arg3)) := by
  after_results; rfl
theorem after41_v57 (V : Valuation τ sig (Elt Ideal)) :
    StableHlo.after (hostOps4_1 (F := Ideal)) V (d main_v57) = V (d main_v57) := by
  after_results
theorem after41_v56 (V : Valuation τ sig (Elt Ideal)) :
    StableHlo.after (hostOps4_1 (F := Ideal)) V (d main_v56) = V (d main_v56) := by
  after_results

/-- The clipped ids with the wrap of negative ones applied, as the scatter's index column. -/
abbrev binIdx (v58 : IVec S100000 32) : IVec S100000x1 32 :=
  broadcastInDim S100000x1 ![0] bcast_S100000_S100000x1_0
    (select (cmpi .slt v58 (broadcastInDim S100000 ![] bcast_S_S100000 (constantI S_ 32 0#32)))
      (addi v58 (broadcastInDim S100000 ![] bcast_S_S100000 (constantI S_ 32 256#32)))
      v58)

/-- The integer counts: ones scattered into `z` at the bins `binIdx v58`. -/
abbrev binCount (z : IVec S256 32) (v58 : IVec S100000 32) : IVec S256 32 :=
  Host.scatter scatter_S256_S100000x1_S100000_n_0_0_1 IntOp.addi z (binIdx v58)
    (broadcastInDim S100000 ![] bcast_S_S100000 (constantI S_ 32 1#32))

/-- The pooled sums `p` divided, row by row, by the float of `cnt` raised to at least one. -/
abbrev meanOf (p : FVec Ideal S256x128 .f32) (cnt : FVec Ideal S256 .f32) : FVec Ideal S256x128 .f32 :=
  Host.divf p
    (broadcastInDim S256x128 ![0, 1] bcast_S256x1_S256x128_0_1
      (broadcastInDim S256x1 ![0] bcast_S256_S256x1_0
        (maximumf cnt (broadcastInDim S256 ![] bcast_S_S256 (constant (F := Ideal) S_ .f32 0x3F800000#32)))))

/-- The third stretch: wrap, scatter the ones, convert, raise to at least one, broadcast, divide. -/
theorem after42_v72 (V : Valuation τ sig (Elt Ideal)) :
    StableHlo.after (hostOps4_2 (F := Ideal)) V (d main_v72)
      = meanOf (V (d main_v56)) (sitofp .f32 (binCount (V (d main_v57)) (V (d main_v58)))) := by
  after_results_simp

/-! ## The counts agree -/

/-- Under nonnegative ids the clipped and wrapped index column is the reference's: the raw ids as a column. -/
theorem binIdx_eq (x3 : IVec S100000 32) (hpos : ∀ i, 0 ≤ (x3 i).toInt) :
    binIdx (maxsi (broadcastInDim S100000 ![] bcast_S_S100000 (constantI S_ 32 0#32)) x3)
      = Cert.ReferenceIdeal.Read.val_main_v81 (F := Ideal) x3 := by
  have e : select
      (cmpi .slt (maxsi (broadcastInDim S100000 ![] bcast_S_S100000 (constantI S_ 32 0#32)) x3)
        (broadcastInDim S100000 ![] bcast_S_S100000 (constantI S_ 32 0#32)))
      (addi (maxsi (broadcastInDim S100000 ![] bcast_S_S100000 (constantI S_ 32 0#32)) x3)
        (broadcastInDim S100000 ![] bcast_S_S100000 (constantI S_ 32 256#32)))
      (maxsi (broadcastInDim S100000 ![] bcast_S_S100000 (constantI S_ 32 0#32)) x3) = x3 := by
    funext j
    exact wrap_of_nonneg (x3 j) (hpos j)
  unfold binIdx
  rw [e]
  rfl

/-- The kernel's integer count of each graph's nodes, read as a real, is the reference's float count. -/
theorem counts_eq (x3 : IVec S100000 32) (hpos : ∀ i, 0 ≤ (x3 i).toInt) :
    sitofp (F := Ideal) .f32
        (binCount (broadcastInDim S256 ![] bcast_S_S256 (constantI S_ 32 0#32))
          (maxsi (broadcastInDim S100000 ![] bcast_S_S100000 (constantI S_ 32 0#32)) x3))
      = Cert.ReferenceIdeal.Read.val_main_v82 (F := Ideal) x3 := by
  funext g
  -- the set of nodes whose id is the bin `g`
  let S : Finset S100000.Idx := Finset.univ.filter fun j =>
    scatter_S256_S100000x1_S100000_n_0_0_1.resultIdx? j (Cert.ReferenceIdeal.Read.val_main_v81 (F := Ideal) x3) = some g
  have hS : S.card < 2 ^ 31 := by
    have h1 : S.card ≤ Fintype.card S100000.Idx := (Finset.card_filter_le _ _).trans_eq Finset.card_univ
    rw [card_idx] at h1
    have h2 : S100000.numel = 100000 := by decide
    omega
  -- the kernel's side: the integer sum of ones over that set, read signed
  have hK : (binCount (broadcastInDim S256 ![] bcast_S_S256 (constantI S_ 32 0#32))
      (maxsi (broadcastInDim S100000 ![] bcast_S_S100000 (constantI S_ 32 0#32)) x3) g).toInt = S.card := by
    unfold binCount
    rw [binIdx_eq x3 hpos, scatter_addi_eq_sum]
    show ((0#32 : BitVec 32) + ∑ _j ∈ S, (1#32 : BitVec 32)).toInt = S.card
    rw [BitVec.zero_add, toInt_sum_ones S hS]
  -- the reference's side: the extended-real sum of ones over the same set
  have hR : Cert.ReferenceIdeal.Read.val_main_v82 (F := Ideal) x3 g = ((S.card : ℝ) : EReal) := by
    unfold Cert.ReferenceIdeal.Read.val_main_v82
    show Ideal.ofBits .f32 0x00000000#32 + ∑ _j ∈ S, Ideal.ofBits .f32 0x3F800000#32 = _
    rw [Ideal.ofBits_zero_f32, zero_add, ofBits_one_f32, ereal_sum_ones]
  rw [hR]
  show (((binCount _ _ g).toInt : ℝ) : EReal) = _
  rw [hK, Int.cast_natCast]

/-! ## The stretch against the reference's stages -/

/-- With the pooled sums in place and every graph id nonnegative, the kernel's three host stretches leave in the
    mean-pool buffer what the reference's divide stage computes. -/
theorem h4 (W : Valuation τ sig (Elt Ideal))
    (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S100000, .i32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S128x128, .f32⟩ : BufTy).Contents (Elt Ideal))
    (x7 : (⟨Cert.ReferenceIdeal.S128, .f32⟩ : BufTy).Contents (Elt Ideal))
    (x8 : (⟨Cert.ReferenceIdeal.S128x128, .f32⟩ : BufTy).Contents (Elt Ideal))
    (x9 : (⟨Cert.ReferenceIdeal.S128, .f32⟩ : BufTy).Contents (Elt Ideal))
    (h56 : W (Proc.devRef (τ := τ) .tc main_v56) = Cert.ReferenceIdeal.Read.val_main_v78 (F := Ideal) x0 x1 x2 x3 x4 x5 x6 x7 x8 x9)
    (h3 : W (Proc.devRef (τ := τ) .tc main_arg3) = x3)
    (hpos : ∀ i, 0 ≤ (x3 i).toInt) :
    StableHlo.after (hostOps4_2 (F := Ideal)) (StableHlo.after (hostOps4_1 (F := Ideal)) (StableHlo.after (hostOps4 (F := Ideal)) W))
        (Proc.devRef (τ := τ) .tc main_v72)
      = Cert.ReferenceIdeal.Read.val_main_v87 (F := Ideal) x0 x1 x2 x3 x4 x5 x6 x7 x8 x9 := by
  rw [after42_v72, after41_v56, after41_v57, after41_v58, after4_v56, after4_v57, after4_c13, after4_arg3, h56, h3]
  exact congrArg (meanOf (Cert.ReferenceIdeal.Read.val_main_v78 (F := Ideal) x0 x1 x2 x3 x4 x5 x6 x7 x8 x9)) (counts_eq x3 hpos)

end Cert.Bridge

end
-- ==== Proof.Host.Pre.lean ====
import proofs.«417676_j6554120093878_3_alg».proof.Pre_finite_inputs
import Idealize.ShloMosaic.Lib.ReduceAll
import Idealize.ShloMosaic.PureOps.Ideal

/-!
# The precondition read back: every graph id is nonnegative

The printed precondition is a conjunction (a chain of `and`s of `i1` scalars) whose last conjunct is
the `and`-reduction over all 100000 positions of the comparison `node2graph ≥ 0` (signed, against a
broadcast zero). If the whole predicate is 1, that last conjunct is 1, so the comparison is 1 at every
position, which says `0 ≤ node2graph i` read as a signed integer.
-/

namespace Cert.Bridge

open Idealize.ShloMosaic
open Cert.Pre_finite_inputs

/-- The rank-0 shape has one index. -/
instance subsingleton_scalar_idx : Subsingleton S_.Idx := ⟨fun a b => funext fun d => d.elim0⟩

/-- The predicate's last conjunct, decoded: under the precondition every entry of the fourth
    argument (the graph id of each node), read signed, is at least 0. -/
theorem pre_n2g [Facts]
    (a0 : FVec Ideal S100000x128 .f32) (a1 : IVec S1600000 32) (a2 : IVec S1600000 32) (a3 : IVec S100000 32)
    (a4 : FVec Ideal S128x128 .f32) (a5 : FVec Ideal S128 .f32) (a6 : FVec Ideal S128x128 .f32)
    (a7 : FVec Ideal S128 .f32) (a8 : FVec Ideal S128x128 .f32) (a9 : FVec Ideal S128 .f32)
    (a10 : FVec Ideal S128x256 .f32) (a11 : FVec Ideal S256 .f32) (a12 : FVec Ideal S256x256 .f32)
    (a13 : FVec Ideal S256 .f32) (a14 : FVec Ideal S256x8 .f32) (a15 : FVec Ideal S8 .f32)
    (h : fn (F := Ideal) a0 a1 a2 a3 a4 a5 a6 a7 a8 a9 a10 a11 a12 a13 a14 a15 = fun _ => 1#1) :
    ∀ i, 0 ≤ (a3 i).toInt := by
  intro i
  -- the predicate at its one index: an `and` whose right operand is the last conjunct
  have h0 := congrFun h (fun d => Fin.elim0 d)
  dsimp only [fn, fn_part1, fn_part2, fn_part3, andi] at h0
  -- the last conjunct is 1, so the compared bit is 1 at `i`
  have h1 := Host.reduce_andi_all _ _ _ _ _ (IntOp.andi_eq_one.1 h0).2 i
  -- the bit is the signed comparison of the entry with a broadcast 0
  have h2 : (0#32 : BitVec 32).toInt ≤ (a3 i).toInt := IntOp.cmpi_sge.1 h1
  simpa using h2

end Cert.Bridge
-- ==== Proof.Chain.lean ====
import proofs.«417676_j6554120093878_3_alg».proof.Proof.KI.Run
import proofs.«417676_j6554120093878_3_alg».proof.Proof.KI.V0
import proofs.«417676_j6554120093878_3_alg».proof.Proof.KI.V1
import proofs.«417676_j6554120093878_3_alg».proof.Proof.KI.V2
import proofs.«417676_j6554120093878_3_alg».proof.Proof.KI.V3
import proofs.«417676_j6554120093878_3_alg».proof.Proof.KI.V4
import proofs.«417676_j6554120093878_3_alg».proof.Proof.Host.A
import proofs.«417676_j6554120093878_3_alg».proof.Proof.Host.B
import proofs.«417676_j6554120093878_3_alg».proof.Proof.Host.Pre

/-! # The idealized kernel's result is the reference's last stage

The buffers' contents are followed through @main, boundary by boundary: the degree norms, then three times
"a region's output array is the reference's scaled product, and the edge gather / scatter-add of it is the
reference's aggregate", then the pooled sums, the per-graph division (where the counts agree because no
node's graph id is negative) and the classifier. Every step cites one stage lemma; what a step does not
write is carried by the keep-lemmas of the fold. -/

noncomputable section

namespace Cert.KernelIdeal.HandV

open Idealize.ShloMosaic Idealize.ShloMosaic.TcCoe Idealize.SL.Sem
open Cert.KernelIdeal Cert.KernelIdeal.Gen Cert.KernelIdeal.Hand Cert.Bridge

variable (m : (ℓ : Loc nD τ sig) → Buf (Elt Ideal) ℓ) (c : Dev nD)

/-! ## What no item writes: the arguments at every boundary -/

theorem W1_arg (r : Ref sig .tc) (h0 : r ∉ hostOps0_W) : W1 m c (Proc.devRef (τ := τ) .tc r) = m ((c.tc : Thread nD τ).loc r) :=
  (W1_keep m c r h0).trans (W0_eq m c r)
theorem W2_arg (r : Ref sig .tc) (h0 : r ∉ hostOps0_W) (h2 : r ≠ main_v14) : W2 m c (Proc.devRef (τ := τ) .tc r) = m ((c.tc : Thread nD τ).loc r) :=
  (W2_keep m c r h2).trans (W1_arg m c r h0)
theorem W3_arg (r : Ref sig .tc) (h0 : r ∉ hostOps0_W) (h2 : r ≠ main_v14) (h3 : r ∉ hostOps1_W) : W3 m c (Proc.devRef (τ := τ) .tc r) = m ((c.tc : Thread nD τ).loc r) :=
  (W3_keep m c r h3).trans (W2_arg m c r h0 h2)
theorem W4_arg (r : Ref sig .tc) (h0 : r ∉ hostOps0_W) (h2 : r ≠ main_v14) (h3 : r ∉ hostOps1_W) (h4 : r ≠ main_v28) :
    W4 m c (Proc.devRef (τ := τ) .tc r) = m ((c.tc : Thread nD τ).loc r) :=
  (W4_keep m c r h4).trans (W3_arg m c r h0 h2 h3)
theorem W5_arg (r : Ref sig .tc) (h0 : r ∉ hostOps0_W) (h2 : r ≠ main_v14) (h3 : r ∉ hostOps1_W) (h4 : r ≠ main_v28)
    (h5 : r ∉ hostOps2_W) : W5 m c (Proc.devRef (τ := τ) .tc r) = m ((c.tc : Thread nD τ).loc r) :=
  (W5_keep m c r h5).trans (W4_arg m c r h0 h2 h3 h4)
theorem W6_arg (r : Ref sig .tc) (h0 : r ∉ hostOps0_W) (h2 : r ≠ main_v14) (h3 : r ∉ hostOps1_W) (h4 : r ≠ main_v28)
    (h5 : r ∉ hostOps2_W) (h6 : r ≠ main_v42) : W6 m c (Proc.devRef (τ := τ) .tc r) = m ((c.tc : Thread nD τ).loc r) :=
  (W6_keep m c r h6).trans (W5_arg m c r h0 h2 h3 h4 h5)
theorem W7_arg (r : Ref sig .tc) (h0 : r ∉ hostOps0_W) (h2 : r ≠ main_v14) (h3 : r ∉ hostOps1_W) (h4 : r ≠ main_v28)
    (h5 : r ∉ hostOps2_W) (h6 : r ≠ main_v42) (h7 : r ∉ hostOps3_W) : W7 m c (Proc.devRef (τ := τ) .tc r) = m ((c.tc : Thread nD τ).loc r) :=
  (W7_keep m c r h7).trans (W6_arg m c r h0 h2 h3 h4 h5 h6)
theorem W8_arg (r : Ref sig .tc) (h0 : r ∉ hostOps0_W) (h2 : r ≠ main_v14) (h3 : r ∉ hostOps1_W) (h4 : r ≠ main_v28)
    (h5 : r ∉ hostOps2_W) (h6 : r ≠ main_v42) (h7 : r ∉ hostOps3_W) (h8 : r ≠ main_v56) : W8 m c (Proc.devRef (τ := τ) .tc r) = m ((c.tc : Thread nD τ).loc r) :=
  (W8_keep m c r h8).trans (W7_arg m c r h0 h2 h3 h4 h5 h6 h7)
theorem W11_arg (r : Ref sig .tc) (h0 : r ∉ hostOps0_W) (h2 : r ≠ main_v14) (h3 : r ∉ hostOps1_W) (h4 : r ≠ main_v28)
    (h5 : r ∉ hostOps2_W) (h6 : r ≠ main_v42) (h7 : r ∉ hostOps3_W) (h8 : r ≠ main_v56) (h9 : r ∉ hostOps4_W)
    (h10 : r ∉ hostOps4_1_W) (h11 : r ∉ hostOps4_2_W) : W11 m c (Proc.devRef (τ := τ) .tc r) = m ((c.tc : Thread nD τ).loc r) :=
  (W11_keep m c r h11).trans <| (W10_keep m c r h10).trans <| (W9_keep m c r h9).trans (W8_arg m c r h0 h2 h3 h4 h5 h6 h7 h8)

/-! ## The degree norms, which only the first stretch writes -/

theorem W1_v9 : W1 m c (Proc.devRef (τ := τ) .tc main_v9) = Cert.ReferenceIdeal.Read.val_main_v9 (F := Ideal) (m ((c.tc : Thread nD τ).loc main_arg1)) :=
  (h0_v9 (W0 m c)).trans (congrArg _ (W0_eq m c main_arg1))
theorem W1_v12 : W1 m c (Proc.devRef (τ := τ) .tc main_v12) = Cert.ReferenceIdeal.Read.val_main_v12 (F := Ideal) (m ((c.tc : Thread nD τ).loc main_arg2)) :=
  (h0_v12 (W0 m c)).trans (congrArg _ (W0_eq m c main_arg2))
theorem W1_v13 : W1 m c (Proc.devRef (τ := τ) .tc main_v13) = Cert.ReferenceIdeal.Read.val_main_v14 (F := Ideal) (m ((c.tc : Thread nD τ).loc main_arg1)) :=
  (h0_v13 (W0 m c)).trans (congrArg _ (W0_eq m c main_arg1))

theorem W2_v9 : W2 m c (Proc.devRef (τ := τ) .tc main_v9) = Cert.ReferenceIdeal.Read.val_main_v9 (F := Ideal) (m ((c.tc : Thread nD τ).loc main_arg1)) :=
  (W2_keep m c main_v9 (by decide)).trans (W1_v9 m c)
theorem W2_v12 : W2 m c (Proc.devRef (τ := τ) .tc main_v12) = Cert.ReferenceIdeal.Read.val_main_v12 (F := Ideal) (m ((c.tc : Thread nD τ).loc main_arg2)) :=
  (W2_keep m c main_v12 (by decide)).trans (W1_v12 m c)
theorem W4_v9 : W4 m c (Proc.devRef (τ := τ) .tc main_v9) = Cert.ReferenceIdeal.Read.val_main_v9 (F := Ideal) (m ((c.tc : Thread nD τ).loc main_arg1)) :=
  (W4_keep m c main_v9 (by decide)).trans <| (W3_keep m c main_v9 (by decide)).trans (W2_v9 m c)
theorem W4_v12 : W4 m c (Proc.devRef (τ := τ) .tc main_v12) = Cert.ReferenceIdeal.Read.val_main_v12 (F := Ideal) (m ((c.tc : Thread nD τ).loc main_arg2)) :=
  (W4_keep m c main_v12 (by decide)).trans <| (W3_keep m c main_v12 (by decide)).trans (W2_v12 m c)
theorem W6_v12 : W6 m c (Proc.devRef (τ := τ) .tc main_v12) = Cert.ReferenceIdeal.Read.val_main_v12 (F := Ideal) (m ((c.tc : Thread nD τ).loc main_arg2)) :=
  (W6_keep m c main_v12 (by decide)).trans <| (W5_keep m c main_v12 (by decide)).trans (W4_v12 m c)

/-! ## Layer by layer -/

/-- Region 0 leaves the reference's first scaled product. -/
theorem W2_v14 : W2 m c (Proc.devRef (τ := τ) .tc main_v14)
    = Cert.ReferenceIdeal.Read.val_main_v16 (F := Ideal) (m ((c.tc : Thread nD τ).loc main_arg0)) (m ((c.tc : Thread nD τ).loc main_arg1)) (m ((c.tc : Thread nD τ).loc main_arg4)) :=
  (W2_out m c).trans (stage0 (V1 m) c _ _ _ (W1_arg m c main_arg0 (by decide)) (W1_arg m c main_arg4 (by decide)) (W1_v13 m c))

/-- The first edge aggregation and the two norm columns beside it. -/
def W3_stage := h1 (W2 m c) (m ((c.tc : Thread nD τ).loc main_arg0)) (m ((c.tc : Thread nD τ).loc main_arg1)) (m ((c.tc : Thread nD τ).loc main_arg2)) (m ((c.tc : Thread nD τ).loc main_arg4)) (W2_v14 m c)
  (W2_arg m c main_arg1 (by decide) (by decide)) (W2_arg m c main_arg2 (by decide) (by decide)) (W2_v9 m c) (W2_v12 m c)

/-- Region 1 leaves the reference's second scaled product. -/
theorem W4_v28 : W4 m c (Proc.devRef (τ := τ) .tc main_v28)
    = Cert.ReferenceIdeal.Read.val_main_v37 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) :=
  (W4_out m c).trans (stage1 (V3 m) c _ _ _ _ _ _ (W3_stage m c).1 (W3_stage m c).2.1
    (W3_arg m c main_arg5 (by decide) (by decide) (by decide)) (W3_arg m c main_arg6 (by decide) (by decide) (by decide)) (W3_stage m c).2.2)

def W5_stage := h2 (W4 m c) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (W4_v28 m c)
  (W4_arg m c main_arg1 (by decide) (by decide) (by decide) (by decide)) (W4_arg m c main_arg2 (by decide) (by decide) (by decide) (by decide))
  (W4_v9 m c) (W4_v12 m c)

/-- Region 2 leaves the reference's third scaled product. -/
theorem W6_v42 : W6 m c (Proc.devRef (τ := τ) .tc main_v42)
    = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) :=
  (W6_out m c).trans (stage2 (V5 m) c _ _ _ _ _ _ _ _ (W5_stage m c).1 (W5_stage m c).2.1
    (W5_arg m c main_arg7 (by decide) (by decide) (by decide) (by decide) (by decide))
    (W5_arg m c main_arg8 (by decide) (by decide) (by decide) (by decide) (by decide)) (W5_stage m c).2.2)

def W7_stage := h3 (W6 m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
  (m ((c.tc : Thread nD τ).loc main_arg7)) (m ((c.tc : Thread nD τ).loc main_arg8)) (W6_v42 m c)
  (W6_arg m c main_arg1 (by decide) (by decide) (by decide) (by decide) (by decide) (by decide))
  (W6_arg m c main_arg2 (by decide) (by decide) (by decide) (by decide) (by decide) (by decide))
  (W6_arg m c main_arg3 (by decide) (by decide) (by decide) (by decide) (by decide) (by decide)) (W6_v12 m c)

/-- Region 3 leaves the reference's per-graph sums. -/
theorem W8_v56 : W8 m c (Proc.devRef (τ := τ) .tc main_v56)
    = Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9)) :=
  (W8_out m c).trans (stage3 (V7 m) c _ _ _ _ _ _ _ _ _ _ (W7_stage m c).1 (W7_stage m c).2.1
    (W7_arg m c main_arg9 (by decide) (by decide) (by decide) (by decide) (by decide) (by decide) (by decide)) (W7_stage m c).2.2)

/-- The per-graph means, where no graph id is negative. -/
theorem W11_v72 (hpos : ∀ i, 0 ≤ ((m ((c.tc : Thread nD τ).loc main_arg3)) i).toInt) : W11 m c (Proc.devRef (τ := τ) .tc main_v72)
    = Cert.ReferenceIdeal.Read.val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9)) :=
  h4 (W8 m c) _ _ _ _ _ _ _ _ _ _ (W8_v56 m c)
    (W8_arg m c main_arg3 (by decide) (by decide) (by decide) (by decide) (by decide) (by decide) (by decide) (by decide)) hpos

/-- The classifier: the kernel's result is the reference's. -/
theorem W12_v73 (hpos : ∀ i, 0 ≤ ((m ((c.tc : Thread nD τ).loc main_arg3)) i).toInt) : W12 m c (Proc.devRef (τ := τ) .tc main_v73)
    = Cert.ReferenceIdeal.Read.val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
        (m ((c.tc : Thread nD τ).loc main_arg13)) (m ((c.tc : Thread nD τ).loc main_arg14)) (m ((c.tc : Thread nD τ).loc main_arg15)) :=
  (W12_out m c).trans (stage4 (V11 m) c _ _ _ _ _ _ _ _ _ _ _ _ _ _ _ _ (W11_v72 m c hpos)
    (W11_arg m c main_arg10 (by decide) (by decide) (by decide) (by decide) (by decide) (by decide) (by decide) (by decide) (by decide) (by decide) (by decide))
    (W11_arg m c main_arg11 (by decide) (by decide) (by decide) (by decide) (by decide) (by decide) (by decide) (by decide) (by decide) (by decide) (by decide))
    (W11_arg m c main_arg12 (by decide) (by decide) (by decide) (by decide) (by decide) (by decide) (by decide) (by decide) (by decide) (by decide) (by decide))
    (W11_arg m c main_arg13 (by decide) (by decide) (by decide) (by decide) (by decide) (by decide) (by decide) (by decide) (by decide) (by decide) (by decide))
    (W11_arg m c main_arg14 (by decide) (by decide) (by decide) (by decide) (by decide) (by decide) (by decide) (by decide) (by decide) (by decide) (by decide))
    (W11_arg m c main_arg15 (by decide) (by decide) (by decide) (by decide) (by decide) (by decide) (by decide) (by decide) (by decide) (by decide) (by decide)))

end Cert.KernelIdeal.HandV

end
-- ==== Proof.lean ====
/- The certificate of the graph-convolution network: three GraphConv layers, a per-graph mean and a three-layer
   classifier. The kernel program computes each layer's dense half in a TensorCore region (a matrix product scaled by the
   source-degree norm, the bias and relu of the previous layer folded in), pools with a one-hot matrix product accumulated
   over 25 row blocks, counts nodes per graph with an integer histogram and classifies in one last region; the reference
   does the same with host operations, pooling and counting by scatter-adds. Over the extended reals the two agree
   whenever no node's graph id is negative (the histogram clips a negative id into bin 0, the scatter-add drops it): the
   precondition says so. The frames come from one run of @main through its twelve segments (`Hand.run_all`); the value
   claim follows the buffers' contents through that run stage by stage (`HandV.W12_v73`) to the reference's last stage. -/
import proofs.«417676_j6554120093878_3_alg».proof.Defs
import proofs.«417676_j6554120093878_3_alg».proof.Proof.Gen.Kernel
import proofs.«417676_j6554120093878_3_alg».proof.Proof.Gen.KernelIdeal
import proofs.«417676_j6554120093878_3_alg».proof.Proof.Gen.ReferenceIdeal
import proofs.«417676_j6554120093878_3_alg».proof.Proof.Gen.Pre_finite_inputs
import proofs.«417676_j6554120093878_3_alg».proof.Proof.Gen.ReferenceIdeal.Run
import proofs.«417676_j6554120093878_3_alg».proof.Proof.Gen.ReferenceIdeal.Read
import proofs.«417676_j6554120093878_3_alg».proof.Proof.K.Run
import proofs.«417676_j6554120093878_3_alg».proof.Proof.KI.Run
import proofs.«417676_j6554120093878_3_alg».proof.Proof.Chain
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the reference's last stage of the (agreeing) arguments. -/
theorem algebraic : Cert.algebraic_KernelIdeal_ReferenceIdeal := by
  intro m ρ m' ρ' hpre hagree
  refine ⟨fun c => Cert.ReferenceIdeal.Read.val_main_v101 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run (Cert.KernelIdeal.defs (F := Ideal)) _ _).mono (fun r h c => ⟨(h c).1.trans ?_, (h c).2⟩)
      (Cert.KernelIdeal.Hand.run_val m ρ)
    exact Cert.KernelIdeal.HandV.W12_v73 m c (Cert.Bridge.pre_n2g _ _ _ _ _ _ _ _ _ _ _ _ _ _ _ _ (hpre c))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v101_eq]
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
